-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x4096x2 : Shape := ⟨3, ![16, 4096, 2]⟩
abbrev S16x4096x256 : Shape := ⟨3, ![16, 4096, 256]⟩
abbrev S64x256 : Shape := ⟨2, ![64, 256]⟩
abbrev S64 : Shape := ⟨1, ![64]⟩
abbrev S256x64 : Shape := ⟨2, ![256, 64]⟩
abbrev S256 : Shape := ⟨1, ![256]⟩
abbrev S256x512 : Shape := ⟨2, ![256, 512]⟩
abbrev S2x256 : Shape := ⟨2, ![2, 256]⟩
abbrev S2 : Shape := ⟨1, ![2]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x4096x2 : S_.BroadcastsInDim S16x4096x2 (![] : Fin 0 → Fin S16x4096x2.rank)
  reducesTo_S16x4096x2_S_d0_1_2 : S16x4096x2.ReducesTo [0, 1, 2] S_
  bcast_S_S16x4096x256 : S_.BroadcastsInDim S16x4096x256 (![] : Fin 0 → Fin S16x4096x256.rank)
  reducesTo_S16x4096x256_S_d0_1_2 : S16x4096x256.ReducesTo [0, 1, 2] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2x256 .f32) (main_arg19 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S2x256 .f32 := Host.absf main_arg18
  let main_cst_34 : FVec F S_ .f32 := constant S_ .f32 0x7F800000#32
  let main_v90 : FVec F S2x256 .f32 := broadcastInDim S2x256 ![] bcast_S_S2x256 main_cst_34
  let main_v91 : IVec S2x256 1 := cmpf .olt main_v89 main_v90
  let main_c_35 : IVec S_ 1 := constantI S_ 1 1#1
  let main_v92 : IVec S_ 1 := (fun x v => Host.reduce IntOp.andi x v reducesTo_S2x256_S_d0_1 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg14 : FVec F S256 .f32) (main_arg15 : FVec F S256 .f32) (main_arg16 : FVec F S256x512 .f32) (main_arg17 : FVec F S256 .f32) (main_arg18 : FVec F S2x256 .f32) (main_arg19 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x512 .f32 := Host.absf main_arg16
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S256x64 .f32) (main_arg13 : FVec F S256 .f32) (main_arg14 : FVec F S256 .f32) (main_arg15 : FVec F S256 .f32) (main_arg16 : FVec F S256x512 .f32) (main_arg17 : FVec F S256 .f32) (main_arg18 : FVec F S2x256 .f32) (main_arg19 : FVec F S2 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256 .f32) (main_arg9 : FVec F S256 .f32) (main_arg10 : FVec F S64x256 .f32) (main_arg11 : FVec F S64 .f32) (main_arg12 : FVec F S256x64 .f32) (main_arg13 : FVec F S256 .f32) (main_arg14 : FVec F S256 .f32) (main_arg15 : FVec F S256 .f32) (main_arg16 : FVec F S256x512 .f32) (main_arg17 : FVec F S256 .f32) (main_arg18 : FVec F S2x256 .f32) (main_arg19 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg10
  let main_cst_18 : FVec F S_ .f32 := constant S_ .f32 0x7F800000#32
  let main_v50 : FVec F S64x256 .f32 := broadcastInDim S64x256 ![] bcast_S_S64x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x256 .f32) (main_arg5 : FVec F S64 .f32) (main_arg6 : FVec F S256x64 .f32) (main_arg7 : FVec F S256 .f32) (main_arg8 : FVec F S256 .f32) (main_arg9 : FVec F S256 .f32) (main_arg10 : FVec F S64x256 .f32) (main_arg11 : FVec F S64 .f32) (main_arg12 : FVec F S256x64 .f32) (main_arg13 : FVec F S256 .f32) (main_arg14 : FVec F S256 .f32) (main_arg15 : FVec F S256 .f32) (main_arg16 : FVec F S256x512 .f32) (main_arg17 : FVec F S256 .f32) (main_arg18 : FVec F S2x256 .f32) (main_arg19 : FVec F S2 .f32) (main_v13 : IVec S_ 1) (main_v16 : IVec S16x4096x256 1) : IVec S_ 1 :=
  let main_c_5 : IVec S_ 1 := constantI S_ 1 1#1
  let main_v17 : IVec S_ 1 := (fun x v => Host.reduce IntOp.andi x v reducesTo_S16x4096x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16x2048x256 .f32) (main_arg1 : FVec F S16x4096x2 .f32) (main_arg2 : FVec F S16x4096x256 .f32) (main_arg3 : FVec F S16x4096x256 .f32) (main_arg4 : FVec F S64x256 .f32) (main_arg5 : FVec F S64 .f32) (main_arg6 : FVec F S256x64 .f32) (main_arg7 : FVec F S256 .f32) (main_arg8 : FVec F S256 .f32) (main_arg9 : FVec F S256 .f32) (main_arg10 : FVec F S64x256 .f32) (main_arg11 : FVec F S64 .f32) (main_arg12 : FVec F S256x64 .f32) (main_arg13 : FVec F S256 .f32) (main_arg14 : FVec F S256 .f32) (main_arg15 : FVec F S256 .f32) (main_arg16 : FVec F S256x512 .f32) (main_arg17 : FVec F S256 .f32) (main_arg18 : FVec F S2x256 .f32) (main_arg19 : FVec F S2 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x4096x2 .f32 := Host.absf main_arg1
  let main_cst_0 : FVec F S_ .f32 := constant S_ .f32 0x7F800000#32
  let main_v5 : FVec F S16x4096x2 .f32 := broadcastInDim S16x4096x2 ![] bcast_S_S16x4096x2 main_cst_0
  let main_v6 : IVec S16x4096x2 1 := cmpf .olt main_v4 main_v5
  let main_c_1 : IVec S_ 1 := constantI S_ 1 1#1
  let main_v7 : IVec S_ 1 := (fun x v => Host.reduce IntOp.andi x v reducesTo_S16x4096x2_S_d0_1_2 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S16x4096x256 .f32 := Host.absf main_arg3
  let main_cst_4 : FVec F S_ .f32 := constant S_ .f32 0x7F800000#32
  let main_v15 : FVec F S16x4096x256 .f32 := broadcastInDim S16x4096x256 ![] bcast_S_S16x4096x256 main_cst_4
  let main_v16 : IVec S16x4096x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16x2048x256 : Shape := ⟨3, ![16, 2048, 256]⟩
abbrev S16x4096x2 : Shape := ⟨3, ![16, 4096, 2]⟩
abbrev S16x4096x256 : Shape := ⟨3, ![16, 4096, 256]⟩
abbrev S64x256 : Shape := ⟨2, ![64, 256]⟩
abbrev S64 : Shape := ⟨1, ![64]⟩
abbrev S256x64 : Shape := ⟨2, ![256, 64]⟩
abbrev S256 : Shape := ⟨1, ![256]⟩
abbrev S256x512 : Shape := ⟨2, ![256, 512]⟩
abbrev S2x256 : Shape := ⟨2, ![2, 256]⟩
abbrev S2 : Shape := ⟨1, ![2]⟩
abbrev S16x4096x1 : Shape := ⟨3, ![16, 4096, 1]⟩
abbrev S16x4096 : Shape := ⟨2, ![16, 4096]⟩
abbrev S_ : Shape := ⟨0, ![]⟩
abbrev S1 : Shape := ⟨1, ![1]⟩
abbrev S1x1x1 : Shape := ⟨3, ![1, 1, 1]⟩
abbrev S256x256 : Shape := ⟨2, ![256, 256]⟩
abbrev S256x2 : Shape := ⟨2, ![256, 2]⟩
abbrev S4096x4096 : Shape := ⟨2, ![4096, 4096]⟩
abbrev S1x2048x256 : Shape := ⟨3, ![1, 2048, 256]⟩
abbrev S2048x256 : Shape := ⟨2, ![2048, 256]⟩
abbrev S2048x64 : Shape := ⟨2, ![2048, 64]⟩
abbrev S1x64 : Shape := ⟨2, ![1, 64]⟩
abbrev S1x256 : Shape := ⟨2, ![1, 256]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩
abbrev S4096x16x256 : Shape := ⟨3, ![4096, 16, 256]⟩

abbrev nBuf : Space → Nat
  | .hbm => 122
  | .vmem => 27
  | .smem => 0
  | _ => 0

abbrev bufTy : (tb : Table) → Fin (tcTables nBuf tb) → BufTy
  | .hbm, ⟨0, _⟩ => ⟨S16x2048x256, .f32⟩
  | .hbm, ⟨1, _⟩ => ⟨S16x4096x2, .f32⟩
  | .hbm, ⟨2, _⟩ => ⟨S16x4096x256, .f32⟩
  | .hbm, ⟨3, _⟩ => ⟨S16x4096x256, .f32⟩
  | .hbm, ⟨4, _⟩ => ⟨S64x256, .f32⟩
  | .hbm, ⟨5, _⟩ => ⟨S64, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S64x256, .f32⟩
  | .hbm, ⟨11, _⟩ => ⟨S64, .f32⟩
  | .hbm, ⟨12, _⟩ => ⟨S256x64, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x512, .f32⟩
  | .hbm, ⟨17, _⟩ => ⟨S256, .f32⟩
  | .hbm, ⟨18, _⟩ => ⟨S2x256, .f32⟩
  | .hbm, ⟨19, _⟩ => ⟨S2, .f32⟩
  | .hbm, ⟨20, _⟩ => ⟨S16x4096x1, .f32⟩
  | .hbm, ⟨21, _⟩ => ⟨S16x4096, .f32⟩
  | .hbm, ⟨22, _⟩ => ⟨S16x4096x1, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S16x4096, .f32⟩
  | .hbm, ⟨35, _⟩ => ⟨S16x4096, .f32⟩
  | .hbm, ⟨36, _⟩ => ⟨S_, .f32⟩
  | .hbm, ⟨37, _⟩ => ⟨S16x4096, .f32⟩
  | .hbm, ⟨38, _⟩ => ⟨S16x4096, .f32⟩
  | .hbm, ⟨39, _⟩ => ⟨S16x4096, .f32⟩
  | .hbm, ⟨40, _⟩ => ⟨S16x4096, .i32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .f32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S16x4096, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S16x4096, .f32⟩
  | .hbm, ⟨57, _⟩ => ⟨S16x4096, .i32⟩
  | .hbm, ⟨58, _⟩ => ⟨S16x4096x1, .i32⟩
  | .hbm, ⟨59, _⟩ => ⟨S_, .i32⟩
  | .hbm, ⟨60, _⟩ => ⟨S16x4096x1, .i32⟩
  | .hbm, ⟨61, _⟩ => ⟨S16x4096x1, .i1⟩
  | .hbm, ⟨62, _⟩ => ⟨S_, .i32⟩
  | .hbm, ⟨63, _⟩ => ⟨S16x4096x1, .i32⟩
  | .hbm, ⟨64, _⟩ => ⟨S16x4096x1, .i32⟩
  | .hbm, ⟨65, _⟩ => ⟨S16x4096x1, .i32⟩
  | .hbm, ⟨66, _⟩ => ⟨S1, .i32⟩
  | .hbm, ⟨67, _⟩ => ⟨S_, .i32⟩
  | .hbm, ⟨68, _⟩ => ⟨S16x4096x1, .i32⟩
  | .hbm, ⟨69, _⟩ => ⟨S16x4096x1, .i1⟩
  | .hbm, ⟨70, _⟩ => ⟨S1x1x1, .i32⟩
  | .hbm, ⟨71, _⟩ => ⟨S16x4096x1, .i32⟩
  | .hbm, ⟨72, _⟩ => ⟨S16x4096x1, .i1⟩
  | .hbm, ⟨73, _⟩ => ⟨S16x4096x1, .i1⟩
  | .hbm, ⟨74, _⟩ => ⟨S_, .i1⟩
  | .hbm, ⟨75, _⟩ => ⟨S16x4096, .i1⟩
  | .hbm, ⟨76, _⟩ => ⟨S16x4096x256, .f32⟩
  | .hbm, ⟨77, _⟩ => ⟨S16x4096x256, .i1⟩
  | .hbm, ⟨78, _⟩ => ⟨S_, .f32⟩
  | .hbm, ⟨79, _⟩ => ⟨S16x4096x256, .f32⟩
  | .hbm, ⟨80, _⟩ => ⟨S16x4096x256, .f32⟩
  | .hbm, ⟨81, _⟩ => ⟨S16x4096x1, .i32⟩
  | .hbm, ⟨82, _⟩ => ⟨S_, .i32⟩
  | .hbm, ⟨83, _⟩ => ⟨S16x4096x1, .i32⟩
  | .hbm, ⟨84, _⟩ => ⟨S16x4096x1, .i1⟩
  | .hbm, ⟨85, _⟩ => ⟨S_, .i32⟩
  | .hbm, ⟨86, _⟩ => ⟨S16x4096x1, .i32⟩
  | .hbm, ⟨87, _⟩ => ⟨S16x4096x1, .i32⟩
  | .hbm, ⟨88, _⟩ => ⟨S16x4096x1, .i32⟩
  | .hbm, ⟨89, _⟩ => ⟨S1, .i32⟩
  | .hbm, ⟨90, _⟩ => ⟨S_, .i32⟩
  | .hbm, ⟨91, _⟩ => ⟨S16x4096x1, .i32⟩
  | .hbm, ⟨92, _⟩ => ⟨S16x4096x1, .i1⟩
  | .hbm, ⟨93, _⟩ => ⟨S1x1x1, .i32⟩
  | .hbm, ⟨94, _⟩ => ⟨S16x4096x1, .i32⟩
  | .hbm, ⟨95, _⟩ => ⟨S16x4096x1, .i1⟩
  | .hbm, ⟨96, _⟩ => ⟨S16x4096x1, .i1⟩
  | .hbm, ⟨97, _⟩ => ⟨S_, .i1⟩
  | .hbm, ⟨98, _⟩ => ⟨S16x4096, .i1⟩
  | .hbm, ⟨99, _⟩ => ⟨S16x4096x256, .f32⟩
  | .hbm, ⟨100, _⟩ => ⟨S16x4096x256, .i1⟩
  | .hbm, ⟨101, _⟩ => ⟨S_, .f32⟩
  | .hbm, ⟨102, _⟩ => ⟨S16x4096x256, .f32⟩
  | .hbm, ⟨103, _⟩ => ⟨S16x4096x256, .f32⟩
  | .hbm, ⟨104, _⟩ => ⟨S256x64, .f32⟩
  | .hbm, ⟨105, _⟩ => ⟨S256x64, .bf16⟩
  | .hbm, ⟨106, _⟩ => ⟨S64x256, .f32⟩
  | .hbm, ⟨107, _⟩ => ⟨S64x256, .bf16⟩
  | .hbm, ⟨108, _⟩ => ⟨S256x64, .f32⟩
  | .hbm, ⟨109, _⟩ => ⟨S256x64, .bf16⟩
  | .hbm, ⟨110, _⟩ => ⟨S64x256, .f32⟩
  | .hbm, ⟨111, _⟩ => ⟨S64x256, .bf16⟩
  | .hbm, ⟨112, _⟩ => ⟨S256x256, .f32⟩
  | .hbm, ⟨113, _⟩ => ⟨S256x256, .f32⟩
  | .hbm, ⟨114, _⟩ => ⟨S256x256, .bf16⟩
  | .hbm, ⟨115, _⟩ => ⟨S256x256, .f32⟩
  | .hbm, ⟨116, _⟩ => ⟨S256x256, .f32⟩
  | .hbm, ⟨117, _⟩ => ⟨S256x256, .bf16⟩
  | .hbm, ⟨118, _⟩ => ⟨S256x2, .f32⟩
  | .hbm, ⟨119, _⟩ => ⟨S256x2, .bf16⟩
  | .hbm, ⟨120, _⟩ => ⟨S4096x4096, .f32⟩
  | .hbm, ⟨121, _⟩ => ⟨S4096x16x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S256x64, .bf16⟩
  | .local _ .vmem, ⟨9, _⟩ => ⟨S64, .f32⟩
  | .local _ .vmem, ⟨10, _⟩ => ⟨S64x256, .bf16⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256x64, .bf16⟩
  | .local _ .vmem, ⟨15, _⟩ => ⟨S64, .f32⟩
  | .local _ .vmem, ⟨16, _⟩ => ⟨S64x256, .bf16⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256x256, .bf16⟩
  | .local _ .vmem, ⟨21, _⟩ => ⟨S256x256, .bf16⟩
  | .local _ .vmem, ⟨22, _⟩ => ⟨S256, .f32⟩
  | .local _ .vmem, ⟨23, _⟩ => ⟨S256x2, .bf16⟩
  | .local _ .vmem, ⟨24, _⟩ => ⟨S2, .f32⟩
  | .local _ .vmem, ⟨25, _⟩ => ⟨S2048x256, .f32⟩
  | .local _ .vmem, ⟨26, _⟩ => ⟨S2048x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_c_1 : Ref sig .tc := ⟨.hbm, 66, rfl⟩
abbrev main_call4_c_2 : Ref sig .tc := ⟨.hbm, 67, rfl⟩
abbrev main_call4_v5 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_c_3 : Ref sig .tc := ⟨.hbm, 74, rfl⟩
abbrev main_call4_v11 : Ref sig .tc := ⟨.hbm, 75, rfl⟩
abbrev main_call4_v12 : Ref sig .tc := ⟨.hbm, 76, rfl⟩
abbrev main_call4_v13 : Ref sig .tc := ⟨.hbm, 77, rfl⟩
abbrev main_call4_cst : Ref sig .tc := ⟨.hbm, 78, rfl⟩
abbrev main_call4_v14 : Ref sig .tc := ⟨.hbm, 79, rfl⟩
abbrev main_v21 : Ref sig .tc := ⟨.hbm, 80, rfl⟩
abbrev main_v22 : Ref sig .tc := ⟨.hbm, 81, rfl⟩
abbrev main_call5_c : Ref sig .tc := ⟨.hbm, 82, rfl⟩
abbrev main_call5_v0 : Ref sig .tc := ⟨.hbm, 83, rfl⟩
abbrev main_call5_v1 : Ref sig .tc := ⟨.hbm, 84, rfl⟩
abbrev main_call5_c_0 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_c_1 : Ref sig .tc := ⟨.hbm, 89, rfl⟩
abbrev main_call5_c_2 : Ref sig .tc := ⟨.hbm, 90, rfl⟩
abbrev main_call5_v5 : Ref sig .tc := ⟨.hbm, 91, rfl⟩
abbrev main_call5_v6 : Ref sig .tc := ⟨.hbm, 92, rfl⟩
abbrev main_call5_v7 : Ref sig .tc := ⟨.hbm, 93, rfl⟩
abbrev main_call5_v8 : Ref sig .tc := ⟨.hbm, 94, rfl⟩
abbrev main_call5_v9 : Ref sig .tc := ⟨.hbm, 95, rfl⟩
abbrev main_call5_v10 : Ref sig .tc := ⟨.hbm, 96, rfl⟩
abbrev main_call5_c_3 : Ref sig .tc := ⟨.hbm, 97, rfl⟩
abbrev main_call5_v11 : Ref sig .tc := ⟨.hbm, 98, rfl⟩
abbrev main_call5_v12 : Ref sig .tc := ⟨.hbm, 99, rfl⟩
abbrev main_call5_v13 : Ref sig .tc := ⟨.hbm, 100, rfl⟩
abbrev main_call5_cst : Ref sig .tc := ⟨.hbm, 101, rfl⟩
abbrev main_call5_v14 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x2 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S2 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S2048x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

class Facts₀ : Prop where
  slices_S16x4096x2_S16x4096x1_0_0_0 : S16x4096x2.Slices ![0, 0, 0] S16x4096x1
  shapeCasts_S16x4096x1_S16x4096 : S16x4096x1.ShapeCasts S16x4096
  slices_S16x4096x2_S16x4096x1_0_0_1 : S16x4096x2.Slices ![0, 0, 1] S16x4096x1
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  h_S_ : 0 < S_.numel
  bcast_S16x4096_S16x4096x256_0_1 : S16x4096.BroadcastsInDim S16x4096x256 (![0, 1] : Fin 2 → Fin S16x4096x256.rank)
  bcast_S_S16x4096x256 : S_.BroadcastsInDim S16x4096x256 (![] : Fin 0 → Fin S16x4096x256.rank)
  transposes_S64x256_S256x64_1_0 : S64x256.Transposes [1, 0] S256x64
  bitsLt_bf16_f32 : FTy.bits .bf16 < FTy.bits .f32
  transposes_S256x64_S64x256_1_0 : S256x64.Transposes [1, 0] S64x256
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S2x256_S256x2_1_0 : S2x256.Transposes [1, 0] S256x2
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  shapeCasts_S64_S1x64 : S64.ShapeCasts S1x64
  broadcasts_S1x64_S2048x64 : S1x64.Broadcasts S2048x64
  shapeCasts_S256_S1x256 : S256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  shapeCasts_S2_S1x2 : S2.ShapeCasts S1x2
  broadcasts_S1x2_S2048x2 : S1x2.Broadcasts S2048x2
  slices_S2048x2_o0_0_S2048x1 : S2048x2.Slices ![0, 0] S2048x1
  slices_S2048x2_o0_1_S2048x1 : S2048x2.Slices ![0, 1] S2048x1
  inb_S2048x256_S2048x256_0_0 : ∀ a, (![0, 0] : Fin 2 → Nat) a + S2048x256.size a ≤ S2048x256.size a
  h_S2048x256 : 0 < S2048x256.numel
  shapeCasts_S4096x4096_S4096x16x256 : S4096x4096.ShapeCasts S4096x16x256
  gather_S16x2048x256_S16x4096x1_S16x4096x256_2_1_0_0_1_2_11256_wf : GatherDims.WF S16x2048x256 S16x4096x1 S16x4096x256 [2] [1] [0] [1] [0] 2 ![1, 1, 256]
  dot_S2048x256_S256x64_S2048x64_1_0_0_1_n_n_wf : DotDims.WF S2048x256 S256x64 S2048x64 [1] [0] [0] [1] [] []
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x4096x256.size a
  hwx0_0 : ∀ i : grid0.Coords, EltTy.bits .f32 = 32 ∨ (Rect.block (s := S16x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x4096x256.size a
  hwx0_1 : ∀ i : grid0.Coords, EltTy.bits .f32 = 32 ∨ (Rect.block (s := S16x4096x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x4096x256.size a
  hwx0_2 : ∀ i : grid0.Coords, EltTy.bits .f32 = 32 ∨ (Rect.block (s := S16x4096x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x4096x256.size a
  hwx0_3 : ∀ i : grid0.Coords, EltTy.bits .f32 = 32 ∨ (Rect.block (s := S16x4096x256) S1x2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .bf16 = 32 ∨ (Rect.block (s := S256x64) S256x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x256.size a ≤ S64x256.size a
  hwx0_12 : ∀ i : grid0.Coords, EltTy.bits .bf16 = 32 ∨ (Rect.block (s := S64x256) S64x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x2.size a ≤ S256x2.size a
  hwx0_19 : ∀ i : grid0.Coords, EltTy.bits .bf16 = 32 ∨ (Rect.block (s := S256x2) S256x2.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S2.size a ≤ S2.size a
  hwx0_20 : ∀ i : grid0.Coords, EltTy.bits .f32 = 32 ∨ (Rect.block (s := S2) S2.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x256.size a ≤ S4096x4096.size a
  hwx0_21 : ∀ i : grid0.Coords, EltTy.bits .f32 = 32 ∨ (Rect.block (s := S4096x4096) S2048x256.size (cc0_transform_21 i) (hinb0_21 i)).WholeWords (EltTy.packing .f32)

variable [Facts₀]

def gather_S16x2048x256_S16x4096x1_S16x4096x256_2_1_0_0_1_2_11256 : GatherDims S16x2048x256 S16x4096x1 S16x4096x256 where
  offsetDims := [2]
  collapsedSliceDims := [1]
  operandBatchingDims := [0]
  startIndicesBatchingDims := [0]
  startIndexMap := [1]
  indexVectorDim := 2
  sliceSizes := ![1, 1, 256]
  wf := gather_S16x2048x256_S16x4096x1_S16x4096x256_2_1_0_0_1_2_11256_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_v21) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S64x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v37) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v39) S256x2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S2.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v40) S2048x256.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x4096x2 : Shape := ⟨3, ![16, 4096, 2]⟩
abbrev S16x4096x256 : Shape := ⟨3, ![16, 4096, 256]⟩
abbrev S64x256 : Shape := ⟨2, ![64, 256]⟩
abbrev S64 : Shape := ⟨1, ![64]⟩
abbrev S256x64 : Shape := ⟨2, ![256, 64]⟩
abbrev S256 : Shape := ⟨1, ![256]⟩
abbrev S256x512 : Shape := ⟨2, ![256, 512]⟩
abbrev S2x256 : Shape := ⟨2, ![2, 256]⟩
abbrev S2 : Shape := ⟨1, ![2]⟩
abbrev S16x4096x1 : Shape := ⟨3, ![16, 4096, 1]⟩
abbrev S16x4096 : Shape := ⟨2, ![16, 4096]⟩
abbrev S_ : Shape := ⟨0, ![]⟩
abbrev S1 : Shape := ⟨1, ![1]⟩
abbrev S1x1x1 : Shape := ⟨3, ![1, 1, 1]⟩
abbrev S16x4096x64 : Shape := ⟨3, ![16, 4096, 64]⟩
abbrev S1x1x64 : Shape := ⟨3, ![1, 1, 64]⟩
abbrev S1x1x256 : Shape := ⟨3, ![1, 1, 256]⟩
abbrev S16x4096x512 : Shape := ⟨3, ![16, 4096, 512]⟩
abbrev S1x1x2 : Shape := ⟨3, ![1, 1, 2]⟩
abbrev S4096x16x256 : Shape := ⟨3, ![4096, 16, 256]⟩

abbrev nBuf : Space → Nat
  | .hbm => 242
  | .vmem => 0
  | .smem => 0
  | _ => 0

abbrev hbmTy0_0 (i : Nat) : BufTy := match i % 128 with
  | 0 => ⟨S16x2048x256, .f32⟩
  | 1 => ⟨S16x4096x2, .f32⟩
  | 2 => ⟨S16x4096x256, .f32⟩
  | 3 => ⟨S16x4096x256, .f32⟩
  | 4 => ⟨S64x256, .f32⟩
  | 5 => ⟨S64, .f32⟩
  | 6 => ⟨S256x64, .f32⟩
  | 7 => ⟨S256, .f32⟩
  | 8 => ⟨S256, .f32⟩
  | 9 => ⟨S256, .f32⟩
  | 10 => ⟨S64x256, .f32⟩
  | 11 => ⟨S64, .f32⟩
  | 12 => ⟨S256x64, .f32⟩
  | 13 => ⟨S256, .f32⟩
  | 14 => ⟨S256, .f32⟩
  | 15 => ⟨S256, .f32⟩
  | 16 => ⟨S256x512, .f32⟩
  | 17 => ⟨S256, .f32⟩
  | 18 => ⟨S2x256, .f32⟩
  | 19 => ⟨S2, .f32⟩
  | 20 => ⟨S16x4096x1, .f32⟩
  | 21 => ⟨S16x4096, .f32⟩
  | 22 => ⟨S16x4096x1, .f32⟩
  | 23 => ⟨S16x4096, .f32⟩
  | 24 => ⟨S_, .f32⟩
  | 25 => ⟨S16x4096, .f32⟩
  | 26 => ⟨S16x4096, .f32⟩
  | 27 => ⟨S16x4096, .f32⟩
  | 28 => ⟨S_, .f32⟩
  | 29 => ⟨S16x4096, .f32⟩
  | 30 => ⟨S16x4096, .f32⟩
  | 31 => ⟨S_, .i32⟩
  | 32 => ⟨S_, .i32⟩
  | 33 => ⟨S_, .f32⟩
  | 34 => ⟨S16x4096, .f32⟩
  | 35 => ⟨S16x4096, .f32⟩
  | 36 => ⟨S_, .f32⟩
  | 37 => ⟨S16x4096, .f32⟩
  | 38 => ⟨S16x4096, .f32⟩
  | 39 => ⟨S16x4096, .f32⟩
  | 40 => ⟨S16x4096, .i32⟩
  | 41 => ⟨S_, .f32⟩
  | 42 => ⟨S16x4096, .f32⟩
  | 43 => ⟨S16x4096, .f32⟩
  | 44 => ⟨S16x4096, .f32⟩
  | 45 => ⟨S_, .f32⟩
  | 46 => ⟨S16x4096, .f32⟩
  | 47 => ⟨S16x4096, .f32⟩
  | 48 => ⟨S_, .i32⟩
  | 49 => ⟨S_, .i32⟩
  | 50 => ⟨S_, .f32⟩
  | 51 => ⟨S16x4096, .f32⟩
  | 52 => ⟨S16x4096, .f32⟩
  | 53 => ⟨S_, .f32⟩
  | 54 => ⟨S16x4096, .f32⟩
  | 55 => ⟨S16x4096, .f32⟩
  | 56 => ⟨S16x4096, .f32⟩
  | 57 => ⟨S16x4096, .i32⟩
  | 58 => ⟨S16x4096x1, .i32⟩
  | 59 => ⟨S_, .i32⟩
  | 60 => ⟨S16x4096x1, .i32⟩
  | 61 => ⟨S16x4096x1, .i1⟩
  | 62 => ⟨S_, .i32⟩
  | 63 => ⟨S16x4096x1, .i32⟩
  | 64 => ⟨S16x4096x1, .i32⟩
  | 65 => ⟨S16x4096x1, .i32⟩
  | 66 => ⟨S1, .i32⟩
  | 67 => ⟨S_, .i32⟩
  | 68 => ⟨S16x4096x1, .i32⟩
  | 69 => ⟨S16x4096x1, .i1⟩
  | 70 => ⟨S1x1x1, .i32⟩
  | 71 => ⟨S16x4096x1, .i32⟩
  | 72 => ⟨S16x4096x1, .i1⟩
  | 73 => ⟨S16x4096x1, .i1⟩
  | 74 => ⟨S_, .i1⟩
  | 75 => ⟨S16x4096, .i1⟩
  | 76 => ⟨S16x4096x256, .f32⟩
  | 77 => ⟨S16x4096x256, .i1⟩
  | 78 => ⟨S_, .f32⟩
  | 79 => ⟨S16x4096x256, .f32⟩
  | 80 => ⟨S16x4096x256, .f32⟩
  | 81 => ⟨S16x4096x1, .i32⟩
  | 82 => ⟨S_, .i32⟩
  | 83 => ⟨S16x4096x1, .i32⟩
  | 84 => ⟨S16x4096x1, .i1⟩
  | 85 => ⟨S_, .i32⟩
  | 86 => ⟨S16x4096x1, .i32⟩
  | 87 => ⟨S16x4096x1, .i32⟩
  | 88 => ⟨S16x4096x1, .i32⟩
  | 89 => ⟨S1, .i32⟩
  | 90 => ⟨S_, .i32⟩
  | 91 => ⟨S16x4096x1, .i32⟩
  | 92 => ⟨S16x4096x1, .i1⟩
  | 93 => ⟨S1x1x1, .i32⟩
  | 94 => ⟨S16x4096x1, .i32⟩
  | 95 => ⟨S16x4096x1, .i1⟩
  | 96 => ⟨S16x4096x1, .i1⟩
  | 97 => ⟨S_, .i1⟩
  | 98 => ⟨S16x4096, .i1⟩
  | 99 => ⟨S16x4096x256, .f32⟩
  | 100 => ⟨S16x4096x256, .i1⟩
  | 101 => ⟨S_, .f32⟩
  | 102 => ⟨S16x4096x256, .f32⟩
  | 103 => ⟨S16x4096x256, .f32⟩
  | 104 => ⟨S16x4096x256, .f32⟩
  | 105 => ⟨S16x4096x64, .f32⟩
  | 106 => ⟨S1x1x64, .f32⟩
  | 107 => ⟨S16x4096x64, .f32⟩
  | 108 => ⟨S16x4096x64, .f32⟩
  | 109 => ⟨S_, .f32⟩
  | 110 => ⟨S16x4096x64, .f32⟩
  | 111 => ⟨S16x4096x64, .f32⟩
  | 112 => ⟨S16x4096x256, .f32⟩
  | 113 => ⟨S1x1x256, .f32⟩
  | 114 => ⟨S16x4096x256, .f32⟩
  | 115 => ⟨S16x4096x256, .f32⟩
  | 116 => ⟨S_, .f32⟩
  | 117 => ⟨S16x4096, .f32⟩
  | 118 => ⟨S16x4096x1, .f32⟩
  | 119 => ⟨S_, .f32⟩
  | 120 => ⟨S16x4096x1, .f32⟩
  | 121 => ⟨S16x4096x1, .f32⟩
  | 122 => ⟨S16x4096x256, .f32⟩
  | 123 => ⟨S16x4096x256, .f32⟩
  | 124 => ⟨S16x4096x256, .f32⟩
  | 125 => ⟨S_, .f32⟩
  | 126 => ⟨S16x4096, .f32⟩
  | 127 => ⟨S16x4096x1, .f32⟩
  | _ => ⟨S16x2048x256, .f32⟩

abbrev hbmTy0_1 (i : Nat) : BufTy := match i % 128 with
  | 0 => ⟨S_, .f32⟩
  | 1 => ⟨S16x4096x1, .f32⟩
  | 2 => ⟨S16x4096x1, .f32⟩
  | 3 => ⟨S16x4096x256, .f32⟩
  | 4 => ⟨S16x4096x256, .f32⟩
  | 5 => ⟨S_, .f32⟩
  | 6 => ⟨S16x4096x1, .f32⟩
  | 7 => ⟨S16x4096x1, .f32⟩
  | 8 => ⟨S16x4096x1, .f32⟩
  | 9 => ⟨S16x4096x256, .f32⟩
  | 10 => ⟨S16x4096x256, .f32⟩
  | 11 => ⟨S1x1x256, .f32⟩
  | 12 => ⟨S16x4096x256, .f32⟩
  | 13 => ⟨S16x4096x256, .f32⟩
  | 14 => ⟨S1x1x256, .f32⟩
  | 15 => ⟨S16x4096x256, .f32⟩
  | 16 => ⟨S16x4096x256, .f32⟩
  | 17 => ⟨S16x4096x256, .f32⟩
  | 18 => ⟨S16x4096x256, .f32⟩
  | 19 => ⟨S_, .f32⟩
  | 20 => ⟨S16x4096x256, .f32⟩
  | 21 => ⟨S16x4096x256, .f32⟩
  | 22 => ⟨S_, .f32⟩
  | 23 => ⟨S16x4096x256, .f32⟩
  | 24 => ⟨S16x4096x256, .f32⟩
  | 25 => ⟨S16x4096x256, .f32⟩
  | 26 => ⟨S16x4096x256, .f32⟩
  | 27 => ⟨S16x4096x64, .f32⟩
  | 28 => ⟨S1x1x64, .f32⟩
  | 29 => ⟨S16x4096x64, .f32⟩
  | 30 => ⟨S16x4096x64, .f32⟩
  | 31 => ⟨S_, .f32⟩
  | 32 => ⟨S16x4096x64, .f32⟩
  | 33 => ⟨S16x4096x64, .f32⟩
  | 34 => ⟨S16x4096x256, .f32⟩
  | 35 => ⟨S1x1x256, .f32⟩
  | 36 => ⟨S16x4096x256, .f32⟩
  | 37 => ⟨S16x4096x256, .f32⟩
  | 38 => ⟨S_, .f32⟩
  | 39 => ⟨S16x4096, .f32⟩
  | 40 => ⟨S16x4096x1, .f32⟩
  | 41 => ⟨S_, .f32⟩
  | 42 => ⟨S16x4096x1, .f32⟩
  | 43 => ⟨S16x4096x1, .f32⟩
  | 44 => ⟨S16x4096x256, .f32⟩
  | 45 => ⟨S16x4096x256, .f32⟩
  | 46 => ⟨S16x4096x256, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S16x4096x256, .f32⟩
  | 54 => ⟨S16x4096x256, .f32⟩
  | 55 => ⟨S_, .f32⟩
  | 56 => ⟨S16x4096x1, .f32⟩
  | 57 => ⟨S16x4096x1, .f32⟩
  | 58 => ⟨S16x4096x1, .f32⟩
  | 59 => ⟨S16x4096x256, .f32⟩
  | 60 => ⟨S16x4096x256, .f32⟩
  | 61 => ⟨S1x1x256, .f32⟩
  | 62 => ⟨S16x4096x256, .f32⟩
  | 63 => ⟨S16x4096x256, .f32⟩
  | 64 => ⟨S1x1x256, .f32⟩
  | 65 => ⟨S16x4096x256, .f32⟩
  | 66 => ⟨S16x4096x256, .f32⟩
  | 67 => ⟨S16x4096x256, .f32⟩
  | 68 => ⟨S16x4096x256, .f32⟩
  | 69 => ⟨S_, .f32⟩
  | 70 => ⟨S16x4096x256, .f32⟩
  | 71 => ⟨S16x4096x256, .f32⟩
  | 72 => ⟨S_, .f32⟩
  | 73 => ⟨S16x4096x256, .f32⟩
  | 74 => ⟨S16x4096x256, .f32⟩
  | 75 => ⟨S16x4096x256, .f32⟩
  | 76 => ⟨S16x4096x256, .f32⟩
  | 77 => ⟨S_, .f32⟩
  | 78 => ⟨S16x4096x256, .f32⟩
  | 79 => ⟨S16x4096x256, .f32⟩
  | 80 => ⟨S16x4096x512, .f32⟩
  | 81 => ⟨S16x4096x256, .f32⟩
  | 82 => ⟨S1x1x256, .f32⟩
  | 83 => ⟨S16x4096x256, .f32⟩
  | 84 => ⟨S16x4096x256, .f32⟩
  | 85 => ⟨S_, .f32⟩
  | 86 => ⟨S16x4096x256, .f32⟩
  | 87 => ⟨S16x4096x256, .f32⟩
  | 88 => ⟨S16x4096x2, .f32⟩
  | 89 => ⟨S1x1x2, .f32⟩
  | 90 => ⟨S16x4096x2, .f32⟩
  | 91 => ⟨S16x4096x2, .f32⟩
  | 92 => ⟨S_, .f32⟩
  | 93 => ⟨S16x4096, .f32⟩
  | 94 => ⟨S_, .f32⟩
  | 95 => ⟨S16x4096, .f32⟩
  | 96 => ⟨S16x4096, .f32⟩
  | 97 => ⟨S16x4096x1, .f32⟩
  | 98 => ⟨S16x4096x2, .f32⟩
  | 99 => ⟨S16x4096x2, .f32⟩
  | 100 => ⟨S16x4096x2, .f32⟩
  | 101 => ⟨S_, .f32⟩
  | 102 => ⟨S16x4096, .f32⟩
  | 103 => ⟨S16x4096x1, .f32⟩
  | 104 => ⟨S16x4096x2, .f32⟩
  | 105 => ⟨S16x4096x2, .f32⟩
  | 106 => ⟨S16x4096x1, .f32⟩
  | 107 => ⟨S16x4096x256, .f32⟩
  | 108 => ⟨S16x4096x256, .f32⟩
  | 109 => ⟨S16x4096x1, .f32⟩
  | 110 => ⟨S16x4096x256, .f32⟩
  | 111 => ⟨S16x4096x256, .f32⟩
  | 112 => ⟨S16x4096x256, .f32⟩
  | 113 => ⟨S4096x16x256, .f32⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_c_1 : Ref sig .tc := ⟨.hbm, 66, rfl⟩
abbrev main_call4_c_2 : Ref sig .tc := ⟨.hbm, 67, rfl⟩
abbrev main_call4_v5 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_c_3 : Ref sig .tc := ⟨.hbm, 74, rfl⟩
abbrev main_call4_v11 : Ref sig .tc := ⟨.hbm, 75, rfl⟩
abbrev main_call4_v12 : Ref sig .tc := ⟨.hbm, 76, rfl⟩
abbrev main_call4_v13 : Ref sig .tc := ⟨.hbm, 77, rfl⟩
abbrev main_call4_cst : Ref sig .tc := ⟨.hbm, 78, rfl⟩
abbrev main_call4_v14 : Ref sig .tc := ⟨.hbm, 79, rfl⟩
abbrev main_v21 : Ref sig .tc := ⟨.hbm, 80, rfl⟩
abbrev main_v22 : Ref sig .tc := ⟨.hbm, 81, rfl⟩
abbrev main_call5_c : Ref sig .tc := ⟨.hbm, 82, rfl⟩
abbrev main_call5_v0 : Ref sig .tc := ⟨.hbm, 83, rfl⟩
abbrev main_call5_v1 : Ref sig .tc := ⟨.hbm, 84, rfl⟩
abbrev main_call5_c_0 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_c_1 : Ref sig .tc := ⟨.hbm, 89, rfl⟩
abbrev main_call5_c_2 : Ref sig .tc := ⟨.hbm, 90, rfl⟩
abbrev main_call5_v5 : Ref sig .tc := ⟨.hbm, 91, rfl⟩
abbrev main_call5_v6 : Ref sig .tc := ⟨.hbm, 92, rfl⟩
abbrev main_call5_v7 : Ref sig .tc := ⟨.hbm, 93, rfl⟩
abbrev main_call5_v8 : Ref sig .tc := ⟨.hbm, 94, rfl⟩
abbrev main_call5_v9 : Ref sig .tc := ⟨.hbm, 95, rfl⟩
abbrev main_call5_v10 : Ref sig .tc := ⟨.hbm, 96, rfl⟩
abbrev main_call5_c_3 : Ref sig .tc := ⟨.hbm, 97, rfl⟩
abbrev main_call5_v11 : Ref sig .tc := ⟨.hbm, 98, rfl⟩
abbrev main_call5_v12 : Ref sig .tc := ⟨.hbm, 99, rfl⟩
abbrev main_call5_v13 : Ref sig .tc := ⟨.hbm, 100, rfl⟩
abbrev main_call5_cst : Ref sig .tc := ⟨.hbm, 101, rfl⟩
abbrev main_call5_v14 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_call6_cst : Ref sig .tc := ⟨.hbm, 109, rfl⟩
abbrev main_call6_v0 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_cst_6 : Ref sig .tc := ⟨.hbm, 116, rfl⟩
abbrev main_v34 : Ref sig .tc := ⟨.hbm, 117, rfl⟩
abbrev main_v35 : Ref sig .tc := ⟨.hbm, 118, rfl⟩
abbrev main_cst_7 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_cst_8 : Ref sig .tc := ⟨.hbm, 125, rfl⟩
abbrev main_v41 : Ref sig .tc := ⟨.hbm, 126, rfl⟩
abbrev main_v42 : Ref sig .tc := ⟨.hbm, 127, rfl⟩
abbrev main_cst_9 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_cst_10 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_11 : Ref sig .tc := ⟨.hbm, 147, rfl⟩
abbrev main_v60 : Ref sig .tc := ⟨.hbm, 148, rfl⟩
abbrev main_v61 : Ref sig .tc := ⟨.hbm, 149, rfl⟩
abbrev main_cst_12 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_call7_cst : Ref sig .tc := ⟨.hbm, 159, rfl⟩
abbrev main_call7_v0 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_13 : Ref sig .tc := ⟨.hbm, 166, rfl⟩
abbrev main_v75 : Ref sig .tc := ⟨.hbm, 167, rfl⟩
abbrev main_v76 : Ref sig .tc := ⟨.hbm, 168, rfl⟩
abbrev main_cst_14 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_cst_15 : Ref sig .tc := ⟨.hbm, 175, rfl⟩
abbrev main_v82 : Ref sig .tc := ⟨.hbm, 176, rfl⟩
abbrev main_v83 : Ref sig .tc := ⟨.hbm, 177, rfl⟩
abbrev main_cst_16 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_cst_17 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_18 : Ref sig .tc := ⟨.hbm, 197, rfl⟩
abbrev main_v101 : Ref sig .tc := ⟨.hbm, 198, rfl⟩
abbrev main_v102 : Ref sig .tc := ⟨.hbm, 199, rfl⟩
abbrev main_cst_19 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_cst_20 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_call8_cst : Ref sig .tc := ⟨.hbm, 213, rfl⟩
abbrev main_call8_v0 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_cst_21 : Ref sig .tc := ⟨.hbm, 220, rfl⟩
abbrev main_v119 : Ref sig .tc := ⟨.hbm, 221, rfl⟩
abbrev main_cst_22 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_cst_23 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩

abbrev nD : Nat := 1
abbrev τ : Topo := Topo.v7x

variable {F : FTy → Type} [FloatOps F]

class Facts₀ : Prop where
  slices_S16x4096x2_S16x4096x1_0_0_0 : S16x4096x2.Slices ![0, 0, 0] S16x4096x1
  shapeCasts_S16x4096x1_S16x4096 : S16x4096x1.ShapeCasts S16x4096
  slices_S16x4096x2_S16x4096x1_0_0_1 : S16x4096x2.Slices ![0, 0, 1] S16x4096x1
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  h_S_ : 0 < S_.numel
  bcast_S16x4096_S16x4096x256_0_1 : S16x4096.BroadcastsInDim S16x4096x256 (![0, 1] : Fin 2 → Fin S16x4096x256.rank)
  bcast_S_S16x4096x256 : S_.BroadcastsInDim S16x4096x256 (![] : Fin 0 → Fin S16x4096x256.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  bcast_S_S16x4096x64 : S_.BroadcastsInDim S16x4096x64 (![] : Fin 0 → Fin S16x4096x64.rank)
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  reducesTo_S16x4096x256_S16x4096_d2 : S16x4096x256.ReducesTo [2] S16x4096
  bcast_S16x4096x1_S16x4096x256_0_1_2 : S16x4096x1.BroadcastsInDim S16x4096x256 (![0, 1, 2] : Fin 3 → Fin S16x4096x256.rank)
  concatenates_S16x4096x256_S16x4096x256_S16x4096x512_d2 : Shape.Concatenates [S16x4096x256, S16x4096x256] S16x4096x512 2
  bcast_S2_S1x1x2_2 : S2.BroadcastsInDim S1x1x2 (![2] : Fin 1 → Fin S1x1x2.rank)
  bcast_S1x1x2_S16x4096x2_0_1_2 : S1x1x2.BroadcastsInDim S16x4096x2 (![0, 1, 2] : Fin 3 → Fin S16x4096x2.rank)
  reducesTo_S16x4096x2_S16x4096_d2 : S16x4096x2.ReducesTo [2] S16x4096
  bcast_S16x4096x1_S16x4096x2_0_1_2 : S16x4096x1.BroadcastsInDim S16x4096x2 (![0, 1, 2] : Fin 3 → Fin S16x4096x2.rank)
  transposes_S16x4096x256_S4096x16x256_1_0_2 : S16x4096x256.Transposes [1, 0, 2] S4096x16x256
  gather_S16x2048x256_S16x4096x1_S16x4096x256_2_1_0_0_1_2_11256_wf : GatherDims.WF S16x2048x256 S16x4096x1 S16x4096x256 [2] [1] [0] [1] [0] 2 ![1, 1, 256]
  dot_S16x4096x256_S64x256_S16x4096x64_2_1_01_0_n_n_wf : DotDims.WF S16x4096x256 S64x256 S16x4096x64 [2] [1] [0, 1] [0] [] []
  dot_S16x4096x64_S256x64_S16x4096x256_2_1_01_0_n_n_wf : DotDims.WF S16x4096x64 S256x64 S16x4096x256 [2] [1] [0, 1] [0] [] []
  dot_S16x4096x512_S256x512_S16x4096x256_2_1_01_0_n_n_wf : DotDims.WF S16x4096x512 S256x512 S16x4096x256 [2] [1] [0, 1] [0] [] []
  dot_S16x4096x256_S2x256_S16x4096x2_2_1_01_0_n_n_wf : DotDims.WF S16x4096x256 S2x256 S16x4096x2 [2] [1] [0, 1] [0] [] []

variable [Facts₀]

def gather_S16x2048x256_S16x4096x1_S16x4096x256_2_1_0_0_1_2_11256 : GatherDims S16x2048x256 S16x4096x1 S16x4096x256 where
  offsetDims := [2]
  collapsedSliceDims := [1]
  operandBatchingDims := [0]
  startIndicesBatchingDims := [0]
  startIndexMap := [1]
  indexVectorDim := 2
  sliceSizes := ![1, 1, 256]
  wf := gather_S16x2048x256_S16x4096x1_S16x4096x256_2_1_0_0_1_2_11256_wf
def dot_S16x4096x256_S64x256_S16x4096x64_2_1_01_0_n_n : DotDims S16x4096x256 S64x256 S16x4096x64 where
  lhsContracting := [2]
  rhsContracting := [1]
  lhsNonContracting := [0, 1]
  rhsNonContracting := [0]
  lhsBatch := []
  rhsBatch := []
  wf := dot_S16x4096x256_S64x256_S16x4096x64_2_1_01_0_n_n_wf
def dot_S16x4096x64_S256x64_S16x4096x256_2_1_01_0_n_n : DotDims S16x4096x64 S256x64 S16x4096x256 where
  lhsContracting := [2]
  rhsContracting := [1]
  lhsNonContracting := [0, 1]
  rhsNonContracting := [0]
  lhsBatch := []
  rhsBatch := []
  wf := dot_S16x4096x64_S256x64_S16x4096x256_2_1_01_0_n_n_wf
def dot_S16x4096x512_S256x512_S16x4096x256_2_1_01_0_n_n : DotDims S16x4096x512 S256x512 S16x4096x256 where
  lhsContracting := [2]
  rhsContracting := [1]
  lhsNonContracting := [0, 1]
  rhsNonContracting := [0]
  lhsBatch := []
  rhsBatch := []
  wf := dot_S16x4096x512_S256x512_S16x4096x256_2_1_01_0_n_n_wf
def dot_S16x4096x256_S2x256_S16x4096x2_2_1_01_0_n_n : DotDims S16x4096x256 S2x256 S16x4096x2 where
  lhsContracting := [2]
  rhsContracting := [1]
  lhsNonContracting := [0, 1]
  rhsNonContracting := [0]
  lhsBatch := []
  rhsBatch := []
  wf := dot_S16x4096x256_S2x256_S16x4096x2_2_1_01_0_n_n_wf

class Facts : Prop extends Facts₀ where

variable [Facts]
-- ==== Proof.TokenMath.lean ====
/-
  The arithmetic one token goes through, on rows of extended reals.

  A token carries four rows of 256 entries: the start-boundary feature row, the end-boundary feature row, the query
  feature row and the positional row. Each boundary row is contrasted with the positional row: the entrywise product goes
  through a 256 → 64 linear map with bias and a positive part, a 64 → 256 linear map with bias, a normalisation of the
  row (subtract the mean, divide by the root of the variance plus a small constant, scale and shift), the logistic
  function, and is multiplied back onto the boundary row. The two contrasted rows are averaged ("pooled"). A gate with two
  logits is computed from the pooled row joined with the query row (a 512 → 256 linear map with bias and positive part,
  then a 256 → 2 linear map with bias), and the result is the pooled row and the query row mixed by the two gate weights.

  The two programs differ only in how the gate weights are written: one takes the logistic function of the difference of
  the two logits and its complement to one, the other the two-entry softmax with the larger logit subtracted first; and
  one applies the 512 → 256 map to the joined row where the other adds the two halves' products.
-/
import Idealize.ShloMosaic.PureOps.Ideal
import Idealize.ShloMosaic.Lib.ValueIdx

noncomputable section

namespace Cert.TokenMath

open Idealize.ShloMosaic Idealize.ShloMosaic.ValueIdx

/-- The float constants of the computation, as the extended reals their words denote: 0, 256, the small constant
    under the root, one half, 1. -/
abbrev lit0 : EReal := Ideal.ofBits .f32 0x00000000#32
abbrev lit256 : EReal := Ideal.ofBits .f32 0x43800000#32
abbrev litEps : EReal := Ideal.ofBits .f32 0x358637BD#32
abbrev litHalf : EReal := Ideal.ofBits .f32 0x3F000000#32
abbrev lit1 : EReal := Ideal.ofBits .f32 0x3F800000#32

/-- An extended real that is a real number. -/
def IsReal (x : EReal) : Prop := ∃ r : ℝ, x = (r : EReal)

/-- The parameters of one contrast branch: the two linear maps with their biases, the scale and the shift. -/
structure Branch where
  w1 : Fin 64 → Fin 256 → EReal
  b1 : Fin 64 → EReal
  w2 : Fin 256 → Fin 64 → EReal
  b2 : Fin 256 → EReal
  g : Fin 256 → EReal
  be : Fin 256 → EReal

/-- The parameters of the gate: the first linear map both whole (w1, on the joined row of 512 entries) and as its
    two halves (wa on the pooled row, wb on the query row), and the second linear map. -/
structure Gate where
  w1 : Fin 256 → Fin 512 → EReal
  wa : Fin 256 → Fin 256 → EReal
  wb : Fin 256 → Fin 256 → EReal
  b1 : Fin 256 → EReal
  w2 : Fin 2 → Fin 256 → EReal
  b2 : Fin 2 → EReal

/-- wa and wb are the left and the right half of w1. -/
def Gate.Split (G : Gate) : Prop :=
  (∀ d k, G.wa d k = G.w1 d (Fin.castAdd 256 k)) ∧ (∀ d k, G.wb d k = G.w1 d (Fin.natAdd 256 k))

/-- Every gate parameter is a real number. -/
def Gate.Real (G : Gate) : Prop :=
  (∀ d k, IsReal (G.w1 d k)) ∧ (∀ d, IsReal (G.b1 d)) ∧ (∀ o d, IsReal (G.w2 o d)) ∧ (∀ o, IsReal (G.b2 o))

/-- The first linear map of a branch with its positive part, on a row (the product of a boundary row and the
    positional row). -/
def hidden (pr : Fin 256 → EReal) (P : Branch) : Fin 64 → EReal :=
  fun d => max ((∑ k : Fin 256, pr k * P.w1 d k) + P.b1 d) lit0

/-- The second linear map of a branch. -/
def lin (h : Fin 64 → EReal) (P : Branch) : Fin 256 → EReal :=
  fun c => (∑ d : Fin 64, h d * P.w2 c d) + P.b2 c

/-- The mean of a row. -/
def mean (u : Fin 256 → EReal) : EReal := Ideal.div (∑ c : Fin 256, u c) lit256

/-- A row minus its mean. -/
def centered (u : Fin 256 → EReal) : Fin 256 → EReal := fun c => u c - mean u

/-- The variance of a row. -/
def variance (u : Fin 256 → EReal) : EReal := Ideal.div (∑ c : Fin 256, centered u c * centered u c) lit256

/-- The normalised row, scaled and shifted. -/
def norm (u : Fin 256 → EReal) (P : Branch) : Fin 256 → EReal :=
  fun c => centered u c * Ideal.rsqrt (variance u + litEps) * P.g c + P.be c

/-- The contrast of a boundary row v, from the product row pr it is computed through. -/
def contrastOf (pr v : Fin 256 → EReal) (P : Branch) : Fin 256 → EReal :=
  fun c => Ideal.logistic (norm (lin (hidden pr P) P) P c) * v c

/-- A boundary row contrasted with the positional row. -/
def contrast (v pf : Fin 256 → EReal) (P : Branch) : Fin 256 → EReal :=
  contrastOf (fun k => v k * pf k) v P

/-- The average of the two contrasted boundary rows. -/
def pooled (sf ef pf : Fin 256 → EReal) (P1 P2 : Branch) : Fin 256 → EReal :=
  fun c => (contrast sf pf P1 c + contrast ef pf P2 c) * litHalf

/-- The gate's first linear map as the sum of the two halves' products, before the positive part. -/
def gatePre (pl qf : Fin 256 → EReal) (G : Gate) : Fin 256 → EReal :=
  fun d => ((∑ k : Fin 256, pl k * G.wa d k) + (∑ k : Fin 256, qf k * G.wb d k)) + G.b1 d

/-- The gate's hidden row as the sum of the two halves' products. -/
def gateHiddenSplit (pl qf : Fin 256 → EReal) (G : Gate) : Fin 256 → EReal :=
  fun d => max (gatePre pl qf G d) lit0

/-- The gate's hidden row from the joined row of 512 entries. -/
def gateHiddenJoined (pl qf : Fin 256 → EReal) (G : Gate) : Fin 256 → EReal :=
  fun d => max ((∑ k : Fin 512, (Fin.append pl qf : Fin (256 + 256) → EReal) k * G.w1 d k) + G.b1 d) lit0

/-- The two gate logits from a hidden row. -/
def logits (h : Fin 256 → EReal) (G : Gate) : Fin 2 → EReal :=
  fun o => (∑ d : Fin 256, h d * G.w2 o d) + G.b2 o

/-- The two-entry softmax with the larger entry subtracted first. -/
def softmax2 (lg : Fin 2 → EReal) : Fin 2 → EReal :=
  fun o => Ideal.div (Ideal.exp (lg o - max (lg 0) (lg 1))) (∑ o' : Fin 2, Ideal.exp (lg o' - max (lg 0) (lg 1)))

/-- Two rows mixed by the logistic function of the difference of two logits and its complement to one. -/
def mixLogistic (pl qf : Fin 256 → EReal) (lg : Fin 2 → EReal) : Fin 256 → EReal :=
  fun c => pl c * Ideal.logistic (lg 0 - lg 1) + qf c * (lit1 - Ideal.logistic (lg 0 - lg 1))

/-- The token's result with the gate weights written as the logistic function of the logits' difference and its
    complement, the hidden row from the two halves. -/
def tokenSplit (sf ef qf pf : Fin 256 → EReal) (P1 P2 : Branch) (G : Gate) : Fin 256 → EReal :=
  mixLogistic (pooled sf ef pf P1 P2) qf (logits (gateHiddenSplit (pooled sf ef pf P1 P2) qf G) G)

/-- The token's result with the gate weights written as a softmax, the hidden row from the joined row. -/
def tokenJoined (sf ef qf pf : Fin 256 → EReal) (P1 P2 : Branch) (G : Gate) : Fin 256 → EReal :=
  fun c =>
    pooled sf ef pf P1 P2 c * softmax2 (logits (gateHiddenJoined (pooled sf ef pf P1 P2) qf G) G) 0
      + qf c * softmax2 (logits (gateHiddenJoined (pooled sf ef pf P1 P2) qf G) G) 1

/-! ## The arrays -/

abbrev T16x4096x256 : Shape := ⟨3, ![16, 4096, 256]⟩
abbrev T4096x16x256 : Shape := ⟨3, ![4096, 16, 256]⟩
abbrev T64x256 : Shape := ⟨2, ![64, 256]⟩
abbrev T256x64 : Shape := ⟨2, ![256, 64]⟩
abbrev T256x512 : Shape := ⟨2, ![256, 512]⟩
abbrev T2x256 : Shape := ⟨2, ![2, 256]⟩
abbrev T256x256 : Shape := ⟨2, ![256, 256]⟩
abbrev T256x2 : Shape := ⟨2, ![256, 2]⟩
abbrev T2048x256 : Shape := ⟨2, ![2048, 256]⟩
abbrev T64 : Shape := ⟨1, ![64]⟩
abbrev T256 : Shape := ⟨1, ![256]⟩
abbrev T2 : Shape := ⟨1, ![2]⟩

/-- Row (b, n) of a [16, 4096, 256] array. -/
def row (X : T16x4096x256.Idx → EReal) (b : Fin 16) (n : Fin 4096) : Fin 256 → EReal := fun k => X (ix3 b n k)

/-- A branch's parameters read off the parameter arrays. -/
def branchOf (w1 : T64x256.Idx → EReal) (b1 : T64.Idx → EReal) (w2 : T256x64.Idx → EReal) (b2 g be : T256.Idx → EReal) :
    Branch :=
  ⟨fun d k => w1 (ix2 d k), fun d => b1 (ix1 d), fun c d => w2 (ix2 c d), fun c => b2 (ix1 c), fun c => g (ix1 c),
    fun c => be (ix1 c)⟩

/-- The gate's parameters read off the parameter arrays. -/
def gateOf (w1 : T256x512.Idx → EReal) (b1 : T256.Idx → EReal) (w2 : T2x256.Idx → EReal) (b2 : T2.Idx → EReal) : Gate :=
  ⟨fun d k => w1 (ix2 d k), fun d k => w1 (ix2 d (Fin.castAdd 256 k)), fun d k => w1 (ix2 d (Fin.natAdd 256 k)),
    fun d => b1 (ix1 d), fun o d => w2 (ix2 o d), fun o => b2 (ix1 o)⟩

/-- A branch's parameters read off arrays that hold the two linear maps transposed. -/
def branchOfT (w1t : T256x64.Idx → EReal) (b1 : T64.Idx → EReal) (w2t : T64x256.Idx → EReal) (b2 g be : T256.Idx → EReal) :
    Branch :=
  ⟨fun d k => w1t (ix2 k d), fun d => b1 (ix1 d), fun c d => w2t (ix2 d c), fun c => b2 (ix1 c), fun c => g (ix1 c),
    fun c => be (ix1 c)⟩

/-- The gate's parameters read off arrays that hold the two halves of the first map and the second map transposed
    (the whole first map is not among them: the form that uses the halves never reads it). -/
def gateOfT (wat wbt : T256x256.Idx → EReal) (b1 : T256.Idx → EReal) (w2t : T256x2.Idx → EReal) (b2 : T2.Idx → EReal) : Gate :=
  ⟨fun _ _ => 0, fun d k => wat (ix2 k d), fun d k => wbt (ix2 k d), fun d => b1 (ix1 d), fun o d => w2t (ix2 d o),
    fun o => b2 (ix1 o)⟩

theorem gateOf_split (w1 : T256x512.Idx → EReal) (b1 : T256.Idx → EReal) (w2 : T2x256.Idx → EReal) (b2 : T2.Idx → EReal) :
    (gateOf w1 b1 w2 b2).Split := ⟨fun _ _ => rfl, fun _ _ => rfl⟩

/-- The whole result array, entry (n, b, c), in the first form. -/
def resultSplit (sf ef qf pf : T16x4096x256.Idx → EReal) (P1 P2 : Branch) (G : Gate) : T4096x16x256.Idx → EReal :=
  fun j => tokenSplit (row sf (j 1) (j 0)) (row ef (j 1) (j 0)) (row qf (j 1) (j 0)) (row pf (j 1) (j 0)) P1 P2 G (j 2)

/-- The whole result array, entry (n, b, c), in the second form. -/
def resultJoined (sf ef qf pf : T16x4096x256.Idx → EReal) (P1 P2 : Branch) (G : Gate) : T4096x16x256.Idx → EReal :=
  fun j => tokenJoined (row sf (j 1) (j 0)) (row ef (j 1) (j 0)) (row qf (j 1) (j 0)) (row pf (j 1) (j 0)) P1 P2 G (j 2)

end Cert.TokenMath

end
-- ==== Proof.PooledRows.lean ====
/-
  The pooled stage of the array computation, read at one entry: entry (b, n, c) is entry c of the pooled row of
  token (b, n), built from row (b, n) of the gathered start rows, of the gathered end rows and of the positional
  array. Each stage is read at an index from the stages before it; the contractions and the row sums are sums over
  the last coordinate, the broadcasts read the entry they repeat, and the expanded logistic expression
  1 / (1 + exp (-x)) with the constant 1.0 is the logistic function.
-/
import proofs.«425884_j67662914781840_4_alg».proof.Proof.RefStages
import proofs.«425884_j67662914781840_4_alg».proof.Proof.TokenMath

noncomputable section

namespace Cert.ReferenceIdeal.Rows

open Cert.ReferenceIdeal Cert.ReferenceIdeal.Gen Cert.ReferenceIdeal.Stages Cert.TokenMath Idealize.ShloMosaic Idealize.ShloMosaic.TcCoe Idealize.ShloMosaic.ValueIdx Idealize.SL.Sem

/-! ## The index functions of the stages, at an index given by its coordinates -/

theorem lidx25_ix (b : Fin 16) (n : Fin 4096) (d : Fin 64) (k : Fin 256) :
    lidx_main_v25 (ix3 b n d) k = ix3 b n k :=
  funext fun a => Fin.ext (by match a with | ⟨0, _⟩ => rfl | ⟨1, _⟩ => rfl | ⟨2, _⟩ => rfl)

theorem ridx25_ix (b : Fin 16) (n : Fin 4096) (d : Fin 64) (k : Fin 256) :
    ridx_main_v25 (ix3 b n d) k = ix2 d k :=
  funext fun a => Fin.ext (by match a with | ⟨0, _⟩ => rfl | ⟨1, _⟩ => rfl)

theorem idx27_ix (b : Fin 16) (n : Fin 4096) (d : Fin 64) :
    idx_main_v26 (idx_main_v27 (ix3 b n d)) = ix1 d :=
  funext fun a => Fin.ext (by match a with | ⟨0, _⟩ => rfl)

theorem lidx30_ix (b : Fin 16) (n : Fin 4096) (c : Fin 256) (k : Fin 64) :
    lidx_main_v30 (ix3 b n c) k = ix3 b n k :=
  funext fun a => Fin.ext (by match a with | ⟨0, _⟩ => rfl | ⟨1, _⟩ => rfl | ⟨2, _⟩ => rfl)

theorem ridx30_ix (b : Fin 16) (n : Fin 4096) (c : Fin 256) (k : Fin 64) :
    ridx_main_v30 (ix3 b n c) k = ix2 c k :=
  funext fun a => Fin.ext (by match a with | ⟨0, _⟩ => rfl | ⟨1, _⟩ => rfl)

theorem idx32_ix (b : Fin 16) (n : Fin 4096) (c : Fin 256) :
    idx_main_v31 (idx_main_v32 (ix3 b n c)) = ix1 c :=
  funext fun a => Fin.ext (by match a with | ⟨0, _⟩ => rfl)

theorem idx34_ix (b : Fin 16) (n : Fin 4096) (k : Fin 256) :
    idx_main_v34 (ix2 b n) k = ix3 b n k :=
  funext fun a => Fin.ext (by match a with | ⟨0, _⟩ => rfl | ⟨1, _⟩ => rfl | ⟨2, _⟩ => rfl)

theorem idx35_ix (b : Fin 16) (n : Fin 4096) (z : Fin 1) :
    idx_main_v35 (ix3 b n z) = ix2 b n :=
  funext fun a => Fin.ext (by match a with | ⟨0, _⟩ => rfl | ⟨1, _⟩ => rfl)

theorem idx38_ix (b : Fin 16) (n : Fin 4096) (c : Fin 256) :
    idx_main_v38 (ix3 b n c) = ix3 b n (0 : Fin 1) :=
  funext fun a => Fin.ext (by match a with | ⟨0, _⟩ => rfl | ⟨1, _⟩ => rfl | ⟨2, _⟩ => rfl)

/-! ## One contrast branch as a family of stage functions -/

/-- Arrays of extended reals of the shapes the branch goes through. -/
abbrev A3 : Type := (⟨S16x4096x256, .f32⟩ : BufTy).Contents (Elt Ideal)
abbrev H3 : Type := (⟨S16x4096x64, .f32⟩ : BufTy).Contents (Elt Ideal)
abbrev R2 : Type := (⟨S16x4096, .f32⟩ : BufTy).Contents (Elt Ideal)
abbrev K3 : Type := (⟨S16x4096x1, .f32⟩ : BufTy).Contents (Elt Ideal)

/-- The stage functions of one contrast branch over a boundary array `V` and the positional array `pf`, with the
    equations that read each stage at an index from the stages before it: the product array, the first contraction
    with its bias and positive part, the second contraction with its bias, the row mean, the centred array and its
    squares, the row variance, its shifted inverse root, the scaled and shifted normalised array, and the expanded
    logistic expression multiplied back onto `V`. -/
structure BranchStages (V pf : A3) (w1 : (⟨S64x256, .f32⟩ : BufTy).Contents (Elt Ideal))
    (b1 : (⟨S64, .f32⟩ : BufTy).Contents (Elt Ideal)) (w2 : (⟨S256x64, .f32⟩ : BufTy).Contents (Elt Ideal))
    (b2 g be : (⟨S256, .f32⟩ : BufTy).Contents (Elt Ideal)) where
  v24 : A3
  v25 : H3
  v27 : H3
  v28 : H3
  z29 : H3
  v29 : H3
  v30 : A3
  v32 : A3
  v33 : A3
  v34 : R2
  v35 : K3
  v36 : K3
  v37 : K3
  v38 : A3
  v39 : A3
  v40 : A3
  v41 : R2
  v42 : K3
  v43 : K3
  v44 : K3
  v45 : A3
  v46 : A3
  v47 : K3
  v48 : K3
  v49 : K3
  v50 : A3
  v51 : A3
  v53 : A3
  v54 : A3
  v56 : A3
  v57 : A3
  v58 : A3
  v59 : A3
  v60 : A3
  v61 : A3
  v62 : A3
  v63 : A3
  v64 : A3
  e24 : ∀ i, v24 i = V i * pf i
  e25 : ∀ i, v25 i = ∑ k : Fin 256, v24 (lidx_main_v25 i k) * w1 (ridx_main_v25 i k)
  e27 : ∀ i, v27 i = b1 (idx_main_v26 (idx_main_v27 i))
  e28 : ∀ i, v28 i = v25 i + v27 i
  ez29 : ∀ i, z29 i = lit0
  e29 : ∀ i, v29 i = max (v28 i) (z29 i)
  e30 : ∀ i, v30 i = ∑ k : Fin 64, v29 (lidx_main_v30 i k) * w2 (ridx_main_v30 i k)
  e32 : ∀ i, v32 i = b2 (idx_main_v31 (idx_main_v32 i))
  e33 : ∀ i, v33 i = v30 i + v32 i
  e34 : ∀ i, v34 i = lit0 + ∑ k : Fin 256, v33 (idx_main_v34 i k)
  e35 : ∀ i, v35 i = v34 (idx_main_v35 i)
  e36 : ∀ i, v36 i = lit256
  e37 : ∀ i, v37 i = Ideal.div (v35 i) (v36 i)
  e38 : ∀ i, v38 i = v37 (idx_main_v38 i)
  e39 : ∀ i, v39 i = v33 i - v38 i
  e40 : ∀ i, v40 i = v39 i * v39 i
  e41 : ∀ i, v41 i = lit0 + ∑ k : Fin 256, v40 (idx_main_v34 i k)
  e42 : ∀ i, v42 i = v41 (idx_main_v35 i)
  e43 : ∀ i, v43 i = lit256
  e44 : ∀ i, v44 i = Ideal.div (v42 i) (v43 i)
  e45 : ∀ i, v45 i = v37 (idx_main_v38 i)
  e46 : ∀ i, v46 i = v33 i - v45 i
  e47 : ∀ i, v47 i = litEps
  e48 : ∀ i, v48 i = v44 i + v47 i
  e49 : ∀ i, v49 i = Ideal.rsqrt (v48 i)
  e50 : ∀ i, v50 i = v49 (idx_main_v38 i)
  e51 : ∀ i, v51 i = v46 i * v50 i
  e53 : ∀ i, v53 i = g (idx_main_v31 (idx_main_v32 i))
  e54 : ∀ i, v54 i = v51 i * v53 i
  e56 : ∀ i, v56 i = be (idx_main_v31 (idx_main_v32 i))
  e57 : ∀ i, v57 i = v54 i + v56 i
  e58 : ∀ i, v58 i = -(v57 i)
  e59 : ∀ i, v59 i = Ideal.exp (v58 i)
  e60 : ∀ i, v60 i = lit1
  e61 : ∀ i, v61 i = v60 i + v59 i
  e62 : ∀ i, v62 i = lit1
  e63 : ∀ i, v63 i = Ideal.div (v62 i) (v61 i)
  e64 : ∀ i, v64 i = v63 i * V i

/-- The stage functions of the first branch: stages 24 to 64 over the gathered start rows. -/
def stagesStart (x0 : (⟨S16x2048x256, .f32⟩ : BufTy).Contents (Elt Ideal)) (x1 : (⟨S16x4096x2, .f32⟩ : BufTy).Contents (Elt Ideal)) (x3 : (⟨S16x4096x256, .f32⟩ : BufTy).Contents (Elt Ideal)) (x4 : (⟨S64x256, .f32⟩ : BufTy).Contents (Elt Ideal)) (x5 : (⟨S64, .f32⟩ : BufTy).Contents (Elt Ideal)) (x6 : (⟨S256x64, .f32⟩ : BufTy).Contents (Elt Ideal)) (x7 x8 x9 : (⟨S256, .f32⟩ : BufTy).Contents (Elt Ideal)) :
    BranchStages (val_main_v21 (F := Ideal) x0 x1) x3 x4 x5 x6 x7 x8 x9 where
  v24 := val_main_v24 (F := Ideal) x0 x1 x3
  v25 := val_main_v25 (F := Ideal) x0 x1 x3 x4
  v27 := val_main_v27 (F := Ideal) x5
  v28 := val_main_v28 (F := Ideal) x0 x1 x3 x4 x5
  z29 := val_main_call6_v0 (F := Ideal)
  v29 := val_main_v29 (F := Ideal) x0 x1 x3 x4 x5
  v30 := val_main_v30 (F := Ideal) x0 x1 x3 x4 x5 x6
  v32 := val_main_v32 (F := Ideal) x7
  v33 := val_main_v33 (F := Ideal) x0 x1 x3 x4 x5 x6 x7
  v34 := val_main_v34 (F := Ideal) x0 x1 x3 x4 x5 x6 x7
  v35 := val_main_v35 (F := Ideal) x0 x1 x3 x4 x5 x6 x7
  v36 := val_main_v36 (F := Ideal)
  v37 := val_main_v37 (F := Ideal) x0 x1 x3 x4 x5 x6 x7
  v38 := val_main_v38 (F := Ideal) x0 x1 x3 x4 x5 x6 x7
  v39 := val_main_v39 (F := Ideal) x0 x1 x3 x4 x5 x6 x7
  v40 := val_main_v40 (F := Ideal) x0 x1 x3 x4 x5 x6 x7
  v41 := val_main_v41 (F := Ideal) x0 x1 x3 x4 x5 x6 x7
  v42 := val_main_v42 (F := Ideal) x0 x1 x3 x4 x5 x6 x7
  v43 := val_main_v43 (F := Ideal)
  v44 := val_main_v44 (F := Ideal) x0 x1 x3 x4 x5 x6 x7
  v45 := val_main_v45 (F := Ideal) x0 x1 x3 x4 x5 x6 x7
  v46 := val_main_v46 (F := Ideal) x0 x1 x3 x4 x5 x6 x7
  v47 := val_main_v47 (F := Ideal)
  v48 := val_main_v48 (F := Ideal) x0 x1 x3 x4 x5 x6 x7
  v49 := val_main_v49 (F := Ideal) x0 x1 x3 x4 x5 x6 x7
  v50 := val_main_v50 (F := Ideal) x0 x1 x3 x4 x5 x6 x7
  v51 := val_main_v51 (F := Ideal) x0 x1 x3 x4 x5 x6 x7
  v53 := val_main_v53 (F := Ideal) x8
  v54 := val_main_v54 (F := Ideal) x0 x1 x3 x4 x5 x6 x7 x8
  v56 := val_main_v56 (F := Ideal) x9
  v57 := val_main_v57 (F := Ideal) x0 x1 x3 x4 x5 x6 x7 x8 x9
  v58 := val_main_v58 (F := Ideal) x0 x1 x3 x4 x5 x6 x7 x8 x9
  v59 := val_main_v59 (F := Ideal) x0 x1 x3 x4 x5 x6 x7 x8 x9
  v60 := val_main_v60 (F := Ideal)
  v61 := val_main_v61 (F := Ideal) x0 x1 x3 x4 x5 x6 x7 x8 x9
  v62 := val_main_v62 (F := Ideal)
  v63 := val_main_v63 (F := Ideal) x0 x1 x3 x4 x5 x6 x7 x8 x9
  v64 := val_main_v64 (F := Ideal) x0 x1 x3 x4 x5 x6 x7 x8 x9
  e24 := val_main_v24_apply (F := Ideal) x0 x1 x3
  e25 := val_main_v25_apply x0 x1 x3 x4
  e27 := fun i => (val_main_v27_apply (F := Ideal) x5 i).trans (val_main_v26_apply (F := Ideal) x5 _)
  e28 := val_main_v28_apply (F := Ideal) x0 x1 x3 x4 x5
  ez29 := fun i => (val_main_call6_v0_apply (F := Ideal) i).trans (val_main_call6_cst_apply (F := Ideal) _)
  e29 := val_main_v29_apply (F := Ideal) x0 x1 x3 x4 x5
  e30 := val_main_v30_apply x0 x1 x3 x4 x5 x6
  e32 := fun i => (val_main_v32_apply (F := Ideal) x7 i).trans (val_main_v31_apply (F := Ideal) x7 _)
  e33 := val_main_v33_apply (F := Ideal) x0 x1 x3 x4 x5 x6 x7
  e34 := val_main_v34_apply x0 x1 x3 x4 x5 x6 x7
  e35 := val_main_v35_apply (F := Ideal) x0 x1 x3 x4 x5 x6 x7
  e36 := fun i => (val_main_v36_apply (F := Ideal) i).trans (val_main_cst_7_apply (F := Ideal) _)
  e37 := val_main_v37_apply (F := Ideal) x0 x1 x3 x4 x5 x6 x7
  e38 := val_main_v38_apply (F := Ideal) x0 x1 x3 x4 x5 x6 x7
  e39 := val_main_v39_apply (F := Ideal) x0 x1 x3 x4 x5 x6 x7
  e40 := val_main_v40_apply (F := Ideal) x0 x1 x3 x4 x5 x6 x7
  e41 := val_main_v41_apply x0 x1 x3 x4 x5 x6 x7
  e42 := val_main_v42_apply (F := Ideal) x0 x1 x3 x4 x5 x6 x7
  e43 := fun i => (val_main_v43_apply (F := Ideal) i).trans (val_main_cst_9_apply (F := Ideal) _)
  e44 := val_main_v44_apply (F := Ideal) x0 x1 x3 x4 x5 x6 x7
  e45 := val_main_v45_apply (F := Ideal) x0 x1 x3 x4 x5 x6 x7
  e46 := val_main_v46_apply (F := Ideal) x0 x1 x3 x4 x5 x6 x7
  e47 := fun i => (val_main_v47_apply (F := Ideal) i).trans (val_main_cst_10_apply (F := Ideal) _)
  e48 := val_main_v48_apply (F := Ideal) x0 x1 x3 x4 x5 x6 x7
  e49 := val_main_v49_apply (F := Ideal) x0 x1 x3 x4 x5 x6 x7
  e50 := val_main_v50_apply (F := Ideal) x0 x1 x3 x4 x5 x6 x7
  e51 := val_main_v51_apply (F := Ideal) x0 x1 x3 x4 x5 x6 x7
  e53 := fun i => (val_main_v53_apply (F := Ideal) x8 i).trans (val_main_v52_apply (F := Ideal) x8 _)
  e54 := val_main_v54_apply (F := Ideal) x0 x1 x3 x4 x5 x6 x7 x8
  e56 := fun i => (val_main_v56_apply (F := Ideal) x9 i).trans (val_main_v55_apply (F := Ideal) x9 _)
  e57 := val_main_v57_apply (F := Ideal) x0 x1 x3 x4 x5 x6 x7 x8 x9
  e58 := val_main_v58_apply (F := Ideal) x0 x1 x3 x4 x5 x6 x7 x8 x9
  e59 := fun i => (val_main_v59_apply (F := Ideal) x0 x1 x3 x4 x5 x6 x7 x8 x9 i).trans (Ideal.hostUnary_exp_def _)
  e60 := fun i => (val_main_v60_apply (F := Ideal) i).trans (val_main_cst_11_apply (F := Ideal) _)
  e61 := val_main_v61_apply (F := Ideal) x0 x1 x3 x4 x5 x6 x7 x8 x9
  e62 := fun i => (val_main_v62_apply (F := Ideal) i).trans (val_main_cst_12_apply (F := Ideal) _)
  e63 := val_main_v63_apply (F := Ideal) x0 x1 x3 x4 x5 x6 x7 x8 x9
  e64 := val_main_v64_apply (F := Ideal) x0 x1 x3 x4 x5 x6 x7 x8 x9

/-- The stage functions of the second branch: stages 65 to 105 over the gathered end rows. -/
def stagesEnd (x0 : (⟨S16x2048x256, .f32⟩ : BufTy).Contents (Elt Ideal)) (x1 : (⟨S16x4096x2, .f32⟩ : BufTy).Contents (Elt Ideal)) (x3 : (⟨S16x4096x256, .f32⟩ : BufTy).Contents (Elt Ideal)) (x10 : (⟨S64x256, .f32⟩ : BufTy).Contents (Elt Ideal)) (x11 : (⟨S64, .f32⟩ : BufTy).Contents (Elt Ideal)) (x12 : (⟨S256x64, .f32⟩ : BufTy).Contents (Elt Ideal)) (x13 x14 x15 : (⟨S256, .f32⟩ : BufTy).Contents (Elt Ideal)) :
    BranchStages (val_main_v23 (F := Ideal) x0 x1) x3 x10 x11 x12 x13 x14 x15 where
  v24 := val_main_v65 (F := Ideal) x0 x1 x3
  v25 := val_main_v66 (F := Ideal) x0 x1 x3 x10
  v27 := val_main_v68 (F := Ideal) x11
  v28 := val_main_v69 (F := Ideal) x0 x1 x3 x10 x11
  z29 := val_main_call7_v0 (F := Ideal)
  v29 := val_main_v70 (F := Ideal) x0 x1 x3 x10 x11
  v30 := val_main_v71 (F := Ideal) x0 x1 x3 x10 x11 x12
  v32 := val_main_v73 (F := Ideal) x13
  v33 := val_main_v74 (F := Ideal) x0 x1 x3 x10 x11 x12 x13
  v34 := val_main_v75 (F := Ideal) x0 x1 x3 x10 x11 x12 x13
  v35 := val_main_v76 (F := Ideal) x0 x1 x3 x10 x11 x12 x13
  v36 := val_main_v77 (F := Ideal)
  v37 := val_main_v78 (F := Ideal) x0 x1 x3 x10 x11 x12 x13
  v38 := val_main_v79 (F := Ideal) x0 x1 x3 x10 x11 x12 x13
  v39 := val_main_v80 (F := Ideal) x0 x1 x3 x10 x11 x12 x13
  v40 := val_main_v81 (F := Ideal) x0 x1 x3 x10 x11 x12 x13
  v41 := val_main_v82 (F := Ideal) x0 x1 x3 x10 x11 x12 x13
  v42 := val_main_v83 (F := Ideal) x0 x1 x3 x10 x11 x12 x13
  v43 := val_main_v84 (F := Ideal)
  v44 := val_main_v85 (F := Ideal) x0 x1 x3 x10 x11 x12 x13
  v45 := val_main_v86 (F := Ideal) x0 x1 x3 x10 x11 x12 x13
  v46 := val_main_v87 (F := Ideal) x0 x1 x3 x10 x11 x12 x13
  v47 := val_main_v88 (F := Ideal)
  v48 := val_main_v89 (F := Ideal) x0 x1 x3 x10 x11 x12 x13
  v49 := val_main_v90 (F := Ideal) x0 x1 x3 x10 x11 x12 x13
  v50 := val_main_v91 (F := Ideal) x0 x1 x3 x10 x11 x12 x13
  v51 := val_main_v92 (F := Ideal) x0 x1 x3 x10 x11 x12 x13
  v53 := val_main_v94 (F := Ideal) x14
  v54 := val_main_v95 (F := Ideal) x0 x1 x3 x10 x11 x12 x13 x14
  v56 := val_main_v97 (F := Ideal) x15
  v57 := val_main_v98 (F := Ideal) x0 x1 x3 x10 x11 x12 x13 x14 x15
  v58 := val_main_v99 (F := Ideal) x0 x1 x3 x10 x11 x12 x13 x14 x15
  v59 := val_main_v100 (F := Ideal) x0 x1 x3 x10 x11 x12 x13 x14 x15
  v60 := val_main_v101 (F := Ideal)
  v61 := val_main_v102 (F := Ideal) x0 x1 x3 x10 x11 x12 x13 x14 x15
  v62 := val_main_v103 (F := Ideal)
  v63 := val_main_v104 (F := Ideal) x0 x1 x3 x10 x11 x12 x13 x14 x15
  v64 := val_main_v105 (F := Ideal) x0 x1 x3 x10 x11 x12 x13 x14 x15
  e24 := val_main_v65_apply (F := Ideal) x0 x1 x3
  e25 := val_main_v66_apply x0 x1 x3 x10
  e27 := fun i => (val_main_v68_apply (F := Ideal) x11 i).trans (val_main_v67_apply (F := Ideal) x11 _)
  e28 := val_main_v69_apply (F := Ideal) x0 x1 x3 x10 x11
  ez29 := fun i => (val_main_call7_v0_apply (F := Ideal) i).trans (val_main_call7_cst_apply (F := Ideal) _)
  e29 := val_main_v70_apply (F := Ideal) x0 x1 x3 x10 x11
  e30 := val_main_v71_apply x0 x1 x3 x10 x11 x12
  e32 := fun i => (val_main_v73_apply (F := Ideal) x13 i).trans (val_main_v72_apply (F := Ideal) x13 _)
  e33 := val_main_v74_apply (F := Ideal) x0 x1 x3 x10 x11 x12 x13
  e34 := val_main_v75_apply x0 x1 x3 x10 x11 x12 x13
  e35 := val_main_v76_apply (F := Ideal) x0 x1 x3 x10 x11 x12 x13
  e36 := fun i => (val_main_v77_apply (F := Ideal) i).trans (val_main_cst_14_apply (F := Ideal) _)
  e37 := val_main_v78_apply (F := Ideal) x0 x1 x3 x10 x11 x12 x13
  e38 := val_main_v79_apply (F := Ideal) x0 x1 x3 x10 x11 x12 x13
  e39 := val_main_v80_apply (F := Ideal) x0 x1 x3 x10 x11 x12 x13
  e40 := val_main_v81_apply (F := Ideal) x0 x1 x3 x10 x11 x12 x13
  e41 := val_main_v82_apply x0 x1 x3 x10 x11 x12 x13
  e42 := val_main_v83_apply (F := Ideal) x0 x1 x3 x10 x11 x12 x13
  e43 := fun i => (val_main_v84_apply (F := Ideal) i).trans (val_main_cst_16_apply (F := Ideal) _)
  e44 := val_main_v85_apply (F := Ideal) x0 x1 x3 x10 x11 x12 x13
  e45 := val_main_v86_apply (F := Ideal) x0 x1 x3 x10 x11 x12 x13
  e46 := val_main_v87_apply (F := Ideal) x0 x1 x3 x10 x11 x12 x13
  e47 := fun i => (val_main_v88_apply (F := Ideal) i).trans (val_main_cst_17_apply (F := Ideal) _)
  e48 := val_main_v89_apply (F := Ideal) x0 x1 x3 x10 x11 x12 x13
  e49 := val_main_v90_apply (F := Ideal) x0 x1 x3 x10 x11 x12 x13
  e50 := val_main_v91_apply (F := Ideal) x0 x1 x3 x10 x11 x12 x13
  e51 := val_main_v92_apply (F := Ideal) x0 x1 x3 x10 x11 x12 x13
  e53 := fun i => (val_main_v94_apply (F := Ideal) x14 i).trans (val_main_v93_apply (F := Ideal) x14 _)
  e54 := val_main_v95_apply (F := Ideal) x0 x1 x3 x10 x11 x12 x13 x14
  e56 := fun i => (val_main_v97_apply (F := Ideal) x15 i).trans (val_main_v96_apply (F := Ideal) x15 _)
  e57 := val_main_v98_apply (F := Ideal) x0 x1 x3 x10 x11 x12 x13 x14 x15
  e58 := val_main_v99_apply (F := Ideal) x0 x1 x3 x10 x11 x12 x13 x14 x15
  e59 := fun i => (val_main_v100_apply (F := Ideal) x0 x1 x3 x10 x11 x12 x13 x14 x15 i).trans (Ideal.hostUnary_exp_def _)
  e60 := fun i => (val_main_v101_apply (F := Ideal) i).trans (val_main_cst_18_apply (F := Ideal) _)
  e61 := val_main_v102_apply (F := Ideal) x0 x1 x3 x10 x11 x12 x13 x14 x15
  e62 := fun i => (val_main_v103_apply (F := Ideal) i).trans (val_main_cst_19_apply (F := Ideal) _)
  e63 := val_main_v104_apply (F := Ideal) x0 x1 x3 x10 x11 x12 x13 x14 x15
  e64 := val_main_v105_apply (F := Ideal) x0 x1 x3 x10 x11 x12 x13 x14 x15

namespace BranchStages

variable {V pf : A3} {w1 : (⟨S64x256, .f32⟩ : BufTy).Contents (Elt Ideal)}
  {b1 : (⟨S64, .f32⟩ : BufTy).Contents (Elt Ideal)} {w2 : (⟨S256x64, .f32⟩ : BufTy).Contents (Elt Ideal)}
  {b2 g be : (⟨S256, .f32⟩ : BufTy).Contents (Elt Ideal)} (C : BranchStages V pf w1 b1 w2 b2 g be)

/-- The hidden row after the positive part, stage 29 at (b, n, d). -/
theorem hidden_read (b : Fin 16) (n : Fin 4096) (d : Fin 64) :
    C.v29 (ix3 b n d)
      = hidden (fun k => row V b n k * row pf b n k) (branchOf w1 b1 w2 b2 g be) d := by
  rw [C.e29, C.ez29, C.e28, C.e25, C.e27, idx27_ix]
  simp only [lidx25_ix, ridx25_ix, C.e24]
  rfl

/-- The row the normalisation acts on: the second linear map of the hidden row of token (b, n). -/
abbrev linRow (C : BranchStages V pf w1 b1 w2 b2 g be) (b : Fin 16) (n : Fin 4096) : Fin 256 → EReal :=
  lin (hidden (fun k => row V b n k * row pf b n k) (branchOf w1 b1 w2 b2 g be)) (branchOf w1 b1 w2 b2 g be)

/-- The second linear map, stage 33 at (b, n, c). -/
theorem lin_read (b : Fin 16) (n : Fin 4096) (c : Fin 256) :
    C.v33 (ix3 b n c) = C.linRow b n c := by
  rw [C.e33, C.e30, C.e32, idx32_ix]
  simp only [lidx30_ix, ridx30_ix, C.hidden_read]
  rfl

/-- The row mean, stage 37 at (b, n, 0): the sum starts from the constant zero. -/
theorem mean_read (b : Fin 16) (n : Fin 4096) (z : Fin 1) :
    C.v37 (ix3 b n z) = mean (C.linRow b n) := by
  rw [C.e37, C.e36, C.e35, C.e34, idx35_ix]
  simp only [idx34_ix, C.lin_read]
  rw [show lit0 = (0 : EReal) from Ideal.ofBits_zero_f32, zero_add]
  rfl

/-- The centred array, stage 39 at (b, n, c). -/
theorem centered39_read (b : Fin 16) (n : Fin 4096) (c : Fin 256) :
    C.v39 (ix3 b n c) = centered (C.linRow b n) c := by
  rw [C.e39, C.e38, idx38_ix, C.mean_read, C.lin_read]
  rfl

/-- The centred array computed a second time, stage 46 at (b, n, c). -/
theorem centered46_read (b : Fin 16) (n : Fin 4096) (c : Fin 256) :
    C.v46 (ix3 b n c) = centered (C.linRow b n) c := by
  rw [C.e46, C.e45, idx38_ix, C.mean_read, C.lin_read]
  rfl

/-- The row variance, stage 44 at (b, n, 0). -/
theorem variance_read (b : Fin 16) (n : Fin 4096) (z : Fin 1) :
    C.v44 (ix3 b n z) = variance (C.linRow b n) := by
  rw [C.e44, C.e43, C.e42, C.e41, idx35_ix]
  simp only [idx34_ix, C.e40, C.centered39_read]
  rw [show lit0 = (0 : EReal) from Ideal.ofBits_zero_f32, zero_add]
  rfl

/-- The normalised row, scaled and shifted, stage 57 at (b, n, c). -/
theorem norm_read (b : Fin 16) (n : Fin 4096) (c : Fin 256) :
    C.v57 (ix3 b n c) = norm (C.linRow b n) (branchOf w1 b1 w2 b2 g be) c := by
  rw [C.e57, C.e54, C.e51, C.e50, C.e49, C.e48, C.e47, C.e53, C.e56, idx38_ix, idx32_ix, C.centered46_read,
    C.variance_read]
  rfl

/-- The float constant 1.0 is the number one. -/
theorem lit1_eq : lit1 = (1 : EReal) := by
  simp [Ideal.ofBits, Ideal.ieee, -EReal.coe_mul]; norm_num

/-- The contrasted boundary row, stage 64 at (b, n, c): the expression 1 / (1 + exp (-x)) is the logistic function. -/
theorem contrast_read (b : Fin 16) (n : Fin 4096) (c : Fin 256) :
    C.v64 (ix3 b n c) = contrast (row V b n) (row pf b n) (branchOf w1 b1 w2 b2 g be) c := by
  rw [C.e64, C.e63, C.e62, C.e61, C.e60, C.e59, C.e58, C.norm_read, lit1_eq]
  rfl

end BranchStages

/-- Entry (b, n, c) of the pooled stage. -/
theorem ref_pooled (x0 : (⟨S16x2048x256, .f32⟩ : BufTy).Contents (Elt Ideal)) (x1 : (⟨S16x4096x2, .f32⟩ : BufTy).Contents (Elt Ideal)) (x3 : (⟨S16x4096x256, .f32⟩ : BufTy).Contents (Elt Ideal)) (x4 : (⟨S64x256, .f32⟩ : BufTy).Contents (Elt Ideal)) (x5 : (⟨S64, .f32⟩ : BufTy).Contents (Elt Ideal)) (x6 : (⟨S256x64, .f32⟩ : BufTy).Contents (Elt Ideal)) (x7 x8 x9 : (⟨S256, .f32⟩ : BufTy).Contents (Elt Ideal)) (x10 : (⟨S64x256, .f32⟩ : BufTy).Contents (Elt Ideal)) (x11 : (⟨S64, .f32⟩ : BufTy).Contents (Elt Ideal)) (x12 : (⟨S256x64, .f32⟩ : BufTy).Contents (Elt Ideal)) (x13 x14 x15 : (⟨S256, .f32⟩ : BufTy).Contents (Elt Ideal)) (b : Fin 16) (n : Fin 4096) (c : Fin 256) :
    val_main_v108 (F := Ideal) x0 x1 x3 x4 x5 x6 x7 x8 x9 x10 x11 x12 x13 x14 x15 (ix3 b n c)
      = pooled (row (val_main_v21 (F := Ideal) x0 x1) b n) (row (val_main_v23 (F := Ideal) x0 x1) b n) (row x3 b n)
          (branchOf x4 x5 x6 x7 x8 x9) (branchOf x10 x11 x12 x13 x14 x15) c := by
  have h1 : val_main_v64 (F := Ideal) x0 x1 x3 x4 x5 x6 x7 x8 x9 (ix3 b n c)
      = contrast (row (val_main_v21 (F := Ideal) x0 x1) b n) (row x3 b n) (branchOf x4 x5 x6 x7 x8 x9) c :=
    (stagesStart x0 x1 x3 x4 x5 x6 x7 x8 x9).contrast_read b n c
  have h2 : val_main_v105 (F := Ideal) x0 x1 x3 x10 x11 x12 x13 x14 x15 (ix3 b n c)
      = contrast (row (val_main_v23 (F := Ideal) x0 x1) b n) (row x3 b n) (branchOf x10 x11 x12 x13 x14 x15) c :=
    (stagesEnd x0 x1 x3 x10 x11 x12 x13 x14 x15).contrast_read b n c
  rw [val_main_v108_apply, val_main_v106_apply, val_main_v107_apply, val_main_cst_20_apply, h1, h2]
  rfl

end Cert.ReferenceIdeal.Rows

end
-- ==== Proof.RefRows.lean ====
/-
  The whole array computation read at one entry: entry (n, b, c) of the result is entry c of token (b, n) in the form
  that contracts the joined row with the whole first gate map and writes the gate as a softmax. The joined array's
  entry k is the pooled stage's for k < 256 and the query array's entry k - 256 otherwise; the maximum over the two
  logits, started from -∞, is the larger logit; the final transposition swaps the first two coordinates.
-/
import proofs.«425884_j67662914781840_4_alg».proof.Proof.PooledRows

noncomputable section

namespace Cert.ReferenceIdeal.Rows

open Cert.ReferenceIdeal Cert.ReferenceIdeal.Gen Cert.ReferenceIdeal.Stages Cert.TokenMath Idealize.ShloMosaic Idealize.ShloMosaic.TcCoe Idealize.ShloMosaic.ValueIdx Idealize.SL.Sem

section Layers

variable (x0 : (⟨S16x2048x256, .f32⟩ : BufTy).Contents (Elt Ideal)) (x1 : (⟨S16x4096x2, .f32⟩ : BufTy).Contents (Elt Ideal)) (x2 x3 : (⟨S16x4096x256, .f32⟩ : BufTy).Contents (Elt Ideal)) (x4 : (⟨S64x256, .f32⟩ : BufTy).Contents (Elt Ideal)) (x5 : (⟨S64, .f32⟩ : BufTy).Contents (Elt Ideal)) (x6 : (⟨S256x64, .f32⟩ : BufTy).Contents (Elt Ideal)) (x7 x8 x9 : (⟨S256, .f32⟩ : BufTy).Contents (Elt Ideal)) (x10 : (⟨S64x256, .f32⟩ : BufTy).Contents (Elt Ideal)) (x11 : (⟨S64, .f32⟩ : BufTy).Contents (Elt Ideal)) (x12 : (⟨S256x64, .f32⟩ : BufTy).Contents (Elt Ideal)) (x13 x14 x15 : (⟨S256, .f32⟩ : BufTy).Contents (Elt Ideal)) (x16 : (⟨S256x512, .f32⟩ : BufTy).Contents (Elt Ideal)) (x17 : (⟨S256, .f32⟩ : BufTy).Contents (Elt Ideal)) (x18 : (⟨S2x256, .f32⟩ : BufTy).Contents (Elt Ideal)) (x19 : (⟨S2, .f32⟩ : BufTy).Contents (Elt Ideal))

local notation "P108" => val_main_v108 (F := Ideal) x0 x1 x3 x4 x5 x6 x7 x8 x9 x10 x11 x12 x13 x14 x15
local notation "V109" => val_main_v109 (F := Ideal) x0 x1 x2 x3 x4 x5 x6 x7 x8 x9 x10 x11 x12 x13 x14 x15
local notation "V114" => val_main_v114 (F := Ideal) x0 x1 x2 x3 x4 x5 x6 x7 x8 x9 x10 x11 x12 x13 x14 x15 x16 x17
local notation "V118" => val_main_v118 (F := Ideal) x0 x1 x2 x3 x4 x5 x6 x7 x8 x9 x10 x11 x12 x13 x14 x15 x16 x17 x18 x19
local notation "V119" => val_main_v119 (F := Ideal) x0 x1 x2 x3 x4 x5 x6 x7 x8 x9 x10 x11 x12 x13 x14 x15 x16 x17 x18 x19
local notation "V121" => val_main_v121 (F := Ideal) x0 x1 x2 x3 x4 x5 x6 x7 x8 x9 x10 x11 x12 x13 x14 x15 x16 x17 x18 x19
local notation "V125" => val_main_v125 (F := Ideal) x0 x1 x2 x3 x4 x5 x6 x7 x8 x9 x10 x11 x12 x13 x14 x15 x16 x17 x18 x19
local notation "V126" => val_main_v126 (F := Ideal) x0 x1 x2 x3 x4 x5 x6 x7 x8 x9 x10 x11 x12 x13 x14 x15 x16 x17 x18 x19
local notation "V129" => val_main_v129 (F := Ideal) x0 x1 x2 x3 x4 x5 x6 x7 x8 x9 x10 x11 x12 x13 x14 x15 x16 x17 x18 x19
local notation "V137" => val_main_v137 (F := Ideal) x0 x1 x2 x3 x4 x5 x6 x7 x8 x9 x10 x11 x12 x13 x14 x15 x16 x17 x18 x19

/-! ## The joined row: the concatenation along the last axis, read at an entry -/

/-- Below 256 the joined array's entry is the pooled stage's entry. -/
theorem joined_left (b : Fin 16) (n : Fin 4096) (k : Fin 512) (hk : k.val < 256) :
    V109 (ix3 b n k) = P108 (ix3 b n (⟨k.val, hk⟩ : Fin 256)) := by
  unfold val_main_v109
  generalize P108 = y
  exact concatenate_apply_piece (2 : Fin S16x4096x512.rank) _ _ (ix3 b n k) 0 (by exact Nat.zero_lt_two) S16x4096x256 y rfl rfl 0 rfl
    (ix3 b n (⟨k.val, hk⟩ : Fin 256))
    (fun a ha => by
      match a with
      | ⟨0, _⟩ => rfl
      | ⟨1, _⟩ => rfl
      | ⟨2, _⟩ => exact absurd rfl ha)
    (Nat.zero_add _)

/-- From 256 on the joined array's entry is the query array's entry 256 places back. -/
theorem joined_right (b : Fin 16) (n : Fin 4096) (k : Fin 512) (hk : ¬ k.val < 256) :
    V109 (ix3 b n k) = x2 (ix3 b n (⟨k.val - 256, by have := k.isLt; omega⟩ : Fin 256)) := by
  unfold val_main_v109
  generalize P108 = y
  exact concatenate_apply_piece (2 : Fin S16x4096x512.rank) _ _ (ix3 b n k) 1 (by exact Nat.one_lt_two) S16x4096x256 x2 rfl rfl 256 rfl
    (ix3 b n (⟨k.val - 256, by have := k.isLt; omega⟩ : Fin 256))
    (fun a ha => by
      match a with
      | ⟨0, _⟩ => rfl
      | ⟨1, _⟩ => rfl
      | ⟨2, _⟩ => exact absurd rfl ha)
    (by show 256 + (k.val - 256) = k.val; omega)

/-- The joined array's row (b, n) is the pooled stage's row followed by the query array's row. -/
theorem joined_row (b : Fin 16) (n : Fin 4096) (k : Fin 512) :
    V109 (ix3 b n k) = (Fin.append (row P108 b n) (row x2 b n) : Fin (256 + 256) → EReal) k := by
  by_cases hk : k.val < 256
  · have e : k = Fin.castAdd 256 (⟨k.val, hk⟩ : Fin 256) := Fin.ext rfl
    exact (joined_left x0 x1 x2 x3 x4 x5 x6 x7 x8 x9 x10 x11 x12 x13 x14 x15 b n k hk).trans
      ((congrArg (Fin.append (row P108 b n) (row x2 b n) : Fin (256 + 256) → EReal) e).trans
        (Fin.append_left (row P108 b n) (row x2 b n) (⟨k.val, hk⟩ : Fin 256))).symm
  · have hlt : k.val - 256 < 256 := by have := k.isLt; omega
    have e : k = Fin.natAdd 256 (⟨k.val - 256, hlt⟩ : Fin 256) := Fin.ext (by show k.val = 256 + (k.val - 256); omega)
    exact (joined_right x0 x1 x2 x3 x4 x5 x6 x7 x8 x9 x10 x11 x12 x13 x14 x15 b n k hk).trans
      ((congrArg (Fin.append (row P108 b n) (row x2 b n) : Fin (256 + 256) → EReal) e).trans
        (Fin.append_right (row P108 b n) (row x2 b n) (⟨k.val - 256, hlt⟩ : Fin 256))).symm

/-! ## The gate's hidden row and the two logits -/

theorem lidx110_ix3 (b : Fin 16) (n : Fin 4096) (d : Fin 256) (k : Fin 512) :
    lidx_main_v110 (ix3 b n d) k = ix3 b n k :=
  funext fun a => Fin.ext (by match a with | ⟨0, _⟩ => rfl | ⟨1, _⟩ => rfl | ⟨2, _⟩ => rfl)

theorem ridx110_ix3 (b : Fin 16) (n : Fin 4096) (d : Fin 256) (k : Fin 512) :
    ridx_main_v110 (ix3 b n d) k = ix2 d k :=
  funext fun a => Fin.ext (by match a with | ⟨0, _⟩ => rfl | ⟨1, _⟩ => rfl)

theorem idx111_112_ix3 (b : Fin 16) (n : Fin 4096) (d : Fin 256) :
    idx_main_v111 (idx_main_v112 (ix3 b n d)) = ix1 d :=
  funext fun a => Fin.ext (by match a with | ⟨0, _⟩ => rfl)

/-- Entry (b, n, d) of the stage after the positive part is entry d of the gate's hidden row of token (b, n),
    computed from the joined row. -/
theorem gate_hidden (b : Fin 16) (n : Fin 4096) (d : Fin 256) :
    V114 (ix3 b n d) = gateHiddenJoined (row P108 b n) (row x2 b n) (gateOf x16 x17 x18 x19) d := by
  rw [val_main_v114_apply, val_main_v113_apply, val_main_v110_apply, val_main_v112_apply, val_main_v111_apply,
    val_main_call8_v0_apply, val_main_call8_cst_apply]
  simp only [Ideal.maximumf_def, Ideal.addf_def, Ideal.ofBits_def, lidx110_ix3, ridx110_ix3, idx111_112_ix3]
  unfold gateHiddenJoined
  refine congrArg (fun t => max (t + x17 (ix1 d)) lit0) (Finset.sum_congr rfl fun k _ => ?_)
  exact congrArg (· * x16 (ix2 d k)) (joined_row x0 x1 x2 x3 x4 x5 x6 x7 x8 x9 x10 x11 x12 x13 x14 x15 b n k)

theorem lidx115_ix3 (b : Fin 16) (n : Fin 4096) (o : Fin 2) (k : Fin 256) :
    lidx_main_v115 (ix3 b n o) k = ix3 b n k :=
  funext fun a => Fin.ext (by match a with | ⟨0, _⟩ => rfl | ⟨1, _⟩ => rfl | ⟨2, _⟩ => rfl)

theorem ridx115_ix3 (b : Fin 16) (n : Fin 4096) (o : Fin 2) (k : Fin 256) :
    ridx_main_v115 (ix3 b n o) k = ix2 o k :=
  funext fun a => Fin.ext (by match a with | ⟨0, _⟩ => rfl | ⟨1, _⟩ => rfl)

theorem idx116_117_ix3 (b : Fin 16) (n : Fin 4096) (o : Fin 2) :
    idx_main_v116 (idx_main_v117 (ix3 b n o)) = ix1 o :=
  funext fun a => Fin.ext (by match a with | ⟨0, _⟩ => rfl)

/-- Entry (b, n, o) of the logit stage is logit o of token (b, n). -/
theorem logit_entry (b : Fin 16) (n : Fin 4096) (o : Fin 2) :
    V118 (ix3 b n o)
      = logits (gateHiddenJoined (row P108 b n) (row x2 b n) (gateOf x16 x17 x18 x19)) (gateOf x16 x17 x18 x19) o := by
  rw [val_main_v118_apply, val_main_v115_apply, val_main_v117_apply, val_main_v116_apply]
  simp only [Ideal.addf_def, lidx115_ix3, ridx115_ix3, idx116_117_ix3]
  unfold logits
  refine congrArg (fun t => t + x19 (ix1 o)) (Finset.sum_congr rfl fun k _ => ?_)
  exact congrArg (· * x18 (ix2 o k)) (gate_hidden x0 x1 x2 x3 x4 x5 x6 x7 x8 x9 x10 x11 x12 x13 x14 x15 x16 x17 x18 x19 b n k)

/-! ## The larger logit: the maximum over the axis of size two, started from -∞ -/

/-- The word 0xFF800000 denotes -∞. -/
theorem bits_neg_inf : Ideal.ofBits .f32 0xFF800000#32 = (⊥ : EReal) := by simp [Ideal.ofBits, Ideal.ieee]

/-- A fold of the maximum over two entries, started from -∞, is the larger entry. -/
theorem fold_max_two (g : Fin 2 → EReal) : (Finset.univ : Finset (Fin 2)).fold max ⊥ g = max (g 0) (g 1) := by
  simp only [Fin.univ_succ, Finset.fold_cons, Finset.fold_map, Finset.univ_unique, Finset.fold_singleton]
  show max (g 0) (max (g 1) ⊥) = max (g 0) (g 1)
  rw [max_eq_left bot_le]

/-- The reduced index (b, n) with o put back on the last axis is (b, n, o). -/
theorem lift_ix3 (h : S16x4096x2.Reduces [2] S16x4096) (b : Fin 16) (n : Fin 4096) (k : Fin (S16x4096x2.size 2)) :
    h.lift (ix2 b n) k = ix3 b n (⟨k.val, k.isLt⟩ : Fin 2) :=
  funext fun c => Fin.ext (by match c with | ⟨0, _⟩ => rfl | ⟨1, _⟩ => rfl | ⟨2, _⟩ => rfl)

/-- From -∞ the maximum-reduce of a [16, 4096, 2] array over its last axis is, at (b, n), the larger of its two
    entries there. -/
theorem hostMax_two (y : FVec Ideal S16x4096x2 .f32) (h' : S16x4096x2.ReducesTo [2] S16x4096)
    (h : S16x4096x2.Reduces [2] S16x4096) (hu : 0 < S_.numel) (b : Fin 16) (n : Fin 4096) :
    Host.reduce (FloatOps.maximumf (F := Ideal) (φ := .f32)) y (constant (F := Ideal) S_ .f32 0xFF800000#32) h' hu (ix2 b n)
      = max (y (ix3 b n 0)) (y (ix3 b n 1)) := by
  rw [Host.reduce_eq_fold_single (FloatOps.maximumf (F := Ideal) (φ := .f32)) y _ h' h hu]
  have hf : (y ∘ h.lift (ix2 b n)) = fun o : Fin 2 => y (ix3 b n o) :=
    funext fun k => congrArg y (lift_ix3 h b n k)
  refine Eq.trans ?_ (fold_max_two fun o : Fin 2 => y (ix3 b n o))
  have e := congrArg (fun f => Finset.fold max (Ideal.ofBits .f32 0xFF800000#32) f (Finset.univ : Finset (Fin 2))) hf
  exact e.trans (congrArg (fun t => Finset.fold max t (fun o : Fin 2 => y (ix3 b n o)) (Finset.univ : Finset (Fin 2))) bits_neg_inf)

/-- Entry (b, n) of the reduced stage is the larger of the two logit entries. -/
theorem row_max (b : Fin 16) (n : Fin 4096) :
    V119 (ix2 b n) = max (V118 (ix3 b n 0)) (V118 (ix3 b n 1)) := by
  unfold val_main_v119
  generalize V118 = y
  exact hostMax_two y _ (by decide) _ b n

/-- The maximum of that entry against -∞ again is the same larger logit. -/
theorem larger_logit (b : Fin 16) (n : Fin 4096) :
    V121 (ix2 b n) = max (V118 (ix3 b n 0)) (V118 (ix3 b n 1)) := by
  rw [val_main_v121_apply, val_main_v120_apply, val_main_cst_22_apply, row_max]
  simp only [Ideal.maximumf_def, Ideal.ofBits_def]
  rw [bits_neg_inf]
  exact max_eq_right bot_le

/-! ## The softmax entry -/

theorem idx122_123_ix3 (b : Fin 16) (n : Fin 4096) (o : Fin 2) :
    idx_main_v122 (idx_main_v123 (ix3 b n o)) = ix2 b n :=
  funext fun a => Fin.ext (by match a with | ⟨0, _⟩ => rfl | ⟨1, _⟩ => rfl)

theorem idx127_128_ix3 (b : Fin 16) (n : Fin 4096) (o : Fin 2) :
    idx_main_v127 (idx_main_v128 (ix3 b n o)) = ix2 b n :=
  funext fun a => Fin.ext (by match a with | ⟨0, _⟩ => rfl | ⟨1, _⟩ => rfl)

theorem idx126_ix2 (b : Fin 16) (n : Fin 4096) (k : Fin 2) :
    idx_main_v126 (ix2 b n) k = ix3 b n k :=
  funext fun a => Fin.ext (by match a with | ⟨0, _⟩ => rfl | ⟨1, _⟩ => rfl | ⟨2, _⟩ => rfl)

/-- Entry (b, n, o) of the exponential stage: the exponential of logit o less the larger logit. -/
theorem exp_entry (b : Fin 16) (n : Fin 4096) (o : Fin 2) :
    V125 (ix3 b n o) = Ideal.exp (V118 (ix3 b n o) - max (V118 (ix3 b n 0)) (V118 (ix3 b n 1))) := by
  rw [val_main_v125_apply, val_main_v124_apply, val_main_v123_apply, val_main_v122_apply, idx122_123_ix3, larger_logit]
  simp only [Ideal.hostUnary_exp_def, Ideal.subf_def]

/-- Entry (b, n) of the float sum over the axis of size two, started from 0: the two exponentials added. -/
theorem sum_entry (b : Fin 16) (n : Fin 4096) :
    V126 (ix2 b n)
      = ∑ o' : Fin 2, Ideal.exp (V118 (ix3 b n o') - max (V118 (ix3 b n 0)) (V118 (ix3 b n 1))) := by
  rw [val_main_v126_apply, val_main_cst_23_apply]
  simp only [Ideal.ofBits_def, Ideal.ofBits_zero_f32, zero_add, idx126_ix2, exp_entry]

/-- Entry (b, n, o) of the quotient stage is the softmax of the two logit entries at o. -/
theorem softmax_entry (b : Fin 16) (n : Fin 4096) (o : Fin 2) :
    V129 (ix3 b n o) = softmax2 (fun o' : Fin 2 => V118 (ix3 b n o')) o := by
  rw [val_main_v129_apply, val_main_v128_apply, val_main_v127_apply, idx127_128_ix3, sum_entry, exp_entry]
  simp only [Ideal.hostDivf_def]
  rfl

/-! ## The mix and the transposition -/

theorem idx137_ix3 (n : Fin 4096) (b : Fin 16) (c : Fin 256) : idx_main_v137 (ix3 n b c) = ix3 b n c :=
  funext fun a => Fin.ext (by match a with | ⟨0, _⟩ => rfl | ⟨1, _⟩ => rfl | ⟨2, _⟩ => rfl)

theorem idx130_131_ix3 (b : Fin 16) (n : Fin 4096) (c : Fin 256) :
    idx_main_v130 (idx_main_v131 (ix3 b n c)) = ix3 b n (0 : Fin 2) :=
  funext fun a => Fin.ext (by match a with | ⟨0, _⟩ => rfl | ⟨1, _⟩ => rfl | ⟨2, _⟩ => rfl)

theorem idx133_134_ix3 (b : Fin 16) (n : Fin 4096) (c : Fin 256) :
    idx_main_v133 (idx_main_v134 (ix3 b n c)) = ix3 b n (1 : Fin 2) :=
  funext fun a => Fin.ext (by match a with | ⟨0, _⟩ => rfl | ⟨1, _⟩ => rfl | ⟨2, _⟩ => rfl)

/-- Entry (n, b, c) of the result: the pooled entry and the query entry of token (b, n), each times its softmax weight. -/
theorem mix_entry (n : Fin 4096) (b : Fin 16) (c : Fin 256) :
    V137 (ix3 n b c) = P108 (ix3 b n c) * V129 (ix3 b n 0) + x2 (ix3 b n c) * V129 (ix3 b n 1) := by
  rw [val_main_v137_apply, idx137_ix3, val_main_v136_apply, val_main_v132_apply, val_main_v135_apply,
    val_main_v131_apply, val_main_v134_apply, val_main_v130_apply, val_main_v133_apply, idx130_131_ix3, idx133_134_ix3]
  simp only [Ideal.addf_def, Ideal.mulf_def]

/-- Entry (n, b, c) of the result is entry c of token (b, n) in the joined / softmax form. -/
theorem token_entry (n : Fin 4096) (b : Fin 16) (c : Fin 256) :
    V137 (ix3 n b c)
      = tokenJoined (row (val_main_v21 (F := Ideal) x0 x1) b n) (row (val_main_v23 (F := Ideal) x0 x1) b n) (row x2 b n)
          (row x3 b n) (branchOf x4 x5 x6 x7 x8 x9) (branchOf x10 x11 x12 x13 x14 x15) (gateOf x16 x17 x18 x19) c := by
  have hl : (fun o' : Fin 2 => V118 (ix3 b n o'))
      = logits (gateHiddenJoined (row P108 b n) (row x2 b n) (gateOf x16 x17 x18 x19)) (gateOf x16 x17 x18 x19) :=
    funext fun o => logit_entry x0 x1 x2 x3 x4 x5 x6 x7 x8 x9 x10 x11 x12 x13 x14 x15 x16 x17 x18 x19 b n o
  have hp : row P108 b n
      = pooled (row (val_main_v21 (F := Ideal) x0 x1) b n) (row (val_main_v23 (F := Ideal) x0 x1) b n) (row x3 b n)
          (branchOf x4 x5 x6 x7 x8 x9) (branchOf x10 x11 x12 x13 x14 x15) :=
    funext fun k => ref_pooled x0 x1 x3 x4 x5 x6 x7 x8 x9 x10 x11 x12 x13 x14 x15 b n k
  rw [mix_entry, softmax_entry, softmax_entry, hl]
  show row P108 b n c * _ + _ = _
  rw [hp]
  rfl

end Layers

/-- The result array is the token computation in its joined / softmax form, entry by entry. -/
theorem ref_value (x0 : (⟨S16x2048x256, .f32⟩ : BufTy).Contents (Elt Ideal)) (x1 : (⟨S16x4096x2, .f32⟩ : BufTy).Contents (Elt Ideal)) (x2 x3 : (⟨S16x4096x256, .f32⟩ : BufTy).Contents (Elt Ideal)) (x4 : (⟨S64x256, .f32⟩ : BufTy).Contents (Elt Ideal)) (x5 : (⟨S64, .f32⟩ : BufTy).Contents (Elt Ideal)) (x6 : (⟨S256x64, .f32⟩ : BufTy).Contents (Elt Ideal)) (x7 x8 x9 : (⟨S256, .f32⟩ : BufTy).Contents (Elt Ideal)) (x10 : (⟨S64x256, .f32⟩ : BufTy).Contents (Elt Ideal)) (x11 : (⟨S64, .f32⟩ : BufTy).Contents (Elt Ideal)) (x12 : (⟨S256x64, .f32⟩ : BufTy).Contents (Elt Ideal)) (x13 x14 x15 : (⟨S256, .f32⟩ : BufTy).Contents (Elt Ideal)) (x16 : (⟨S256x512, .f32⟩ : BufTy).Contents (Elt Ideal)) (x17 : (⟨S256, .f32⟩ : BufTy).Contents (Elt Ideal)) (x18 : (⟨S2x256, .f32⟩ : BufTy).Contents (Elt Ideal)) (x19 : (⟨S2, .f32⟩ : BufTy).Contents (Elt Ideal)) :
    val_main_v137 (F := Ideal) x0 x1 x2 x3 x4 x5 x6 x7 x8 x9 x10 x11 x12 x13 x14 x15 x16 x17 x18 x19
      = resultJoined (val_main_v21 (F := Ideal) x0 x1) (val_main_v23 (F := Ideal) x0 x1) x2 x3
          (branchOf x4 x5 x6 x7 x8 x9) (branchOf x10 x11 x12 x13 x14 x15) (gateOf x16 x17 x18 x19) := by
  funext j
  obtain ⟨n, b, c, rfl⟩ : ∃ (n : Fin 4096) (b : Fin 16) (c : Fin 256), j = ix3 n b c := ⟨j 0, j 1, j 2, eq_ix3 j⟩
  exact token_entry x0 x1 x2 x3 x4 x5 x6 x7 x8 x9 x10 x11 x12 x13 x14 x15 x16 x17 x18 x19 n b c

end Cert.ReferenceIdeal.Rows

end
-- ==== Proof.BoundaryRows.lean ====
/-
  The gathered boundary rows are real numbers when the feature array is.

  The row index of a gathered row is the box's boundary scaled to the feature length, clipped to [0, 2047], rounded to
  the nearest integer (ties to even) and converted to an integer word: an integer in [0, 2047], whatever the box array
  holds (the clip takes every extended real into [0, 2047]; rounding keeps an interval with integer ends; the conversion
  of an integer in the word's range is exact). The gather itself clamps its index into the array, so the gathered entry is
  an entry of the feature array; and the guard that would replace an out-of-range row by the not-a-number pattern
  (which denotes -∞) passes, because the index is in range. So every entry of the gathered array is an entry of the
  feature array.
-/
import proofs.«425884_j67662914781840_4_alg».proof.Proof.RefStages
import proofs.«425884_j67662914781840_4_alg».proof.Proof.TokenMath
import Idealize.ShloMosaic.Lib.StableHlo.Predicate

noncomputable section

namespace Cert.ReferenceIdeal.Boundary

open Cert.ReferenceIdeal Cert.ReferenceIdeal.Gen Cert.ReferenceIdeal.Stages Cert.TokenMath Idealize.ShloMosaic Idealize.ShloMosaic.TcCoe Idealize.ShloMosaic.ValueIdx Idealize.SL.Sem

/-! ## The clip, the rounding and the conversion -/

/-- Clipping between two real bounds `b ≤ a` takes every extended real, the infinities included, to a real number
    in `[b, a]`. -/
theorem clip_real (a b : ℝ) (hba : b ≤ a) (t : EReal) :
    ∃ r : ℝ, b ≤ r ∧ r ≤ a ∧ min (a : EReal) (max (b : EReal) t) = (r : EReal) := by
  have hle : min (a : EReal) (max (b : EReal) t) ≤ (a : EReal) := min_le_left _ _
  have hge : (b : EReal) ≤ min (a : EReal) (max (b : EReal) t) :=
    le_min (EReal.coe_le_coe_iff.2 hba) (le_max_left _ _)
  have hbot : min (a : EReal) (max (b : EReal) t) ≠ ⊥ := fun e => by
    rw [e] at hge; exact absurd (le_bot_iff.1 hge) (EReal.coe_ne_bot b)
  have htop : min (a : EReal) (max (b : EReal) t) ≠ ⊤ := fun e => by
    rw [e] at hle; exact absurd (top_le_iff.1 hle) (EReal.coe_ne_top a)
  have hr := EReal.coe_toReal htop hbot
  refine ⟨(min (a : EReal) (max (b : EReal) t)).toReal, ?_, ?_, hr.symm⟩
  · rw [← hr] at hge; exact EReal.coe_le_coe_iff.1 hge
  · rw [← hr] at hle; exact EReal.coe_le_coe_iff.1 hle

/-- Rounding to the nearest integer, ties to even, keeps an interval whose ends are integers. -/
theorem roundHalfEven_range (lo hi : ℤ) (r : ℝ) (h0 : (lo : ℝ) ≤ r) (h1 : r ≤ (hi : ℝ)) :
    lo ≤ Ideal.roundHalfEven r ∧ Ideal.roundHalfEven r ≤ hi := by
  have hf0 : lo ≤ ⌊r⌋ := Int.le_floor.2 h0
  have hf1 : ⌊r⌋ ≤ hi := Int.cast_le.1 (le_trans (Int.floor_le r) h1)
  have hup : (1 : ℝ) / 2 ≤ r - ⌊r⌋ → ⌊r⌋ + 1 ≤ hi := fun h => by
    have : ((⌊r⌋ : ℤ) : ℝ) < (hi : ℝ) := by linarith
    exact Int.add_one_le_iff.2 (Int.cast_lt.1 this)
  unfold Ideal.roundHalfEven
  simp only []
  split_ifs with h1' h2' h3'
  · exact ⟨hf0, hf1⟩
  · exact ⟨by omega, hup (le_of_lt h2')⟩
  · exact ⟨hf0, hf1⟩
  · exact ⟨by omega, hup (not_lt.1 h1')⟩

/-- The conversion to a 32-bit word of an integer in `[0, 2047]` is that integer's word. -/
theorem fptosi_small (n : ℤ) (h0 : 0 ≤ n) (h1 : n ≤ 2047) :
    Ideal.fptosi 32 (((n : ℝ) : EReal)) = BitVec.ofNat 32 n.toNat := by
  have hn : ((n.toNat : ℕ) : ℤ) = n := Int.toNat_of_nonneg h0
  rw [Ideal.fptosi, Ideal.toIntClamped_coe, if_pos (by exact_mod_cast h0), Int.floor_intCast]
  rw [show max (-((2 ^ (32 - 1) : ℕ) : ℤ)) (min (((2 ^ (32 - 1) : ℕ) : ℤ) - 1) n) = ((n.toNat : ℕ) : ℤ) by
    rw [hn]; norm_num; omega]
  exact BitVec.ofInt_natCast _ _

/-- The row index as a word: clip to `[0, 2047]` (the bounds given as the words the program converts), round to
    the nearest integer, convert. Whatever the extended real `t`, the word is that of a natural number at most
    2047. -/
theorem index_word (t : EReal) :
    ∃ m : ℕ, m ≤ 2047 ∧
      Ideal.fptosi 32 (Ideal.liftRound Ideal.roundHalfEven
        (min ((((2047#32 : BitVec 32).toInt : ℝ)) : EReal) (max ((((0#32 : BitVec 32).toInt : ℝ)) : EReal) t)))
        = BitVec.ofNat 32 m := by
  have e1 : (2047#32 : BitVec 32).toInt = 2047 := by decide
  have e0 : (0#32 : BitVec 32).toInt = 0 := by decide
  rw [e1, e0]
  obtain ⟨r, hr0, hr1, hr⟩ := clip_real ((2047 : ℤ) : ℝ) ((0 : ℤ) : ℝ) (by norm_num) t
  rw [hr, Ideal.liftRound_coe]
  obtain ⟨hn0, hn1⟩ := roundHalfEven_range 0 2047 r hr0 hr1
  refine ⟨(Ideal.roundHalfEven r).toNat, by omega, fptosi_small _ hn0 hn1⟩

/-! ## The guard of the gather -/

/-- For the word of a natural number at most 2047: it is not negative, so the wrap-around of a negative index
    leaves it alone, and both range tests pass. -/
theorem guard_word (m : ℕ) (hm : m ≤ 2047) :
    IntOp.andi
      (IntOp.cmpi .sge (Scalar.select (IntOp.cmpi .slt (BitVec.ofNat 32 m) 0#32)
        (IntOp.addi (BitVec.ofNat 32 m) 2048#32) (BitVec.ofNat 32 m)) 0#32)
      (IntOp.cmpi .sle (Scalar.select (IntOp.cmpi .slt (BitVec.ofNat 32 m) 0#32)
        (IntOp.addi (BitVec.ofNat 32 m) 2048#32) (BitVec.ofNat 32 m)) 2047#32) = 1#1 := by
  have hw : (BitVec.ofNat 32 m).toNat = m := by rw [BitVec.toNat_ofNat]; omega
  have hw31 : (BitVec.ofNat 32 m).toNat < 2 ^ 31 := by rw [hw]; omega
  have h0 : (0#32 : BitVec 32).toNat < 2 ^ 31 := by decide
  have h2047 : (2047#32 : BitVec 32).toNat < 2 ^ 31 := by decide
  have hneg : ¬ IntOp.cmpi .slt (BitVec.ofNat 32 m) 0#32 = (1 : BitVec 1) := fun e => by
    have := (StableHlo.Predicate.slt_iff_toNat hw31 h0).1 e
    simp at this
  rw [Scalar.select, if_neg hneg]
  refine IntOp.andi_eq_one.2 ⟨(StableHlo.Predicate.sge_iff_toNat hw31 h0).2 (by simp),
    (StableHlo.Predicate.sle_iff_toNat hw31 h2047).2 (by rw [hw]; simpa using hm)⟩

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, IntOp.andi_eq_one.2 ⟨rfl, hf a⟩]
    exact foldl_andi_one f hf l

/-- A reduction by `and`, started from 1, of an array whose every entry is 1 is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- The same, in the operations' names at the extended reals. -/
theorem index_word_ops (t : Ideal .f32) :
    ∃ m : ℕ, m ≤ 2047 ∧
      FloatOps.fptosi (F := Ideal) 32 (FloatOps.hostUnary (F := Ideal) .roundeven
        (FloatOps.minimumf (F := Ideal) (FloatOps.sitofp (F := Ideal) .f32 (2047#32 : BitVec 32))
          (FloatOps.maximumf (F := Ideal) (FloatOps.sitofp (F := Ideal) .f32 (0#32 : BitVec 32)) t)))
        = BitVec.ofNat 32 m := index_word t

/-! ## The start rows -/

/-- The guard of the start rows passes at every index. -/
theorem start_guard (x1 : (⟨S16x4096x2, .f32⟩ : BufTy).Contents (Elt Ideal)) (k : S16x4096x1.Idx) :
    val_main_call4_v10 (F := Ideal) x1 k = 1#1 := by
  rw [val_main_call4_v10_apply, val_main_call4_v6_apply, val_main_call4_v9_apply, val_main_call4_v4_apply,
    val_main_call4_v1_apply, val_main_call4_v3_apply, val_main_call4_v0_apply, val_main_call4_c_apply,
    val_main_call4_v2_apply, val_main_call4_c_0_apply, val_main_call4_v5_apply, val_main_call4_c_2_apply,
    val_main_call4_v8_apply, val_main_call4_v7_apply, val_main_call4_c_1_apply,
    val_main_v20_apply, val_main_v11_apply, val_main_v10_apply, val_main_v9_apply,
    val_main_call0_v4_apply, val_main_call0_v3_apply, val_main_c_1_apply,
    val_main_call0_v2_apply, val_main_call0_v1_apply, val_main_call0_v0_apply, val_main_c_apply]
  obtain ⟨m, hm, e⟩ := index_word_ops (val_main_v8 (F := Ideal) x1 (idx_main_v20 k))
  rw [e]
  exact guard_word m hm

/-- The mask of the start rows (the guard reduced by `and` over its axis of size one) is 1 everywhere. -/
theorem start_mask (x1 : (⟨S16x4096x2, .f32⟩ : BufTy).Contents (Elt Ideal)) (j : S16x4096.Idx) :
    val_main_call4_v11 (F := Ideal) x1 j = 1#1 := by
  unfold val_main_call4_v11
  exact reduce_andi_one _ _ _ _ (fun k => val_main_call4_c_3_apply k) (start_guard x1) j

/-- Every entry of the gathered start rows is a real number when every entry of the feature array is. -/
theorem start_rows_real (x0 : (⟨S16x2048x256, .f32⟩ : BufTy).Contents (Elt Ideal)) (x1 : (⟨S16x4096x2, .f32⟩ : BufTy).Contents (Elt Ideal))
    (h0 : ∀ i, IsReal (x0 i)) (i : S16x4096x256.Idx) : IsReal (val_main_v21 (F := Ideal) x0 x1 i) := by
  rw [val_main_v21_apply, val_main_call4_v13_apply, start_mask, Scalar.select, if_pos (show (1#1 : BitVec 1) = 1 from rfl)]
  unfold val_main_call4_v12 Host.gather
  exact h0 _

/-! ## The end rows -/

/-- The guard of the end rows passes at every index. -/
theorem end_guard (x1 : (⟨S16x4096x2, .f32⟩ : BufTy).Contents (Elt Ideal)) (k : S16x4096x1.Idx) :
    val_main_call5_v10 (F := Ideal) x1 k = 1#1 := by
  rw [val_main_call5_v10_apply, val_main_call5_v6_apply, val_main_call5_v9_apply, val_main_call5_v4_apply,
    val_main_call5_v1_apply, val_main_call5_v3_apply, val_main_call5_v0_apply, val_main_call5_c_apply,
    val_main_call5_v2_apply, val_main_call5_c_0_apply, val_main_call5_v5_apply, val_main_call5_c_2_apply,
    val_main_call5_v8_apply, val_main_call5_v7_apply, val_main_call5_c_1_apply,
    val_main_v22_apply, val_main_v19_apply, val_main_v18_apply, val_main_v17_apply,
    val_main_call2_v4_apply, val_main_call2_v3_apply, val_main_c_5_apply,
    val_main_call2_v2_apply, val_main_call2_v1_apply, val_main_call2_v0_apply, val_main_c_4_apply]
  obtain ⟨m, hm, e⟩ := index_word_ops (val_main_v16 (F := Ideal) x1 (idx_main_v22 k))
  rw [e]
  exact guard_word m hm

/-- The mask of the end rows is 1 everywhere. -/
theorem end_mask (x1 : (⟨S16x4096x2, .f32⟩ : BufTy).Contents (Elt Ideal)) (j : S16x4096.Idx) :
    val_main_call5_v11 (F := Ideal) x1 j = 1#1 := by
  unfold val_main_call5_v11
  exact reduce_andi_one _ _ _ _ (fun k => val_main_call5_c_3_apply k) (end_guard x1) j

/-- Every entry of the gathered end rows is a real number when every entry of the feature array is. -/
theorem end_rows_real (x0 : (⟨S16x2048x256, .f32⟩ : BufTy).Contents (Elt Ideal)) (x1 : (⟨S16x4096x2, .f32⟩ : BufTy).Contents (Elt Ideal))
    (h0 : ∀ i, IsReal (x0 i)) (i : S16x4096x256.Idx) : IsReal (val_main_v23 (F := Ideal) x0 x1 i) := by
  rw [val_main_v23_apply, val_main_call5_v13_apply, end_mask, Scalar.select, if_pos (show (1#1 : BitVec 1) = 1 from rfl)]
  unfold val_main_call5_v12 Host.gather
  exact h0 _

end Cert.ReferenceIdeal.Boundary

end
-- ==== Proof.GateLaw.lean ====
/-
  The two ways of writing the gate agree on real logits, and a token's two forms agree when its rows are real.

  The logistic function takes every extended real to a real number in [0, 1], so the pooled row is real as soon as
  the two boundary rows are; with real gate parameters and a real query row the two logits a, b are then real, and for
  real a, b and any real M:  exp (a - M) / (exp (a - M) + exp (b - M)) = 1 / (1 + exp (-(a - b))), and the other
  softmax entry is its complement to one. Joining two rows and contracting with the whole first map is the sum of the
  two halves' contractions (a sum over 512 = 256 + 256 indices splits), which needs no finiteness.
-/
import proofs.«425884_j67662914781840_4_alg».proof.Proof.TokenMath
import Mathlib.Algebra.BigOperators.Fin
import Mathlib.Analysis.SpecialFunctions.Exp
import Mathlib.Data.EReal.Operations

noncomputable section

namespace Cert.TokenMath

open Idealize.ShloMosaic Idealize.ShloMosaic.ValueIdx

/-! ## The constants -/

/-- The word of +0.0 denotes 0. -/
theorem lit0_eq : lit0 = 0 := by
  show Ideal.ofBits .f32 0x00000000#32 = 0
  simp [Ideal.ofBits, Ideal.ieee]

/-- The word of 1.0 denotes 1. -/
theorem lit1_eq : lit1 = 1 := by
  show Ideal.ofBits .f32 0x3F800000#32 = 1
  simp [Ideal.ofBits, Ideal.ieee, -EReal.coe_mul]; norm_num

/-- The word of 0.5 denotes the real number one half. -/
theorem litHalf_eq : litHalf = ((1 / 2 : ℝ) : EReal) := by
  show Ideal.ofBits .f32 0x3F000000#32 = ((1 / 2 : ℝ) : EReal)
  simp [Ideal.ofBits, Ideal.ieee, -EReal.coe_mul]; norm_num

/-! ## Real numbers among the extended reals are closed under the operations a token uses -/

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

/-- A finite sum of real numbers is a real number. -/
theorem IsReal.sum {n : ℕ} (f : Fin n → EReal) (h : ∀ k, IsReal (f k)) : IsReal (∑ k : Fin n, f k) :=
  Finset.sum_induction f IsReal (fun _ _ => IsReal.add) IsReal.zero (fun k _ => h k)

/-- The logistic function of any extended real is a real number: 0 at -∞, 1 at +∞, 1 / (1 + exp (-r)) at a real r. -/
theorem isReal_logistic (x : EReal) : IsReal (Ideal.logistic x) := by
  induction x using EReal.rec with
  | bot => exact ⟨0, Ideal.logistic_bot⟩
  | coe r => exact ⟨_, Ideal.logistic_coe r⟩
  | top => exact ⟨1, Ideal.logistic_top⟩

/-- The contrast of a real boundary row is real, whatever row it is computed through and whatever the branch is. -/
theorem isReal_contrastOf (pr v : Fin 256 → EReal) (P : Branch) (hv : ∀ k, IsReal (v k)) (c : Fin 256) :
    IsReal (contrastOf pr v P c) :=
  (isReal_logistic _).mul (hv c)

/-- The pooled row of two real boundary rows is real. -/
theorem isReal_pooled (sf ef pf : Fin 256 → EReal) (P1 P2 : Branch) (hsf : ∀ k, IsReal (sf k))
    (hef : ∀ k, IsReal (ef k)) (c : Fin 256) : IsReal (pooled sf ef pf P1 P2 c) := by
  have hh : IsReal litHalf := ⟨_, litHalf_eq⟩
  exact ((isReal_contrastOf _ sf P1 hsf c).add (isReal_contrastOf _ ef P2 hef c)).mul hh

/-- The gate's hidden row (from the two halves) of real rows under real parameters is real. -/
theorem isReal_gateHiddenSplit (pl qf : Fin 256 → EReal) (G : Gate) (hS : G.Split) (hG : G.Real)
    (hpl : ∀ k, IsReal (pl k)) (hqf : ∀ k, IsReal (qf k)) (d : Fin 256) : IsReal (gateHiddenSplit pl qf G d) := by
  have hwa : ∀ d k, IsReal (G.wa d k) := fun d k => by rw [hS.1]; exact hG.1 d _
  have hwb : ∀ d k, IsReal (G.wb d k) := fun d k => by rw [hS.2]; exact hG.1 d _
  have h0 : IsReal lit0 := ⟨0, lit0_eq⟩
  exact ((((IsReal.sum _ fun k => (hpl k).mul (hwa d k)).add (IsReal.sum _ fun k => (hqf k).mul (hwb d k))).add
    (hG.2.1 d)).max h0)

/-- The two logits of a real hidden row under real parameters are real. -/
theorem isReal_logits (h : Fin 256 → EReal) (G : Gate) (hG : G.Real) (hh : ∀ d, IsReal (h d)) (o : Fin 2) :
    IsReal (logits h G o) :=
  (IsReal.sum _ fun d => (hh d).mul (hG.2.2.1 o d)).add (hG.2.2.2 o)

/-! ## The joined contraction is the sum of the two halves' contractions -/

theorem gateHiddenJoined_eq_gateHiddenSplit (pl qf : Fin 256 → EReal) (G : Gate) (hS : G.Split) :
    gateHiddenJoined pl qf G = gateHiddenSplit pl qf G := by
  funext d
  show max ((∑ k : Fin (256 + 256), (Fin.append pl qf : Fin (256 + 256) → EReal) k * G.w1 d k) + G.b1 d) lit0
    = max (((∑ k : Fin 256, pl k * G.wa d k) + (∑ k : Fin 256, qf k * G.wb d k)) + G.b1 d) lit0
  rw [Fin.sum_univ_add]
  simp only [Fin.append_left, Fin.append_right, hS.1, hS.2]

/-! ## The two-entry softmax of real logits is the logistic function of their difference -/

theorem real_softmax_left (a b M : ℝ) :
    Real.exp (a - M) * (1 / (Real.exp (a - M) + Real.exp (b - M))) = (1 + Real.exp (-(a - b)))⁻¹ := by
  have ha : 0 < Real.exp (a - M) := Real.exp_pos _
  have hb : 0 < Real.exp (b - M) := Real.exp_pos _
  have h : Real.exp (-(a - b)) = Real.exp (b - M) / Real.exp (a - M) := by
    rw [← Real.exp_sub]; congr 1; ring
  rw [h]
  field_simp

theorem real_softmax_right (a b M : ℝ) :
    Real.exp (b - M) * (1 / (Real.exp (a - M) + Real.exp (b - M))) = 1 - (1 + Real.exp (-(a - b)))⁻¹ := by
  have ha : 0 < Real.exp (a - M) := Real.exp_pos _
  have hb : 0 < Real.exp (b - M) := Real.exp_pos _
  rw [← real_softmax_left a b M]
  field_simp
  ring

theorem softmax2_of_real (lg : Fin 2 → EReal) (h0 : IsReal (lg 0)) (h1 : IsReal (lg 1)) :
    softmax2 lg 0 = Ideal.logistic (lg 0 - lg 1) ∧ softmax2 lg 1 = lit1 - Ideal.logistic (lg 0 - lg 1) := by
  obtain ⟨a, ha⟩ := h0
  obtain ⟨b, hb⟩ := h1
  have hmax : max (a : EReal) (b : EReal) = ((max a b : ℝ) : EReal) :=
    (EReal.coe_strictMono.monotone.map_max).symm
  have hden : (∑ o' : Fin 2, Ideal.exp (lg o' - max (lg 0) (lg 1)))
      = ((Real.exp (a - max a b) + Real.exp (b - max a b) : ℝ) : EReal) := by
    rw [Fin.sum_univ_two, ha, hb, hmax, ← EReal.coe_sub, ← EReal.coe_sub, Ideal.exp_coe, Ideal.exp_coe,
      ← EReal.coe_add]
  have hne : Real.exp (a - max a b) + Real.exp (b - max a b) ≠ 0 := by positivity
  constructor
  · show Ideal.div (Ideal.exp (lg 0 - max (lg 0) (lg 1))) (∑ o' : Fin 2, Ideal.exp (lg o' - max (lg 0) (lg 1))) = _
    rw [hden, Ideal.div_coe hne, ha, hb, hmax, ← EReal.coe_sub, ← EReal.coe_sub, Ideal.exp_coe, ← EReal.coe_mul,
      Ideal.logistic_coe, real_softmax_left]
  · show Ideal.div (Ideal.exp (lg 1 - max (lg 0) (lg 1))) (∑ o' : Fin 2, Ideal.exp (lg o' - max (lg 0) (lg 1))) = _
    rw [hden, Ideal.div_coe hne, ha, hb, hmax, ← EReal.coe_sub, ← EReal.coe_sub, Ideal.exp_coe, ← EReal.coe_mul,
      Ideal.logistic_coe, lit1_eq, ← EReal.coe_one, ← EReal.coe_sub, real_softmax_right]

/-! ## The token -/

/-- A token's two forms agree when the boundary rows, the query row and the gate's parameters are real numbers
    (the positional row and the branches' parameters may be anything). -/
theorem tokenSplit_eq_tokenJoined (sf ef qf pf : Fin 256 → EReal) (P1 P2 : Branch) (G : Gate) (hS : G.Split) (hG : G.Real)
    (hsf : ∀ k, IsReal (sf k)) (hef : ∀ k, IsReal (ef k)) (hqf : ∀ k, IsReal (qf k)) :
    tokenSplit sf ef qf pf P1 P2 G = tokenJoined sf ef qf pf P1 P2 G := by
  have hpl : ∀ c, IsReal (pooled sf ef pf P1 P2 c) := isReal_pooled sf ef pf P1 P2 hsf hef
  have hlg : ∀ o, IsReal (logits (gateHiddenSplit (pooled sf ef pf P1 P2) qf G) G o) :=
    isReal_logits _ G hG (isReal_gateHiddenSplit _ qf G hS hG hpl hqf)
  obtain ⟨e0, e1⟩ := softmax2_of_real _ (hlg 0) (hlg 1)
  funext c
  show pooled sf ef pf P1 P2 c * Ideal.logistic _ + qf c * (lit1 - Ideal.logistic _)
    = pooled sf ef pf P1 P2 c * softmax2 (logits (gateHiddenJoined (pooled sf ef pf P1 P2) qf G) G) 0
      + qf c * softmax2 (logits (gateHiddenJoined (pooled sf ef pf P1 P2) qf G) G) 1
  rw [gateHiddenJoined_eq_gateHiddenSplit _ _ _ hS, e0, e1]

end Cert.TokenMath

end
-- ==== Proof.InputsReal.lean ====
/-
  The precondition says every float input is finite: the conjunction, over the twenty argument arrays, of "every entry
  has absolute value below +∞". An extended real whose absolute value is below +∞ is a real number.
-/
import proofs.«425884_j67662914781840_4_alg».proof.Defs
import proofs.«425884_j67662914781840_4_alg».proof.Proof.Gen.Pre_finite_inputs
import proofs.«425884_j67662914781840_4_alg».proof.Proof.TokenMath
import Idealize.ShloMosaic.Lib.ReduceAll
import Idealize.ShloMosaic.Lib.ValueIdx

noncomputable section

namespace Cert.InputsReal

open Cert.KernelIdeal Cert.TokenMath Idealize.ShloMosaic Idealize.ShloMosaic.TcCoe Idealize.ShloMosaic.ValueIdx Idealize.SL.Sem

/-- The f32 word of positive infinity denotes the top extended real. -/
theorem ofBits_inf_f32 : Ideal.ofBits .f32 0x7F800000#32 = (⊤ : EReal) := by
  simp [Ideal.ofBits, Ideal.ieee]

/-- A one-bit word made from a Boolean is one exactly when the Boolean is true. -/
theorem ofBool_eq_one {b : Bool} : BitVec.ofBool b = 1#1 ↔ b = true := by cases b <;> decide

/-- An extended real whose absolute value `max x (-x)` lies strictly below `⊤` is a real number: at `⊥` the
    negation is `⊤`, at `⊤` the number itself is, and `⊤` is not strictly below itself. -/
theorem isReal_of_abs_lt_top (x : EReal) (h : max x (-x) < ⊤) : IsReal x := by
  induction x using EReal.rec with
  | bot => simp at h
  | coe r => exact ⟨r, rfl⟩
  | top => simp at h

/-- The shape of rank zero has one index. -/
instance : Subsingleton (⟨0, ![]⟩ : Shape).Idx := ⟨fun a b => funext fun d => d.elim0⟩

/-- An array whose all-finite predicate (the conjunction, over all entries, of "the absolute value is strictly below
    the f32 infinity") is one has only real entries: the conjunction gives the comparison at each entry, the
    comparison is the strict order of the extended reals, and the bound is `⊤`. -/
theorem real_of_all_finite {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) (i : s.Idx) : IsReal (x i) := by
  have hi := Host.reduce_andi_all _ _ hr hu j e i
  have hlt : max (x i) (-(x i)) < (⊤ : EReal) := by
    have h2 : Ideal.cmp .olt (max (x i) (-(x i))) (Ideal.ofBits .f32 0x7F800000#32) = 1#1 := hi
    rw [ofBits_inf_f32] at h2
    simpa [Ideal.cmp, ofBool_eq_one] using h2
  exact isReal_of_abs_lt_top _ hlt

/-- A pointwise conjunction of two one-bit arrays that is one at an index has both arrays one there. -/
theorem andi_apply_eq_one {s : Shape} (x y : IVec s 1) (j : s.Idx) (h : andi x y j = 1#1) : x j = 1#1 ∧ y j = 1#1 :=
  IntOp.andi_eq_one.1 h

/-- Under the precondition the feature array, the query array and the four gate parameter arrays hold real numbers. -/
theorem inputs_real [Cert.Pre_finite_inputs.Facts] (m : (ℓ : Loc nD τ sig) → Buf (Elt Ideal) ℓ) (h : Cert.Pre_KernelIdeal m) (c : Dev nD) :
    (∀ i, IsReal (((m ((c : Thread nD τ).loc main_arg0)) : S16x2048x256.Idx → EReal) i))
    ∧ (∀ i, IsReal (((m ((c : Thread nD τ).loc main_arg2)) : S16x4096x256.Idx → EReal) i))
    ∧ (∀ i, IsReal (((m ((c : Thread nD τ).loc main_arg16)) : S256x512.Idx → EReal) i))
    ∧ (∀ i, IsReal (((m ((c : Thread nD τ).loc main_arg17)) : S256.Idx → EReal) i))
    ∧ (∀ i, IsReal (((m ((c : Thread nD τ).loc main_arg18)) : S2x256.Idx → EReal) i))
    ∧ (∀ i, IsReal (((m ((c : Thread nD τ).loc main_arg19)) : S2.Idx → EReal) i)) := by
  -- the predicate at its one index: a left-nested conjunction of the twenty per-array conjunctions
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- peel the conjuncts from the last array to the first, keeping arrays 19, 18, 17, 16, 2 and 0
  obtain ⟨h0, e19⟩ := andi_apply_eq_one _ _ _ h0
  obtain ⟨h0, e18⟩ := andi_apply_eq_one _ _ _ h0
  obtain ⟨h0, e17⟩ := andi_apply_eq_one _ _ _ h0
  obtain ⟨h0, e16⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, -⟩ := andi_apply_eq_one _ _ _ h0
  obtain ⟨h0, e2⟩ := andi_apply_eq_one _ _ _ h0
  obtain ⟨e0, -⟩ := andi_apply_eq_one _ _ _ h0
  exact ⟨real_of_all_finite _ _ _ _ _ e0, real_of_all_finite _ _ _ _ _ e2, real_of_all_finite _ _ _ _ _ e16,
    real_of_all_finite _ _ _ _ _ e17, real_of_all_finite _ _ _ _ _ e18, real_of_all_finite _ _ _ _ _ e19⟩

end Cert.InputsReal

end
-- ==== Proof.ContrastBlock.lean ====
/-
  The contrast stages of the block computation, read at one entry.

  Row p of a [2048, 256] block is a token. Entry (p, q) of the first contrast stage is entry q of the contrast of the
  token's start-boundary row with its positional row; entry (p, q) of the pooled stage is one half of the sum of the
  first contrast's entry and the second contrast's entry, the second contrast computed through the product row it is
  handed. The matrix products are sums over the contracted index, the row reductions sums over the row, the
  broadcasts of a per-row scalar or a per-column parameter read the one entry they repeat.
-/
import proofs.«425884_j67662914781840_4_alg».proof.Proof.Gen.KernelIdeal.Skeleton
import proofs.«425884_j67662914781840_4_alg».proof.Proof.TokenMath
import Idealize.ShloMosaic.Lib.Pipeline.Value
import Idealize.ShloMosaic.Lib.ValueLayout
import Idealize.ShloMosaic.PureOps.Ideal.Laws

noncomputable section

namespace Cert.KernelIdeal.Token

open Cert.KernelIdeal Cert.KernelIdeal.Gen Cert.TokenMath Idealize.ShloMosaic Idealize.ShloMosaic.ValueIdx

/-! ## The layout operations of a per-column parameter and of a per-row scalar, read at an entry -/

section Layout
variable {α : Type}

/-- A parameter row of b entries, cast to [1, b] and repeated over a rows, reads at (p, c) its entry c. -/
theorem rowParam_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- A column of a entries cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated over b columns reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products and the row sum, read at an entry -/

theorem lhs_dot256_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs_dot256_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs_dot256_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs_dot256_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The [2048, 256] by [256, 64] product into the zero block, at (p, d): the sum over the 256 contracted entries. -/
theorem dot256_apply (lhs : FVec Ideal S2048x256 .bf16) (rhs : FVec Ideal S256x64 .bf16) (p : Fin 2048) (d : Fin 64) :
    matmul dot_S2048x256_S256x64_S2048x64_1_0_0_1_n_n none lhs rhs (constant (F := Ideal) S2048x64 .f32 0x00000000#32) (ix2 p d)
      = ∑ k : Fin 256, lhs (ix2 p k) * rhs (ix2 k d) := by
  refine (Ideal.matmul_constant_zero_apply dot_S2048x256_S256x64_S2048x64_1_0_0_1_n_n none lhs rhs (ix2 p d)).trans ?_
  rw [← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p d) ((contrEquiv1 dot_S2048x256_S256x64_S2048x64_1_0_0_1_n_n 256 rfl rfl).symm k) = ix2 p k := funext fun a => Fin.ext (by
    match a with
    | ⟨0, _⟩ => exact lhs_dot256_0 _ _
    | ⟨1, _⟩ => exact (lhs_dot256_1 _ _).trans hk)
  have er : dot_S2048x256_S256x64_S2048x64_1_0_0_1_n_n.rhsIdx (ix2 p d) ((contrEquiv1 dot_S2048x256_S256x64_S2048x64_1_0_0_1_n_n 256 rfl rfl).symm k) = ix2 k d := funext fun a => Fin.ext (by
    match a with
    | ⟨0, _⟩ => exact (rhs_dot256_0 _ _).trans hk
    | ⟨1, _⟩ => exact rhs_dot256_1 _ _)
  rw [el, er]

theorem lhs_dot64_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhs_dot64_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_dot64_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_dot64_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- The [2048, 64] by [64, 256] product into the zero block, at (p, c): the sum over the 64 contracted entries. -/
theorem dot64_apply (lhs : FVec Ideal S2048x64 .bf16) (rhs : FVec Ideal S64x256 .bf16) (p : Fin 2048) (c : Fin 256) :
    matmul dot_S2048x64_S64x256_S2048x256_1_0_0_1_n_n none lhs rhs (constant (F := Ideal) S2048x256 .f32 0x00000000#32) (ix2 p c)
      = ∑ d : Fin 64, lhs (ix2 p d) * rhs (ix2 d c) := by
  refine (Ideal.matmul_constant_zero_apply dot_S2048x64_S64x256_S2048x256_1_0_0_1_n_n none lhs rhs (ix2 p c)).trans ?_
  rw [← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 p c) ((contrEquiv1 dot_S2048x64_S64x256_S2048x256_1_0_0_1_n_n 64 rfl rfl).symm k) = ix2 p k := funext fun a => Fin.ext (by
    match a with
    | ⟨0, _⟩ => exact lhs_dot64_0 _ _
    | ⟨1, _⟩ => exact (lhs_dot64_1 _ _).trans hk)
  have er : dot_S2048x64_S64x256_S2048x256_1_0_0_1_n_n.rhsIdx (ix2 p c) ((contrEquiv1 dot_S2048x64_S64x256_S2048x256_1_0_0_1_n_n 64 rfl rfl).symm k) = ix2 k c := funext fun a => Fin.ext (by
    match a with
    | ⟨0, _⟩ => exact (rhs_dot64_0 _ _).trans hk
    | ⟨1, _⟩ => exact rhs_dot64_1 _ _)
  rw [el, er]

/-- The sum along the rows of a [2048, 256] block, at p: the sum of row p's 256 entries. -/
theorem rowSum_apply (src : FVec Ideal S2048x256 .f32) (p : Fin 2048) :
    multiReduction (F := Ideal) .add [1] S2048 src 0x00000000#32 reduces_S2048x256_S2048 (.inl rfl) rfl (ix1 p)
      = ∑ k : Fin 256, src (ix2 p k) := by
  refine (Ideal.multiReduction_add_single src 0x00000000#32 reduces_S2048x256_S2048 (.inl rfl) rfl (ix1 p)).trans ?_
  refine Finset.sum_congr rfl fun k _ => congrArg src (funext fun a => Fin.ext ?_)
  match a with
  | ⟨0, _⟩ => rfl
  | ⟨1, _⟩ => rfl

/-! ## The layers of one contrast branch on a block, each read at an entry

Each layer is written as the body writes it, as a function of the blocks it reads; row p of a layer's block is the
layer of the token arithmetic on row p of the operand block. -/

/-- The hidden block: the product row times the first linear map, plus its bias row, positive part. -/
def hiddenBlock (pr : FVec Ideal S2048x256 .bf16) (w1t : FVec Ideal S256x64 .bf16) (b1 : FVec Ideal S64 .f32) :
    FVec Ideal S2048x64 .f32 :=
  maximumf
    (addf (matmul dot_S2048x256_S256x64_S2048x64_1_0_0_1_n_n none pr w1t (constant (F := Ideal) S2048x64 .f32 0x00000000#32))
      (broadcastTo S2048x64 (shapeCast S1x64 b1 shapeCasts_S64_S1x64) broadcasts_S1x64_S2048x64))
    (broadcast S2048x64 (Scalar.ofBits (F := Ideal) .f32 0x00000000#32))

theorem hiddenBlock_apply (pr : FVec Ideal S2048x256 .bf16) (w1t : FVec Ideal S256x64 .bf16) (b1 : FVec Ideal S64 .f32)
    (w2t : FVec Ideal S64x256 .bf16) (b2 g be : FVec Ideal S256 .f32) (p : Fin 2048) (d : Fin 64) :
    hiddenBlock pr w1t b1 (ix2 p d) = hidden (fun k => pr (ix2 p k)) (branchOfT w1t b1 w2t b2 g be) d :=
  congrArg (fun x => max x lit0)
    (congrArg₂ (· + ·) (dot256_apply pr w1t p d) (rowParam_apply b1 shapeCasts_S64_S1x64 broadcasts_S1x64_S2048x64 p d))

/-- The second linear map on a hidden block, plus its bias row. -/
def linBlock (h : FVec Ideal S2048x64 .f32) (w2t : FVec Ideal S64x256 .bf16) (b2 : FVec Ideal S256 .f32) :
    FVec Ideal S2048x256 .f32 :=
  addf
    (matmul dot_S2048x64_S64x256_S2048x256_1_0_0_1_n_n none (truncf .bf16 h bitsLt_bf16_f32) w2t
      (constant (F := Ideal) S2048x256 .f32 0x00000000#32))
    (broadcastTo S2048x256 (shapeCast S1x256 b2 shapeCasts_S256_S1x256) broadcasts_S1x256_S2048x256)

theorem linBlock_apply (h : FVec Ideal S2048x64 .f32) (w2t : FVec Ideal S64x256 .bf16) (b2 : FVec Ideal S256 .f32)
    (w1t : FVec Ideal S256x64 .bf16) (b1 : FVec Ideal S64 .f32) (g be : FVec Ideal S256 .f32) (p : Fin 2048) (c : Fin 256) :
    linBlock h w2t b2 (ix2 p c) = lin (fun d => h (ix2 p d)) (branchOfT w1t b1 w2t b2 g be) c :=
  congrArg₂ (· + ·) (dot64_apply (truncf .bf16 h bitsLt_bf16_f32) w2t p c)
    (rowParam_apply b2 shapeCasts_S256_S1x256 broadcasts_S1x256_S2048x256 p c)

/-- The column of row means of a block. -/
def meanCol (u : FVec Ideal S2048x256 .f32) : FVec Ideal S2048x1 .f32 :=
  divf
    (shapeCast S2048x1 (multiReduction (F := Ideal) .add [1] S2048 u 0x00000000#32 reduces_S2048x256_S2048 (.inl rfl) rfl)
      shapeCasts_S2048_S2048x1)
    (broadcast S2048x1 (Scalar.ofBits (F := Ideal) .f32 0x43800000#32))

theorem meanCol_apply (u : FVec Ideal S2048x256 .f32) (p : Fin 2048) (z : Fin 1) :
    meanCol u (ix2 p z) = mean (fun c => u (ix2 p c)) :=
  congrArg (fun x => Ideal.div x lit256)
    ((shapeCast_a_a1_apply _ shapeCasts_S2048_S2048x1 p z).trans (rowSum_apply u p))

/-- A block minus its column of row means. -/
def centeredBlock (u : FVec Ideal S2048x256 .f32) : FVec Ideal S2048x256 .f32 :=
  subf u (broadcastTo S2048x256 (meanCol u) broadcasts_S2048x1_S2048x256)

theorem centeredBlock_apply (u : FVec Ideal S2048x256 .f32) (p : Fin 2048) (c : Fin 256) :
    centeredBlock u (ix2 p c) = centered (fun c => u (ix2 p c)) c :=
  congrArg (fun x => u (ix2 p c) - x)
    ((broadcastTo_a1_ab_apply _ broadcasts_S2048x1_S2048x256 p c).trans (meanCol_apply u p 0))

/-- The column of row variances: the row means of the squared centered block. -/
theorem varCol_apply (u : FVec Ideal S2048x256 .f32) (p : Fin 2048) (z : Fin 1) :
    meanCol (mulf (centeredBlock u) (centeredBlock u)) (ix2 p z) = variance (fun c => u (ix2 p c)) :=
  (meanCol_apply _ p z).trans
    (congrArg (fun x => Ideal.div x lit256)
      (Finset.sum_congr rfl fun c _ => congrArg₂ (· * ·) (centeredBlock_apply u p c) (centeredBlock_apply u p c)))

/-- The normalised block, scaled and shifted by the parameter rows. -/
def normBlock (u : FVec Ideal S2048x256 .f32) (g be : FVec Ideal S256 .f32) : FVec Ideal S2048x256 .f32 :=
  addf
    (mulf
      (mulf (centeredBlock u)
        (broadcastTo S2048x256
          (rsqrt (addf (meanCol (mulf (centeredBlock u) (centeredBlock u)))
            (broadcast S2048x1 (Scalar.ofBits (F := Ideal) .f32 0x358637BD#32))))
          broadcasts_S2048x1_S2048x256))
      (broadcastTo S2048x256 (shapeCast S1x256 g shapeCasts_S256_S1x256) broadcasts_S1x256_S2048x256))
    (broadcastTo S2048x256 (shapeCast S1x256 be shapeCasts_S256_S1x256) broadcasts_S1x256_S2048x256)

theorem normBlock_apply (u : FVec Ideal S2048x256 .f32) (g be : FVec Ideal S256 .f32) (w1t : FVec Ideal S256x64 .bf16)
    (b1 : FVec Ideal S64 .f32) (w2t : FVec Ideal S64x256 .bf16) (b2 : FVec Ideal S256 .f32) (p : Fin 2048) (c : Fin 256) :
    normBlock u g be (ix2 p c) = norm (fun c => u (ix2 p c)) (branchOfT w1t b1 w2t b2 g be) c :=
  congrArg₂ (· + ·)
    (congrArg₂ (· * ·)
      (congrArg₂ (· * ·) (centeredBlock_apply u p c)
        ((broadcastTo_a1_ab_apply _ broadcasts_S2048x1_S2048x256 p c).trans
          (congrArg (fun x => Ideal.rsqrt (x + litEps)) (varCol_apply u p 0))))
      (rowParam_apply g shapeCasts_S256_S1x256 broadcasts_S1x256_S2048x256 p c))
    (rowParam_apply be shapeCasts_S256_S1x256 broadcasts_S1x256_S2048x256 p c)

/-- The contrast block of a boundary block v, from the product block pr it is computed through. -/
def contrastBlock (pr : FVec Ideal S2048x256 .bf16) (v : FVec Ideal S2048x256 .f32) (w1t : FVec Ideal S256x64 .bf16)
    (b1 : FVec Ideal S64 .f32) (w2t : FVec Ideal S64x256 .bf16) (b2 g be : FVec Ideal S256 .f32) : FVec Ideal S2048x256 .f32 :=
  mulf (logistic (normBlock (linBlock (hiddenBlock pr w1t b1) w2t b2) g be)) v

theorem contrastBlock_apply (pr : FVec Ideal S2048x256 .bf16) (v : FVec Ideal S2048x256 .f32) (w1t : FVec Ideal S256x64 .bf16)
    (b1 : FVec Ideal S64 .f32) (w2t : FVec Ideal S64x256 .bf16) (b2 g be : FVec Ideal S256 .f32) (p : Fin 2048) (q : Fin 256) :
    contrastBlock pr v w1t b1 w2t b2 g be (ix2 p q)
      = contrastOf (fun k => pr (ix2 p k)) (fun k => v (ix2 p k)) (branchOfT w1t b1 w2t b2 g be) q := by
  refine congrArg (fun x => Ideal.logistic x * v (ix2 p q)) ?_
  refine (normBlock_apply _ g be w1t b1 w2t b2 p q).trans ?_
  refine congrArg (fun U => norm U (branchOfT w1t b1 w2t b2 g be) q) (funext fun c => ?_)
  refine (linBlock_apply _ w2t b2 w1t b1 g be p c).trans ?_
  refine congrArg (fun H => lin H (branchOfT w1t b1 w2t b2 g be) c) (funext fun d => ?_)
  exact hiddenBlock_apply pr w1t b1 w2t b2 g be p d

/-! ## The stages -/

/-- The first contrast stage is the contrast block of the start-boundary block through its product with the
    positional block. -/
theorem pay13_eq (v1 v7 : FVec Ideal S2048x256 .f32) (v9 : FVec Ideal S256x64 .bf16) (v10 : FVec Ideal S64 .f32)
    (v12 : FVec Ideal S64x256 .bf16) (v13 v14 v15 : FVec Ideal S256 .f32) :
    k0_pay13 (F := Ideal) v1 v7 v9 v10 v12 v13 v14 v15
      = contrastBlock (truncf .bf16 (mulf v1 v7) bitsLt_bf16_f32) v1 v9 v10 v12 v13 v14 v15 := rfl

/-- The pooled stage is one half of the first contrast stage plus the contrast block of the end-boundary block. -/
theorem pay15_eq (v3 : FVec Ideal S2048x256 .f32) (v17 : FVec Ideal S256x64 .bf16) (v18 : FVec Ideal S64 .f32)
    (v20 : FVec Ideal S64x256 .bf16) (v21 v22 v23 : FVec Ideal S256 .f32) (v70 : FVec Ideal S2048x256 .f32)
    (v72 : FVec Ideal S2048x256 .bf16) :
    k0_pay15 (F := Ideal) v3 v17 v18 v20 v21 v22 v23 v70 v72 (constant S2048x64 .f32 0x00000000#32)
      = mulf (addf v70 (contrastBlock v72 v3 v17 v18 v20 v21 v22 v23))
          (broadcast S2048x256 (Scalar.ofBits (F := Ideal) .f32 0x3F000000#32)) := rfl

/-- Entry (p, q) of the first contrast stage. -/
theorem pay13_apply (v1 v7 : FVec Ideal S2048x256 .f32) (v9 : FVec Ideal S256x64 .bf16) (v10 : Vec Ideal S64 .f32)
    (v12 : FVec Ideal S64x256 .bf16) (v13 v14 v15 : Vec Ideal S256 .f32) (p : Fin 2048) (q : Fin 256) :
    k0_pay13 (F := Ideal) v1 v7 v9 v10 v12 v13 v14 v15 (ix2 p q)
      = contrast (fun k => v1 (ix2 p k)) (fun k => v7 (ix2 p k)) (branchOfT v9 v10 v12 v13 v14 v15) q := by
  exact (congrFun (pay13_eq v1 v7 v9 v10 v12 v13 v14 v15) (ix2 p q)).trans
    (contrastBlock_apply (truncf .bf16 (mulf v1 v7) bitsLt_bf16_f32) v1 v9 v10 v12 v13 v14 v15 p q)

/-- Entry (p, k) of the second product row. -/
theorem pay14_apply (v3 v7 : FVec Ideal S2048x256 .f32) (p : Fin 2048) (k : Fin 256) :
    k0_pay14 (F := Ideal) v3 v7 (ix2 p k) = v3 (ix2 p k) * v7 (ix2 p k) := by
  rfl

/-- Entry (p, q) of the pooled stage, from the first contrast stage v70 and the second product row v72. -/
theorem pay15_apply (v3 : FVec Ideal S2048x256 .f32) (v17 : FVec Ideal S256x64 .bf16) (v18 : Vec Ideal S64 .f32)
    (v20 : FVec Ideal S64x256 .bf16) (v21 v22 v23 : Vec Ideal S256 .f32) (v70 : FVec Ideal S2048x256 .f32)
    (v72 : FVec Ideal S2048x256 .bf16) (p : Fin 2048) (q : Fin 256) :
    k0_pay15 (F := Ideal) v3 v17 v18 v20 v21 v22 v23 v70 v72 (constant S2048x64 .f32 0x00000000#32) (ix2 p q)
      = (v70 (ix2 p q) + contrastOf (fun k => v72 (ix2 p k)) (fun k => v3 (ix2 p k)) (branchOfT v17 v18 v20 v21 v22 v23) q)
          * litHalf := by
  exact (congrFun (pay15_eq v3 v17 v18 v20 v21 v22 v23 v70 v72) (ix2 p q)).trans
    (congrArg (fun x => (v70 (ix2 p q) + x) * litHalf) (contrastBlock_apply v72 v3 v17 v18 v20 v21 v22 v23 p q))

end Cert.KernelIdeal.Token

end
-- ==== Proof.KernelToken.lean ====
/-
  The block computation read at one entry: entry (p, q) of the block the body writes is entry q of the token built
  from row p of the four input blocks, in the form that adds the two halves' products and writes the gate as the
  logistic function of the logits' difference and its complement.
-/
import proofs.«425884_j67662914781840_4_alg».proof.Proof.Gen.KernelIdeal.Frame
import proofs.«425884_j67662914781840_4_alg».proof.Proof.ContrastBlock

noncomputable section

namespace Cert.KernelIdeal.Token

open Cert.KernelIdeal Cert.KernelIdeal.Gen Cert.TokenMath Idealize.ShloMosaic Idealize.ShloMosaic.ValueIdx

/-! ## The two matrix products read at an entry

Both products contract the left operand's column index against the right operand's row index: entry (p, d) is the sum
over k of left (p, k) times right (k, d). -/

theorem lhsGate_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhsGate_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhsGate_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhsGate_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, d) of a [2048, 256] by [256, 256] product into the zero block. -/
theorem matmulGate_apply {φ₁ φ₂ : FTy} (A : FVec Ideal S2048x256 φ₁) (W : FVec Ideal S256x256 φ₂) (p : Fin 2048) (d : Fin 256) :
    matmul dot_S2048x256_S256x256_S2048x256_1_0_0_1_n_n none A W (constant (F := Ideal) S2048x256 .f32 0x00000000#32) (ix2 p d)
      = ∑ k : Fin 256, A (ix2 p k) * W (ix2 k d) := by
  refine (Ideal.matmul_constant_zero_apply dot_S2048x256_S256x256_S2048x256_1_0_0_1_n_n none A W (ix2 p d)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p d) ((contrEquiv1 dot_S2048x256_S256x256_S2048x256_1_0_0_1_n_n 256 rfl rfl).symm k) = ix2 p k := funext fun a => Fin.ext (by
    match a with
    | ⟨0, _⟩ => exact lhsGate_0 _ _
    | ⟨1, _⟩ => exact (lhsGate_1 _ _).trans hk)
  have er : dot_S2048x256_S256x256_S2048x256_1_0_0_1_n_n.rhsIdx (ix2 p d) ((contrEquiv1 dot_S2048x256_S256x256_S2048x256_1_0_0_1_n_n 256 rfl rfl).symm k) = ix2 k d := funext fun a => Fin.ext (by
    match a with
    | ⟨0, _⟩ => exact (rhsGate_0 _ _).trans hk
    | ⟨1, _⟩ => exact rhsGate_1 _ _)
  rw [el, er]

theorem lhsLogit_0 (i : S2048x2.Idx) (q : dot_S2048x256_S256x2_S2048x2_1_0_0_1_n_n.contr.Idx) :
    (dot_S2048x256_S256x2_S2048x2_1_0_0_1_n_n.lhsIdx i q 0).val = (i 0).val := by
  unfold DotDims.lhsIdx
  rw [dif_neg (show ¬(0 : Fin S2048x256.rank) ∈ dot_S2048x256_S256x2_S2048x2_1_0_0_1_n_n.lhsBatch by decide), dif_pos (show (0 : Fin S2048x256.rank) ∈ dot_S2048x256_S256x2_S2048x2_1_0_0_1_n_n.lhsNonContracting by decide)]
  rfl
theorem lhsLogit_1 (i : S2048x2.Idx) (q : dot_S2048x256_S256x2_S2048x2_1_0_0_1_n_n.contr.Idx) :
    (dot_S2048x256_S256x2_S2048x2_1_0_0_1_n_n.lhsIdx i q 1).val = (q ⟨0, by decide⟩).val :=
  dot_S2048x256_S256x2_S2048x2_1_0_0_1_n_n.lhsIdx_val_of_single rfl i q
theorem rhsLogit_0 (i : S2048x2.Idx) (q : dot_S2048x256_S256x2_S2048x2_1_0_0_1_n_n.contr.Idx) :
    (dot_S2048x256_S256x2_S2048x2_1_0_0_1_n_n.rhsIdx i q 0).val = (q ⟨0, by decide⟩).val :=
  dot_S2048x256_S256x2_S2048x2_1_0_0_1_n_n.rhsIdx_val_of_single rfl i q
theorem rhsLogit_1 (i : S2048x2.Idx) (q : dot_S2048x256_S256x2_S2048x2_1_0_0_1_n_n.contr.Idx) :
    (dot_S2048x256_S256x2_S2048x2_1_0_0_1_n_n.rhsIdx i q 1).val = (i 1).val := by
  unfold DotDims.rhsIdx
  rw [dif_neg (show ¬(1 : Fin S256x2.rank) ∈ dot_S2048x256_S256x2_S2048x2_1_0_0_1_n_n.rhsBatch by decide), dif_pos (show (1 : Fin S256x2.rank) ∈ dot_S2048x256_S256x2_S2048x2_1_0_0_1_n_n.rhsNonContracting by decide)]
  rfl

/-- Entry (p, o) of a [2048, 256] by [256, 2] product into the zero block. -/
theorem matmulLogit_apply {φ₁ φ₂ : FTy} (A : FVec Ideal S2048x256 φ₁) (W : FVec Ideal S256x2 φ₂) (p : Fin 2048) (o : Fin 2) :
    matmul dot_S2048x256_S256x2_S2048x2_1_0_0_1_n_n none A W (constant (F := Ideal) S2048x2 .f32 0x00000000#32) (ix2 p o)
      = ∑ k : Fin 256, A (ix2 p k) * W (ix2 k o) := by
  refine (Ideal.matmul_constant_zero_apply dot_S2048x256_S256x2_S2048x2_1_0_0_1_n_n none A W (ix2 p o)).trans ?_
  rw [← Equiv.sum_comp (contrEquiv1 dot_S2048x256_S256x2_S2048x2_1_0_0_1_n_n 256 rfl rfl).symm]
  refine Finset.sum_congr rfl fun k _ => ?_
  have hk := contrEquiv1_symm_val dot_S2048x256_S256x2_S2048x2_1_0_0_1_n_n 256 rfl rfl k
  have el : dot_S2048x256_S256x2_S2048x2_1_0_0_1_n_n.lhsIdx (ix2 p o) ((contrEquiv1 dot_S2048x256_S256x2_S2048x2_1_0_0_1_n_n 256 rfl rfl).symm k) = ix2 p k := funext fun a => Fin.ext (by
    match a with
    | ⟨0, _⟩ => exact lhsLogit_0 _ _
    | ⟨1, _⟩ => exact (lhsLogit_1 _ _).trans hk)
  have er : dot_S2048x256_S256x2_S2048x2_1_0_0_1_n_n.rhsIdx (ix2 p o) ((contrEquiv1 dot_S2048x256_S256x2_S2048x2_1_0_0_1_n_n 256 rfl rfl).symm k) = ix2 k o := funext fun a => Fin.ext (by
    match a with
    | ⟨0, _⟩ => exact (rhsLogit_0 _ _).trans hk
    | ⟨1, _⟩ => exact rhsLogit_1 _ _)
  rw [el, er]

/-! ## Layout operations of the gate read at an entry -/

/-- A row of 256 parameters laid along every row of a [2048, 256] block reads its entry d at (p, d). -/
theorem gateBiasRow_apply (v : Vec Ideal S256 .f32) (p : Fin 2048) (d : Fin 256) :
    broadcastTo S2048x256 (shapeCast S1x256 v shapeCasts_S256_S1x256) broadcasts_S1x256_S2048x256 (ix2 p d) = v (ix1 d) :=
  (broadcastTo_1b_ab_apply _ broadcasts_S1x256_S2048x256 p d).trans (shapeCast_a_1a_apply v shapeCasts_S256_S1x256 0 d)

/-- A row of 2 parameters laid along every row of a [2048, 2] block reads its entry o at (p, o). -/
theorem logitBiasRow_apply (v : Vec Ideal S2 .f32) (p : Fin 2048) (o : Fin 2) :
    broadcastTo S2048x2 (shapeCast S1x2 v shapeCasts_S2_S1x2) broadcasts_S1x2_S2048x2 (ix2 p o) = v (ix1 o) :=
  (broadcastTo_1b_ab_apply _ broadcasts_S1x2_S2048x2 p o).trans (shapeCast_a_1a_apply v shapeCasts_S2_S1x2 0 o)

/-- A column of per-row scalars laid along every column of a [2048, 256] block reads row p's scalar at (p, q). -/
theorem mixWeightCol_apply {α : Type} (v : S2048x1.Idx → α) (p : Fin 2048) (q : Fin 256) :
    broadcastTo S2048x256 v broadcasts_S2048x1_S2048x256 (ix2 p q) = v (ix2 p (0 : Fin 1)) := by
  refine broadcastTo_apply v broadcasts_S2048x1_S2048x256 (ix2 p q) (ix2 p (0 : Fin 1)) fun ax => ?_
  match ax with
  | ⟨0, _⟩ => rfl
  | ⟨1, _⟩ => rfl

/-- The first column of a [2048, 2] block, as a [2048, 1] block. -/
theorem logitCol0_apply {α : Type} (v : S2048x2.Idx → α) (p : Fin 2048) :
    extractStridedSlice S2048x1 ![0, 0] v slices_S2048x2_o0_0_S2048x1 (ix2 p (0 : Fin 1)) = v (ix2 p (0 : Fin 2)) :=
  slice2_axis1_apply 0 v slices_S2048x2_o0_0_S2048x1 p 0 0 rfl

/-- The second column of a [2048, 2] block, as a [2048, 1] block. -/
theorem logitCol1_apply {α : Type} (v : S2048x2.Idx → α) (p : Fin 2048) :
    extractStridedSlice S2048x1 ![0, 1] v slices_S2048x2_o0_1_S2048x1 (ix2 p (0 : Fin 1)) = v (ix2 p (1 : Fin 2)) :=
  slice2_axis1_apply 1 v slices_S2048x2_o0_1_S2048x1 p 0 1 rfl

/-! ## The re-laid input blocks -/

/-- Row p of a [1, 2048, 256] block seen as a [2048, 256] block. -/
theorem startBlock_apply (v : Vec Ideal S1x2048x256 .f32) (p : Fin 2048) (k : Fin 256) :
    k0_pay2 (F := Ideal) v (ix2 p k) = v (ix3 (0 : Fin 1) p k) :=
  shapeCast_1ab_ab_apply v shapeCasts_S1x2048x256_S2048x256 p k
theorem endBlock_apply (v : Vec Ideal S1x2048x256 .f32) (p : Fin 2048) (k : Fin 256) :
    k0_pay3 (F := Ideal) v (ix2 p k) = v (ix3 (0 : Fin 1) p k) :=
  shapeCast_1ab_ab_apply v shapeCasts_S1x2048x256_S2048x256 p k
theorem queryBlock_apply (v : Vec Ideal S1x2048x256 .f32) (p : Fin 2048) (k : Fin 256) :
    k0_pay4 (F := Ideal) v (ix2 p k) = v (ix3 (0 : Fin 1) p k) :=
  shapeCast_1ab_ab_apply v shapeCasts_S1x2048x256_S2048x256 p k
theorem positionalBlock_apply (v : Vec Ideal S1x2048x256 .f32) (p : Fin 2048) (k : Fin 256) :
    k0_pay5 (F := Ideal) v (ix2 p k) = v (ix3 (0 : Fin 1) p k) :=
  shapeCast_1ab_ab_apply v shapeCasts_S1x2048x256_S2048x256 p k

/-- A parameter block cast to its own shape is itself. -/
theorem firstW1_eq (v : Vec Ideal S256x64 .bf16) : k0_pay6 (F := Ideal) v = v := shapeCast_self v shapeCasts_S256x64_S256x64
theorem firstW2_eq (v : Vec Ideal S64x256 .bf16) : k0_pay7 (F := Ideal) v = v := shapeCast_self v shapeCasts_S64x256_S64x256
theorem secondW1_eq (v : Vec Ideal S256x64 .bf16) : k0_pay8 (F := Ideal) v = v := shapeCast_self v shapeCasts_S256x64_S256x64
theorem secondW2_eq (v : Vec Ideal S64x256 .bf16) : k0_pay9 (F := Ideal) v = v := shapeCast_self v shapeCasts_S64x256_S64x256
theorem gateLeft_eq (v : Vec Ideal S256x256 .bf16) : k0_pay10 (F := Ideal) v = v := shapeCast_self v shapeCasts_S256x256_S256x256
theorem gateRight_eq (v : Vec Ideal S256x256 .bf16) : k0_pay11 (F := Ideal) v = v := shapeCast_self v shapeCasts_S256x256_S256x256
theorem gateSecond_eq (v : Vec Ideal S256x2 .bf16) : k0_pay12 (F := Ideal) v = v := shapeCast_self v shapeCasts_S256x2_S256x2

/-! ## The gate's stages read at an entry -/

/-- Entry (p, d) of the gate's first linear map: the pooled stage's row p against the first weight block, the query
    row p against the second, plus the bias. -/
theorem gatePreBlock_apply (v3 v5 : FVec Ideal S2048x256 .f32) (v17 : FVec Ideal S256x64 .bf16) (v18 : Vec Ideal S64 .f32)
    (v20 : FVec Ideal S64x256 .bf16) (v21 v22 v23 : Vec Ideal S256 .f32) (v25 v27 : FVec Ideal S256x256 .bf16)
    (v28 : Vec Ideal S256 .f32) (v70 : FVec Ideal S2048x256 .f32) (v72 : FVec Ideal S2048x256 .bf16)
    (cst : FVec Ideal S2048x64 .f32) (p : Fin 2048) (d : Fin 256) :
    k0_pay16 (F := Ideal) v3 v5 v17 v18 v20 v21 v22 v23 v25 v27 v28 v70 v72 cst (ix2 p d)
      = ((∑ k : Fin 256, k0_pay15 (F := Ideal) v3 v17 v18 v20 v21 v22 v23 v70 v72 cst (ix2 p k) * v25 (ix2 k d))
          + (∑ k : Fin 256, v5 (ix2 p k) * v27 (ix2 k d))) + v28 (ix1 d) := by
  unfold k0_pay16
  refine (addf_apply _ _ _).trans ?_
  refine congrArg₂ (· + ·) ?_ (gateBiasRow_apply v28 p d)
  refine (addf_apply _ _ _).trans ?_
  exact congrArg₂ (· + ·) (matmulGate_apply _ _ p d) (matmulGate_apply _ _ p d)

/-- Two blocks mixed, row by row, by the logistic function of the difference of the two columns of a [2048, 2] block
    and its complement to one. -/
theorem mixBlock_apply (v5 v112 : FVec Ideal S2048x256 .f32) (L : FVec Ideal S2048x2 .f32) (p : Fin 2048) (q : Fin 256) :
    addf
        (mulf v112 (broadcastTo S2048x256
          (logistic (subf (extractStridedSlice S2048x1 ![0, 0] L slices_S2048x2_o0_0_S2048x1)
            (extractStridedSlice S2048x1 ![0, 1] L slices_S2048x2_o0_1_S2048x1))) broadcasts_S2048x1_S2048x256))
        (mulf v5 (broadcastTo S2048x256
          (subf (broadcast S2048x1 (Scalar.ofBits (F := Ideal) .f32 0x3F800000#32))
            (logistic (subf (extractStridedSlice S2048x1 ![0, 0] L slices_S2048x2_o0_0_S2048x1)
              (extractStridedSlice S2048x1 ![0, 1] L slices_S2048x2_o0_1_S2048x1)))) broadcasts_S2048x1_S2048x256))
        (ix2 p q)
      = v112 (ix2 p q) * Ideal.logistic (L (ix2 p (0 : Fin 2)) - L (ix2 p (1 : Fin 2)))
          + v5 (ix2 p q) * (lit1 - Ideal.logistic (L (ix2 p (0 : Fin 2)) - L (ix2 p (1 : Fin 2)))) := by
  have hl : logistic (subf (extractStridedSlice S2048x1 ![0, 0] L slices_S2048x2_o0_0_S2048x1)
      (extractStridedSlice S2048x1 ![0, 1] L slices_S2048x2_o0_1_S2048x1)) (ix2 p (0 : Fin 1))
      = Ideal.logistic (L (ix2 p (0 : Fin 2)) - L (ix2 p (1 : Fin 2))) :=
    congrArg Ideal.logistic (congrArg₂ (· - ·) (logitCol0_apply L p) (logitCol1_apply L p))
  refine (addf_apply _ _ _).trans (congrArg₂ (· + ·) ?_ ?_)
  · refine (mulf_apply _ _ _).trans (congrArg (v112 (ix2 p q) * ·) ?_)
    exact (mixWeightCol_apply _ p q).trans hl
  · refine (mulf_apply _ _ _).trans (congrArg (v5 (ix2 p q) * ·) ?_)
    refine (mixWeightCol_apply _ p q).trans ?_
    exact congrArg (lit1 - ·) hl

/-- Entry (p, o) of the two logits: the positive part of the first linear map against the second weight block, plus
    the bias. -/
theorem logitBlock_apply (v30 : FVec Ideal S256x2 .bf16) (v31 : Vec Ideal S2 .f32) (v120 v121 : FVec Ideal S2048x256 .f32)
    (p : Fin 2048) (o : Fin 2) :
    addf (matmul dot_S2048x256_S256x2_S2048x2_1_0_0_1_n_n none (truncf .bf16 (maximumf v120 v121) bitsLt_bf16_f32) v30
        (constant (F := Ideal) S2048x2 .f32 0x00000000#32))
      (broadcastTo S2048x2 (shapeCast S1x2 v31 shapeCasts_S2_S1x2) broadcasts_S1x2_S2048x2) (ix2 p o)
      = (∑ d : Fin 256, max (v120 (ix2 p d)) (v121 (ix2 p d)) * v30 (ix2 d o)) + v31 (ix1 o) :=
  (addf_apply _ _ _).trans (congrArg₂ (· + ·) (matmulLogit_apply _ _ p o) (logitBiasRow_apply v31 p o))

/-- Entry (p, q) of the stored block: the pooled stage and the query block mixed by the gate. -/
theorem storedBlock_apply (v5 : FVec Ideal S2048x256 .f32) (v30 : FVec Ideal S256x2 .bf16) (v31 : Vec Ideal S2 .f32)
    (v112 v120 v121 : FVec Ideal S2048x256 .f32) (p : Fin 2048) (q : Fin 256) :
    k0_pay1 (F := Ideal) v5 v30 v31 v112 v120 v121 (ix2 p q)
      = mixLogistic (fun c => v112 (ix2 p c)) (fun c => v5 (ix2 p c))
          (fun o => (∑ d : Fin 256, max (v120 (ix2 p d)) (v121 (ix2 p d)) * v30 (ix2 d o)) + v31 (ix1 o)) q := by
  unfold k0_pay1
  refine (mixBlock_apply v5 v112 _ p q).trans ?_
  rw [logitBlock_apply v30 v31 v120 v121 p 0, logitBlock_apply v30 v31 v120 v121 p 1]
  rfl

/-! ## The stored block read at an entry -/

/-- Mixing depends on the two rows and the two logits entry by entry. -/
theorem mixLogistic_congr {pl pl' qf qf' : Fin 256 → EReal} {lg lg' : Fin 2 → EReal} (h1 : ∀ c, pl c = pl' c)
    (h2 : ∀ c, qf c = qf' c) (h3 : ∀ o, lg o = lg' o) (q : Fin 256) :
    mixLogistic pl qf lg q = mixLogistic pl' qf' lg' q := by
  obtain rfl : pl = pl' := funext h1
  obtain rfl : qf = qf' := funext h2
  obtain rfl : lg = lg' := funext h3
  rfl

/-- Entry (p, c) of the pooled stage is entry c of the pooled row of token p. -/
theorem pooledOfInputs_apply (x0 x1 x3 : Vec Ideal S1x2048x256 .f32) (x4 : Vec Ideal S256x64 .bf16) (x5 : Vec Ideal S64 .f32)
    (x6 : Vec Ideal S64x256 .bf16) (x7 x8 x9 : Vec Ideal S256 .f32) (x10 : Vec Ideal S256x64 .bf16) (x11 : Vec Ideal S64 .f32)
    (x12 : Vec Ideal S64x256 .bf16) (x13 x14 x15 : Vec Ideal S256 .f32) (p : Fin 2048) (c : Fin 256) :
    k0_pay15 (F := Ideal) (k0_pay3 x1) x10 x11 x12 x13 x14 x15
        (k0_pay13 (k0_pay2 x0) (k0_pay5 x3) x4 x5 x6 x7 x8 x9) (k0_pay14 (k0_pay3 x1) (k0_pay5 x3))
        (constant S2048x64 .f32 0x00000000#32) (ix2 p c)
      = pooled (fun k => x0 (ix3 0 p k)) (fun k => x1 (ix3 0 p k)) (fun k => x3 (ix3 0 p k))
          (branchOfT x4 x5 x6 x7 x8 x9) (branchOfT x10 x11 x12 x13 x14 x15) c := by
  refine (pay15_apply _ _ _ _ _ _ _ _ _ p c).trans ?_
  rw [pay13_apply]
  simp only [pay14_apply, startBlock_apply, endBlock_apply, positionalBlock_apply]
  rfl

/-- Entry (p, q) of the block the body leaves in the output window, from the input windows' blocks. -/
theorem out_apply (x0 x1 x2 x3 : Vec Ideal S1x2048x256 .f32) (x4 : Vec Ideal S256x64 .bf16) (x5 : Vec Ideal S64 .f32)
    (x6 : Vec Ideal S64x256 .bf16) (x7 x8 x9 : Vec Ideal S256 .f32) (x10 : Vec Ideal S256x64 .bf16) (x11 : Vec Ideal S64 .f32)
    (x12 : Vec Ideal S64x256 .bf16) (x13 x14 x15 : Vec Ideal S256 .f32) (x16 x17 : Vec Ideal S256x256 .bf16)
    (x18 : Vec Ideal S256 .f32) (x19 : Vec Ideal S256x2 .bf16) (x20 : Vec Ideal S2 .f32) (p : Fin 2048) (q : Fin 256) :
    out0_21 (F := Ideal) x0 x1 x2 x3 x4 x5 x6 x7 x8 x9 x10 x11 x12 x13 x14 x15 x16 x17 x18 x19 x20 (ix2 p q)
      = tokenSplit (fun k => x0 (ix3 0 p k)) (fun k => x1 (ix3 0 p k)) (fun k => x2 (ix3 0 p k)) (fun k => x3 (ix3 0 p k))
          (branchOfT x4 x5 x6 x7 x8 x9) (branchOfT x10 x11 x12 x13 x14 x15) (gateOfT x16 x17 x18 x19 x20) q := by
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  unfold out0_21
  rw [View.canon_unit_zero hz2]
  simp only [View.ld_unit_zero (S := S1x2048x256) hz3, View.ld_unit_zero (S := S256x64) hz2,
    View.ld_unit_zero (S := S64) hz1, View.ld_unit_zero (S := S64x256) hz2, View.ld_unit_zero (S := S256) hz1,
    View.ld_unit_zero (S := S256x256) hz2, View.ld_unit_zero (S := S256x2) hz2, View.ld_unit_zero (S := S2) hz1]
  simp only [firstW1_eq, firstW2_eq, secondW1_eq, secondW2_eq, gateLeft_eq, gateRight_eq, gateSecond_eq]
  refine (storedBlock_apply _ _ _ _ _ _ p q).trans ?_
  refine mixLogistic_congr (fun c => ?_) (fun c => ?_) (fun o => ?_) q
  · exact pooledOfInputs_apply x0 x1 x3 x4 x5 x6 x7 x8 x9 x10 x11 x12 x13 x14 x15 p c
  · exact queryBlock_apply x2 p c
  · refine congrArg (· + x20 (ix1 o)) (Finset.sum_congr rfl fun d _ => ?_)
    refine congrArg (fun t => max t lit0 * x19 (ix2 d o)) ?_
    refine (gatePreBlock_apply _ _ _ _ _ _ _ _ _ _ _ _ _ _ p d).trans ?_
    simp only [pooledOfInputs_apply, queryBlock_apply]
    rfl

end Cert.KernelIdeal.Token

end
-- ==== Proof.KernelHost.lean ====
/-
  What the arrays hold when the block computation starts. The two boundary-row arrays are the gathered rows, the
  same two functions of the feature array and the box array that the other program computes (the same operations
  in the same order). Each parameter array handed to the block computation is the transpose of an argument (for the
  gate's first map: of its left half and of its right half), so its entry (k, d) is the argument's entry (d, k).
-/
import proofs.«425884_j67662914781840_4_alg».proof.Proof.Gen.KernelIdeal.Frame
import proofs.«425884_j67662914781840_4_alg».proof.Proof.RefStages
import proofs.«425884_j67662914781840_4_alg».proof.Proof.TokenMath
import Idealize.ShloMosaic.Lib.Pipeline.Value
import Idealize.ShloMosaic.Lib.ValueIdx

noncomputable section

namespace Cert.KernelIdeal.HostSide

open Cert.KernelIdeal Cert.KernelIdeal.Gen Cert.TokenMath Idealize.ShloMosaic Idealize.ShloMosaic.TcCoe Idealize.ShloMosaic.ValueIdx Idealize.SL.Sem

variable (m : (ℓ : Loc nD τ sig) → Buf (Elt Ideal) ℓ) (c : Dev nD)

/-! ### The boundary rows

Both programs compute the boundary rows by the same operations in the same order: the two coordinates of a box are
cut out of the box array, the start (end) position is the centre minus (plus) half the width, scaled, clipped to the
row range, rounded and converted to an integer; the row at that position is gathered from the feature array, and a
position outside the range gives a row of NaNs. Read at any float type, the composed term of this program's
operations is the other program's stage function applied to the same two arguments, by unfolding. -/

/-- The start rows at any float type: the composition of this program's operations is the other program's stage. -/
theorem V_main_v21_generic {F : FTy → Type} [FloatOps F] (mF : (ℓ : Loc nD τ sig) → Buf (Elt F) ℓ) :
    (V mF c main_v21 : (⟨S16x4096x256, .f32⟩ : BufTy).Contents (Elt F))
      = Cert.ReferenceIdeal.Stages.val_main_v21 (F := F) (mF ((c : Thread nD τ).loc main_arg0)) (mF ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  simp only [StableHlo.TRef.ofBuf, StableHlo.TRef.toBuf, cast_eq]
  rfl

/-- The end rows at any float type: the composition of this program's operations is the other program's stage. -/
theorem V_main_v23_generic {F : FTy → Type} [FloatOps F] (mF : (ℓ : Loc nD τ sig) → Buf (Elt F) ℓ) :
    (V mF c main_v23 : (⟨S16x4096x256, .f32⟩ : BufTy).Contents (Elt F))
      = Cert.ReferenceIdeal.Stages.val_main_v23 (F := F) (mF ((c : Thread nD τ).loc main_arg0)) (mF ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  simp only [StableHlo.TRef.ofBuf, StableHlo.TRef.toBuf, cast_eq]
  rfl

/-- The start-boundary rows at the region's entry are the other program's gathered start rows. -/
theorem V_start_rows : (V m c main_v21 : S16x4096x256.Idx → EReal)
    = Cert.ReferenceIdeal.Stages.val_main_v21 (F := Ideal) (m ((c : Thread nD τ).loc main_arg0)) (m ((c : Thread nD τ).loc main_arg1)) :=
  V_main_v21_generic c m

/-- The end-boundary rows at the region's entry are the other program's gathered end rows. -/
theorem V_end_rows : (V m c main_v23 : S16x4096x256.Idx → EReal)
    = Cert.ReferenceIdeal.Stages.val_main_v23 (F := Ideal) (m ((c : Thread nD τ).loc main_arg0)) (m ((c : Thread nD τ).loc main_arg1)) :=
  V_main_v23_generic c m

/-! ### The parameter arrays

Each parameter array handed to the block computation is written by a transpose of an argument (for the gate's first
map: of a slice of it) followed by a change of float format, which is the identity on extended reals. First the
composed term of each, then its entry at an index: a transpose reads the operand at the swapped index, a slice at the
index shifted by its offsets. -/

theorem V_v25_term : (V m c main_v25 : S256x64.Idx → EReal)
    = (truncf (F := Ideal) .bf16 (transpose S256x64 [1, 0] (m ((c : Thread nD τ).loc main_arg4)) transposes_S64x256_S256x64_1_0) bitsLt_bf16_f32 : FVec Ideal S256x64 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v27_term : (V m c main_v27 : S64x256.Idx → EReal)
    = (truncf (F := Ideal) .bf16 (transpose S64x256 [1, 0] (m ((c : Thread nD τ).loc main_arg6)) transposes_S256x64_S64x256_1_0) bitsLt_bf16_f32 : FVec Ideal S64x256 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v29_term : (V m c main_v29 : S256x64.Idx → EReal)
    = (truncf (F := Ideal) .bf16 (transpose S256x64 [1, 0] (m ((c : Thread nD τ).loc main_arg10)) transposes_S64x256_S256x64_1_0) bitsLt_bf16_f32 : FVec Ideal S256x64 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v31_term : (V m c main_v31 : S64x256.Idx → EReal)
    = (truncf (F := Ideal) .bf16 (transpose S64x256 [1, 0] (m ((c : Thread nD τ).loc main_arg12)) transposes_S256x64_S64x256_1_0) bitsLt_bf16_f32 : FVec Ideal S64x256 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v39_term : (V m c main_v39 : S256x2.Idx → EReal)
    = (truncf (F := Ideal) .bf16 (transpose S256x2 [1, 0] (m ((c : Thread nD τ).loc main_arg18)) transposes_S2x256_S256x2_1_0) bitsLt_bf16_f32 : FVec Ideal S256x2 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v34_term : (V m c main_v34 : S256x256.Idx → EReal)
    = (truncf (F := Ideal) .bf16 (transpose S256x256 [1, 0] (extractStridedSlice S256x256 ![0, 0] (m ((c : Thread nD τ).loc main_arg16)) slices_S256x512_S256x256_0_0) transposes_S256x256_S256x256_1_0) bitsLt_bf16_f32 : FVec Ideal S256x256 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

theorem V_v37_term : (V m c main_v37 : S256x256.Idx → EReal)
    = (truncf (F := Ideal) .bf16 (transpose S256x256 [1, 0] (extractStridedSlice S256x256 ![0, 256] (m ((c : Thread nD τ).loc main_arg16)) slices_S256x512_S256x256_0_256) transposes_S256x256_S256x256_1_0) bitsLt_bf16_f32 : FVec Ideal S256x256 .bf16) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp <;> rfl

/-- First branch, first map transposed. -/
theorem V_w1t_first (k : Fin 256) (d : Fin 64) :
    (V m c main_v25 : S256x64.Idx → EReal) (ix2 k d) = ((m ((c : Thread nD τ).loc main_arg4)) : S64x256.Idx → EReal) (ix2 d k) := by
  rw [V_v25_term]
  refine (truncf_apply _ bitsLt_bf16_f32 _).trans ?_
  exact transpose_apply [1, 0] _ transposes_S64x256_S256x64_1_0 (ix2 k d) (ix2 d k) (fun b => match b with
    | ⟨0, _⟩ => rfl
    | ⟨1, _⟩ => rfl)

/-- First branch, second map transposed. -/
theorem V_w2t_first (d : Fin 64) (q : Fin 256) :
    (V m c main_v27 : S64x256.Idx → EReal) (ix2 d q) = ((m ((c : Thread nD τ).loc main_arg6)) : S256x64.Idx → EReal) (ix2 q d) := by
  rw [V_v27_term]
  refine (truncf_apply _ bitsLt_bf16_f32 _).trans ?_
  exact transpose_apply [1, 0] _ transposes_S256x64_S64x256_1_0 (ix2 d q) (ix2 q d) (fun b => match b with
    | ⟨0, _⟩ => rfl
    | ⟨1, _⟩ => rfl)

/-- Second branch, first map transposed. -/
theorem V_w1t_second (k : Fin 256) (d : Fin 64) :
    (V m c main_v29 : S256x64.Idx → EReal) (ix2 k d) = ((m ((c : Thread nD τ).loc main_arg10)) : S64x256.Idx → EReal) (ix2 d k) := by
  rw [V_v29_term]
  refine (truncf_apply _ bitsLt_bf16_f32 _).trans ?_
  exact transpose_apply [1, 0] _ transposes_S64x256_S256x64_1_0 (ix2 k d) (ix2 d k) (fun b => match b with
    | ⟨0, _⟩ => rfl
    | ⟨1, _⟩ => rfl)

/-- Second branch, second map transposed. -/
theorem V_w2t_second (d : Fin 64) (q : Fin 256) :
    (V m c main_v31 : S64x256.Idx → EReal) (ix2 d q) = ((m ((c : Thread nD τ).loc main_arg12)) : S256x64.Idx → EReal) (ix2 q d) := by
  rw [V_v31_term]
  refine (truncf_apply _ bitsLt_bf16_f32 _).trans ?_
  exact transpose_apply [1, 0] _ transposes_S256x64_S64x256_1_0 (ix2 d q) (ix2 q d) (fun b => match b with
    | ⟨0, _⟩ => rfl
    | ⟨1, _⟩ => rfl)

/-- The gate's first map, left half, transposed. -/
theorem V_gate_left (k d : Fin 256) :
    (V m c main_v34 : S256x256.Idx → EReal) (ix2 k d) = ((m ((c : Thread nD τ).loc main_arg16)) : S256x512.Idx → EReal) (ix2 d (Fin.castAdd 256 k)) := by
  rw [V_v34_term]
  refine (truncf_apply _ bitsLt_bf16_f32 _).trans ?_
  refine (transpose_apply [1, 0] _ transposes_S256x256_S256x256_1_0 (ix2 k d) (ix2 d k) (fun b => match b with
    | ⟨0, _⟩ => rfl
    | ⟨1, _⟩ => rfl)).trans ?_
  exact extractStridedSlice_apply ![0, 0] _ slices_S256x512_S256x256_0_0 (ix2 d k) (ix2 d (Fin.castAdd 256 k)) (fun a => match a with
    | ⟨0, _⟩ => by show d.val = 0 + d.val; omega
    | ⟨1, _⟩ => by show k.val = 0 + k.val; omega)

/-- The gate's first map, right half, transposed. -/
theorem V_gate_right (k d : Fin 256) :
    (V m c main_v37 : S256x256.Idx → EReal) (ix2 k d) = ((m ((c : Thread nD τ).loc main_arg16)) : S256x512.Idx → EReal) (ix2 d (Fin.natAdd 256 k)) := by
  rw [V_v37_term]
  refine (truncf_apply _ bitsLt_bf16_f32 _).trans ?_
  refine (transpose_apply [1, 0] _ transposes_S256x256_S256x256_1_0 (ix2 k d) (ix2 d k) (fun b => match b with
    | ⟨0, _⟩ => rfl
    | ⟨1, _⟩ => rfl)).trans ?_
  exact extractStridedSlice_apply ![0, 256] _ slices_S256x512_S256x256_0_256 (ix2 d k) (ix2 d (Fin.natAdd 256 k)) (fun a => match a with
    | ⟨0, _⟩ => by show d.val = 0 + d.val; omega
    | ⟨1, _⟩ => by show 256 + k.val = 256 + k.val; rfl)

/-- The gate's second map transposed. -/
theorem V_gate_second (d : Fin 256) (o : Fin 2) :
    (V m c main_v39 : S256x2.Idx → EReal) (ix2 d o) = ((m ((c : Thread nD τ).loc main_arg18)) : S2x256.Idx → EReal) (ix2 o d) := by
  rw [V_v39_term]
  refine (truncf_apply _ bitsLt_bf16_f32 _).trans ?_
  exact transpose_apply [1, 0] _ transposes_S2x256_S256x2_1_0 (ix2 d o) (ix2 o d) (fun b => match b with
    | ⟨0, _⟩ => rfl
    | ⟨1, _⟩ => rfl)

end Cert.KernelIdeal.HostSide

end
-- ==== Proof.BlockReads.lean ====
/-
  The blocks a grid point reads.

  The region's grid point (b, h) (b one of 16 batches, h one of two halves of the 4096 tokens) reads rows
  h·2048 … h·2048 + 2047 of batch b from the four row arrays — so row p of such a block is row (b, h·2048 + p) of the
  array — and the whole of every parameter array. The result array and its [4096, 4096] layout are defined here too:
  entry (n, b, q), resp. (n, b·256 + q), is entry q of token (b, n). Each read is one equation between the block's
  embedding of an index and the array index, decided coordinate by coordinate from the printed index maps.
-/
import proofs.«425884_j67662914781840_4_alg».proof.Proof.Gen.KernelIdeal.Frame
import proofs.«425884_j67662914781840_4_alg».proof.Proof.KernelToken
import proofs.«425884_j67662914781840_4_alg».proof.Proof.KernelHost
import Idealize.ShloMosaic.Lib.Pipeline.Value
import Idealize.ShloMosaic.Lib.ValueIdx
import Idealize.ShloMosaic.Lib.StableHlo.Run

set_option Elab.async false

noncomputable section

namespace Cert.KernelIdeal.Whole

open Cert.KernelIdeal Cert.KernelIdeal.Gen Cert.TokenMath Cert.KernelIdeal.Token Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The token computation over the argument arrays -/

/-- The gathered start-boundary rows and end-boundary rows, as functions of the feature and box arrays. -/
abbrev startRows (c : Dev nD) : T16x4096x256.Idx → EReal :=
  Cert.ReferenceIdeal.Stages.val_main_v21 (F := Ideal) (m ((c : Thread nD τ).loc main_arg0)) (m ((c : Thread nD τ).loc main_arg1))
abbrev endRows (c : Dev nD) : T16x4096x256.Idx → EReal :=
  Cert.ReferenceIdeal.Stages.val_main_v23 (F := Ideal) (m ((c : Thread nD τ).loc main_arg0)) (m ((c : Thread nD τ).loc main_arg1))

/-- The two branches' and the gate's parameters, read off the argument arrays. -/
abbrev branch1 (c : Dev nD) : Branch := branchOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev branch2 (c : Dev nD) : Branch := branchOf (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
abbrev gate (c : Dev nD) : Gate := gateOf (m ((c : Thread nD τ).loc main_arg16)) (m ((c : Thread nD τ).loc main_arg17)) (m ((c : Thread nD τ).loc main_arg18)) (m ((c : Thread nD τ).loc main_arg19))

/-- The result array: entry (n, b, q) is entry q of token (b, n). -/
def result (c : Dev nD) : T4096x16x256.Idx → EReal :=
  resultSplit (startRows m c) (endRows m c) (m ((c : Thread nD τ).loc main_arg2)) (m ((c : Thread nD τ).loc main_arg3)) (branch1 m c) (branch2 m c) (gate m c)

/-- The same laid out as [4096, 4096]: entry (n, b·256 + q). -/
def flat (c : Dev nD) : S4096x4096.Idx → EReal := fun i =>
  result m c (ix3 (⟨(i 0).val, (i 0).isLt⟩ : Fin 4096)
    (⟨(i 1).val / 256, by have h : (i 1).val < 4096 := (i 1).isLt; omega⟩ : Fin 16)
    (⟨(i 1).val % 256, Nat.mod_lt _ (by norm_num)⟩ : Fin 256))

theorem flat_apply (c : Dev nD) (n : Fin 4096) (b : Fin 16) (q : Fin 256) (i : S4096x4096.Idx)
    (h0 : (i 0).val = n.val) (h1 : (i 1).val = b.val * 256 + q.val) :
    flat m c i = tokenSplit (row (startRows m c) b n) (row (endRows m c) b n) (row (m ((c : Thread nD τ).loc main_arg2)) b n) (row (m ((c : Thread nD τ).loc main_arg3)) b n)
      (branch1 m c) (branch2 m c) (gate m c) q := by
  have e0 : (⟨(i 0).val, (i 0).isLt⟩ : Fin 4096) = n := Fin.ext h0
  have e1 : (⟨(i 1).val / 256, by have h : (i 1).val < 4096 := (i 1).isLt; omega⟩ : Fin 16) = b :=
    Fin.ext (by show (i 1).val / 256 = b.val; have := q.isLt; omega)
  have e2 : (⟨(i 1).val % 256, Nat.mod_lt _ (by norm_num)⟩ : Fin 256) = q :=
    Fin.ext (by show (i 1).val % 256 = q.val; have := q.isLt; omega)
  unfold flat
  rw [e0, e1, e2]
  rfl

/-! ## The printed index maps over the grid -/

/-- The four row windows move with the output window: batch = the output's column block, half = its row block. -/
theorem idx_rows : ∀ t : Fin cfg0.N,
    (win0_0.index t (0 : Fin 3) = win0_21.index t (1 : Fin 2) ∧ win0_0.index t (1 : Fin 3) = win0_21.index t (0 : Fin 2) ∧ win0_0.index t (2 : Fin 3) = 0 ∧ True)
    ∧ (win0_1.index t (0 : Fin 3) = win0_21.index t (1 : Fin 2) ∧ win0_1.index t (1 : Fin 3) = win0_21.index t (0 : Fin 2) ∧ win0_1.index t (2 : Fin 3) = 0 ∧ True)
    ∧ (win0_2.index t (0 : Fin 3) = win0_21.index t (1 : Fin 2) ∧ win0_2.index t (1 : Fin 3) = win0_21.index t (0 : Fin 2) ∧ win0_2.index t (2 : Fin 3) = 0 ∧ True)
    ∧ (win0_3.index t (0 : Fin 3) = win0_21.index t (1 : Fin 2) ∧ win0_3.index t (1 : Fin 3) = win0_21.index t (0 : Fin 2) ∧ win0_3.index t (2 : Fin 3) = 0 ∧ True) :=
  (by decide +kernel : ∀ t : Fin grid0.N, _)

/-- The output's block indices stay in their ranges. -/
theorem idx_out : ∀ t : Fin cfg0.N, win0_21.index t (0 : Fin 2) ≤ 1 ∧ win0_21.index t (1 : Fin 2) ≤ 15 :=
  (by decide +kernel : ∀ t : Fin grid0.N, _)

/-- Every block of the output array is some point's. -/
theorem idx_onto : ∀ (q0 : Fin 2) (q1 : Fin 16), ∃ t : Fin cfg0.N, win0_21.index t = ![q0.val, q1.val] :=
  (by decide +kernel : ∀ (q0 : Fin 2) (q1 : Fin 16), ∃ t : Fin grid0.N, win0_21.index t = ![q0.val, q1.val])

/-- Every parameter window is its whole array at every point. -/
theorem idx_w4 : ∀ t : Fin cfg0.N, win0_4.index t (0 : Fin 2) = 0 ∧ win0_4.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 1) = 0 :=
  (by decide +kernel : ∀ t : Fin grid0.N, _)
theorem idx_w11 : ∀ t : Fin cfg0.N, win0_11.index t (0 : Fin 1) = 0 :=
  (by decide +kernel : ∀ t : Fin grid0.N, _)
theorem idx_w13 : ∀ t : Fin cfg0.N, win0_13.index t (0 : Fin 1) = 0 :=
  (by decide +kernel : ∀ t : Fin grid0.N, _)
theorem idx_w14 : ∀ t : Fin cfg0.N, win0_14.index t (0 : Fin 1) = 0 :=
  (by decide +kernel : ∀ t : Fin grid0.N, _)
theorem idx_w15 : ∀ t : Fin cfg0.N, win0_15.index t (0 : Fin 1) = 0 :=
  (by decide +kernel : ∀ t : Fin grid0.N, _)
theorem idx_w18 : ∀ t : Fin cfg0.N, win0_18.index t (0 : Fin 1) = 0 :=
  (by decide +kernel : ∀ t : Fin grid0.N, _)
theorem idx_w20 : ∀ t : Fin cfg0.N, win0_20.index t (0 : Fin 1) = 0 :=
  (by decide +kernel : ∀ t : Fin grid0.N, _)

/-- The batch and the token a grid point's row p belongs to. -/
def bOf (t : Fin cfg0.N) : Fin 16 := ⟨win0_21.index t (1 : Fin 2), by have := (idx_out t).2; omega⟩
def nOf (t : Fin cfg0.N) (p : Fin 2048) : Fin 4096 :=
  ⟨win0_21.index t (0 : Fin 2) * 2048 + p.val, by have := (idx_out t).1; have := p.isLt; omega⟩

/-! ## The input blocks, read -/

/-- Row p of the start-rows block at a point is the token's start-boundary row. -/
theorem rows_start (c : Dev nD) (t : Fin cfg0.N) (p : Fin 2048) :
    (fun k : Fin 256 => (iblk m c 0 t : Vec Ideal S1x2048x256 .f32) (ix3 0 p k)) = row (startRows m c) (bOf t) (nOf t p) := by
  funext k
  obtain ⟨h0, h1, h2, -⟩ := (idx_rows t).1
  have e : ((cfg0.win 0).blk t).view.emb (ix3 (0 : Fin 1) p k) = (ix3 (bOf t) (nOf t p) k : S16x4096x256.Idx) := by
    funext a
    apply Fin.ext
    match a with
    | ⟨0, _⟩ => show win0_0.index t (0 : Fin 3) * 1 + 1 * 0 = win0_21.index t (1 : Fin 2); omega
    | ⟨1, _⟩ => show win0_0.index t (1 : Fin 3) * 2048 + 1 * p.val = win0_21.index t (0 : Fin 2) * 2048 + p.val; omega
    | ⟨2, _⟩ => show win0_0.index t (2 : Fin 3) * 256 + 1 * k.val = k.val; omega
  unfold iblk row
  rw [View.read_apply, e]
  exact congrFun (V_start_rows m c) _

/-- Row p of the end-rows block is the token's end-boundary row. -/
theorem rows_end (c : Dev nD) (t : Fin cfg0.N) (p : Fin 2048) :
    (fun k : Fin 256 => (iblk m c 1 t : Vec Ideal S1x2048x256 .f32) (ix3 0 p k)) = row (endRows m c) (bOf t) (nOf t p) := by
  funext k
  obtain ⟨h0, h1, h2, -⟩ := (idx_rows t).2.1
  have e : ((cfg0.win 1).blk t).view.emb (ix3 (0 : Fin 1) p k) = (ix3 (bOf t) (nOf t p) k : S16x4096x256.Idx) := by
    funext a
    apply Fin.ext
    match a with
    | ⟨0, _⟩ => show win0_1.index t (0 : Fin 3) * 1 + 1 * 0 = win0_21.index t (1 : Fin 2); omega
    | ⟨1, _⟩ => show win0_1.index t (1 : Fin 3) * 2048 + 1 * p.val = win0_21.index t (0 : Fin 2) * 2048 + p.val; omega
    | ⟨2, _⟩ => show win0_1.index t (2 : Fin 3) * 256 + 1 * k.val = k.val; omega
  unfold iblk row
  rw [View.read_apply, e]
  exact congrFun (V_end_rows m c) _

/-- Row p of the query block is the token's query row. -/
theorem rows_query (c : Dev nD) (t : Fin cfg0.N) (p : Fin 2048) :
    (fun k : Fin 256 => (iblk m c 2 t : Vec Ideal S1x2048x256 .f32) (ix3 0 p k)) = row ((m ((c : Thread nD τ).loc main_arg2))) (bOf t) (nOf t p) := by
  funext k
  obtain ⟨h0, h1, h2, -⟩ := (idx_rows t).2.2.1
  have e : ((cfg0.win 2).blk t).view.emb (ix3 (0 : Fin 1) p k) = (ix3 (bOf t) (nOf t p) k : S16x4096x256.Idx) := by
    funext a
    apply Fin.ext
    match a with
    | ⟨0, _⟩ => show win0_2.index t (0 : Fin 3) * 1 + 1 * 0 = win0_21.index t (1 : Fin 2); omega
    | ⟨1, _⟩ => show win0_2.index t (1 : Fin 3) * 2048 + 1 * p.val = win0_21.index t (0 : Fin 2) * 2048 + p.val; omega
    | ⟨2, _⟩ => show win0_2.index t (2 : Fin 3) * 256 + 1 * k.val = k.val; omega
  unfold iblk row
  rw [View.read_apply, e]
  exact congrFun (V_main_arg2 m c) _

/-- Row p of the positional block is the token's positional row. -/
theorem rows_pos (c : Dev nD) (t : Fin cfg0.N) (p : Fin 2048) :
    (fun k : Fin 256 => (iblk m c 3 t : Vec Ideal S1x2048x256 .f32) (ix3 0 p k)) = row ((m ((c : Thread nD τ).loc main_arg3))) (bOf t) (nOf t p) := by
  funext k
  obtain ⟨h0, h1, h2, -⟩ := (idx_rows t).2.2.2
  have e : ((cfg0.win 3).blk t).view.emb (ix3 (0 : Fin 1) p k) = (ix3 (bOf t) (nOf t p) k : S16x4096x256.Idx) := by
    funext a
    apply Fin.ext
    match a with
    | ⟨0, _⟩ => show win0_3.index t (0 : Fin 3) * 1 + 1 * 0 = win0_21.index t (1 : Fin 2); omega
    | ⟨1, _⟩ => show win0_3.index t (1 : Fin 3) * 2048 + 1 * p.val = win0_21.index t (0 : Fin 2) * 2048 + p.val; omega
    | ⟨2, _⟩ => show win0_3.index t (2 : Fin 3) * 256 + 1 * k.val = k.val; omega
  unfold iblk row
  rw [View.read_apply, e]
  exact congrFun (V_main_arg3 m c) _

/-- The first branch's first map, transposed block. -/
theorem blk_w1t_first (c : Dev nD) (t : Fin cfg0.N) (a : Fin 256) (b : Fin 64) :
    (iblk m c 4 t : Vec Ideal S256x64 .bf16) (ix2 a b) = ((m ((c : Thread nD τ).loc main_arg4)) : S64x256.Idx → EReal) (ix2 b a) := by
  obtain ⟨h0, h1⟩ := idx_w4 t
  have e : ((cfg0.win 4).blk t).view.emb (ix2 a b) = (ix2 a b : S256x64.Idx) := by
    funext x
    apply Fin.ext
    match x with
    | ⟨0, _⟩ => show win0_4.index t (0 : Fin 2) * 256 + 1 * a.val = a.val; omega
    | ⟨1, _⟩ => show win0_4.index t (1 : Fin 2) * 64 + 1 * b.val = b.val; omega
  unfold iblk
  rw [View.read_apply, e]
  exact V_w1t_first m c a b

/-- The first branch's second map, transposed block. -/
theorem blk_w2t_first (c : Dev nD) (t : Fin cfg0.N) (a : Fin 64) (b : Fin 256) :
    (iblk m c 6 t : Vec Ideal S64x256 .bf16) (ix2 a b) = ((m ((c : Thread nD τ).loc main_arg6)) : S256x64.Idx → EReal) (ix2 b a) := by
  obtain ⟨h0, h1⟩ := idx_w6 t
  have e : ((cfg0.win 6).blk t).view.emb (ix2 a b) = (ix2 a b : S64x256.Idx) := by
    funext x
    apply Fin.ext
    match x with
    | ⟨0, _⟩ => show win0_6.index t (0 : Fin 2) * 64 + 1 * a.val = a.val; omega
    | ⟨1, _⟩ => show win0_6.index t (1 : Fin 2) * 256 + 1 * b.val = b.val; omega
  unfold iblk
  rw [View.read_apply, e]
  exact V_w2t_first m c a b

/-- The second branch's first map, transposed block. -/
theorem blk_w1t_second (c : Dev nD) (t : Fin cfg0.N) (a : Fin 256) (b : Fin 64) :
    (iblk m c 10 t : Vec Ideal S256x64 .bf16) (ix2 a b) = ((m ((c : Thread nD τ).loc main_arg10)) : S64x256.Idx → EReal) (ix2 b a) := by
  obtain ⟨h0, h1⟩ := idx_w10 t
  have e : ((cfg0.win 10).blk t).view.emb (ix2 a b) = (ix2 a b : S256x64.Idx) := by
    funext x
    apply Fin.ext
    match x with
    | ⟨0, _⟩ => show win0_10.index t (0 : Fin 2) * 256 + 1 * a.val = a.val; omega
    | ⟨1, _⟩ => show win0_10.index t (1 : Fin 2) * 64 + 1 * b.val = b.val; omega
  unfold iblk
  rw [View.read_apply, e]
  exact V_w1t_second m c a b

/-- The second branch's second map, transposed block. -/
theorem blk_w2t_second (c : Dev nD) (t : Fin cfg0.N) (a : Fin 64) (b : Fin 256) :
    (iblk m c 12 t : Vec Ideal S64x256 .bf16) (ix2 a b) = ((m ((c : Thread nD τ).loc main_arg12)) : S256x64.Idx → EReal) (ix2 b a) := by
  obtain ⟨h0, h1⟩ := idx_w12 t
  have e : ((cfg0.win 12).blk t).view.emb (ix2 a b) = (ix2 a b : S64x256.Idx) := by
    funext x
    apply Fin.ext
    match x with
    | ⟨0, _⟩ => show win0_12.index t (0 : Fin 2) * 64 + 1 * a.val = a.val; omega
    | ⟨1, _⟩ => show win0_12.index t (1 : Fin 2) * 256 + 1 * b.val = b.val; omega
  unfold iblk
  rw [View.read_apply, e]
  exact V_w2t_second m c a b

/-- The gate's first map, left half, transposed block. -/
theorem blk_gate_left (c : Dev nD) (t : Fin cfg0.N) (a : Fin 256) (b : Fin 256) :
    (iblk m c 16 t : Vec Ideal S256x256 .bf16) (ix2 a b) = ((m ((c : Thread nD τ).loc main_arg16)) : S256x512.Idx → EReal) (ix2 b (Fin.castAdd 256 a)) := by
  obtain ⟨h0, h1⟩ := idx_w16 t
  have e : ((cfg0.win 16).blk t).view.emb (ix2 a b) = (ix2 a b : S256x256.Idx) := by
    funext x
    apply Fin.ext
    match x with
    | ⟨0, _⟩ => show win0_16.index t (0 : Fin 2) * 256 + 1 * a.val = a.val; omega
    | ⟨1, _⟩ => show win0_16.index t (1 : Fin 2) * 256 + 1 * b.val = b.val; omega
  unfold iblk
  rw [View.read_apply, e]
  exact V_gate_left m c a b

/-- The gate's first map, right half, transposed block. -/
theorem blk_gate_right (c : Dev nD) (t : Fin cfg0.N) (a : Fin 256) (b : Fin 256) :
    (iblk m c 17 t : Vec Ideal S256x256 .bf16) (ix2 a b) = ((m ((c : Thread nD τ).loc main_arg16)) : S256x512.Idx → EReal) (ix2 b (Fin.natAdd 256 a)) := by
  obtain ⟨h0, h1⟩ := idx_w17 t
  have e : ((cfg0.win 17).blk t).view.emb (ix2 a b) = (ix2 a b : S256x256.Idx) := by
    funext x
    apply Fin.ext
    match x with
    | ⟨0, _⟩ => show win0_17.index t (0 : Fin 2) * 256 + 1 * a.val = a.val; omega
    | ⟨1, _⟩ => show win0_17.index t (1 : Fin 2) * 256 + 1 * b.val = b.val; omega
  unfold iblk
  rw [View.read_apply, e]
  exact V_gate_right m c a b

/-- The gate's second map, transposed block. -/
theorem blk_gate_second (c : Dev nD) (t : Fin cfg0.N) (a : Fin 256) (b : Fin 2) :
    (iblk m c 19 t : Vec Ideal S256x2 .bf16) (ix2 a b) = ((m ((c : Thread nD τ).loc main_arg18)) : S2x256.Idx → EReal) (ix2 b a) := by
  obtain ⟨h0, h1⟩ := idx_w19 t
  have e : ((cfg0.win 19).blk t).view.emb (ix2 a b) = (ix2 a b : S256x2.Idx) := by
    funext x
    apply Fin.ext
    match x with
    | ⟨0, _⟩ => show win0_19.index t (0 : Fin 2) * 256 + 1 * a.val = a.val; omega
    | ⟨1, _⟩ => show win0_19.index t (1 : Fin 2) * 2 + 1 * b.val = b.val; omega
  unfold iblk
  rw [View.read_apply, e]
  exact V_gate_second m c a b

/-- Bias of the first branch's first map. -/
theorem blk_b1_first (c : Dev nD) (t : Fin cfg0.N) (a : Fin 64) :
    (iblk m c 5 t : Vec Ideal S64 .f32) (ix1 a) = ((m ((c : Thread nD τ).loc main_arg5)) : S64.Idx → EReal) (ix1 a) := by
  have h0 := idx_w5 t
  have e : ((cfg0.win 5).blk t).view.emb (ix1 a) = (ix1 a : S64.Idx) := by
    funext x
    apply Fin.ext
    match x with
    | ⟨0, _⟩ => show win0_5.index t (0 : Fin 1) * 64 + 1 * a.val = a.val; omega
  unfold iblk
  rw [View.read_apply, e]
  exact congrFun (V_main_arg5 m c) (ix1 a)

/-- Bias of the first branch's second map. -/
theorem blk_b2_first (c : Dev nD) (t : Fin cfg0.N) (a : Fin 256) :
    (iblk m c 7 t : Vec Ideal S256 .f32) (ix1 a) = ((m ((c : Thread nD τ).loc main_arg7)) : S256.Idx → EReal) (ix1 a) := by
  have h0 := idx_w7 t
  have e : ((cfg0.win 7).blk t).view.emb (ix1 a) = (ix1 a : S256.Idx) := by
    funext x
    apply Fin.ext
    match x with
    | ⟨0, _⟩ => show win0_7.index t (0 : Fin 1) * 256 + 1 * a.val = a.val; omega
  unfold iblk
  rw [View.read_apply, e]
  exact congrFun (V_main_arg7 m c) (ix1 a)

/-- Scale of the first branch. -/
theorem blk_g_first (c : Dev nD) (t : Fin cfg0.N) (a : Fin 256) :
    (iblk m c 8 t : Vec Ideal S256 .f32) (ix1 a) = ((m ((c : Thread nD τ).loc main_arg8)) : S256.Idx → EReal) (ix1 a) := by
  have h0 := idx_w8 t
  have e : ((cfg0.win 8).blk t).view.emb (ix1 a) = (ix1 a : S256.Idx) := by
    funext x
    apply Fin.ext
    match x with
    | ⟨0, _⟩ => show win0_8.index t (0 : Fin 1) * 256 + 1 * a.val = a.val; omega
  unfold iblk
  rw [View.read_apply, e]
  exact congrFun (V_main_arg8 m c) (ix1 a)

/-- Shift of the first branch. -/
theorem blk_be_first (c : Dev nD) (t : Fin cfg0.N) (a : Fin 256) :
    (iblk m c 9 t : Vec Ideal S256 .f32) (ix1 a) = ((m ((c : Thread nD τ).loc main_arg9)) : S256.Idx → EReal) (ix1 a) := by
  have h0 := idx_w9 t
  have e : ((cfg0.win 9).blk t).view.emb (ix1 a) = (ix1 a : S256.Idx) := by
    funext x
    apply Fin.ext
    match x with
    | ⟨0, _⟩ => show win0_9.index t (0 : Fin 1) * 256 + 1 * a.val = a.val; omega
  unfold iblk
  rw [View.read_apply, e]
  exact congrFun (V_main_arg9 m c) (ix1 a)

/-- Bias of the second branch's first map. -/
theorem blk_b1_second (c : Dev nD) (t : Fin cfg0.N) (a : Fin 64) :
    (iblk m c 11 t : Vec Ideal S64 .f32) (ix1 a) = ((m ((c : Thread nD τ).loc main_arg11)) : S64.Idx → EReal) (ix1 a) := by
  have h0 := idx_w11 t
  have e : ((cfg0.win 11).blk t).view.emb (ix1 a) = (ix1 a : S64.Idx) := by
    funext x
    apply Fin.ext
    match x with
    | ⟨0, _⟩ => show win0_11.index t (0 : Fin 1) * 64 + 1 * a.val = a.val; omega
  unfold iblk
  rw [View.read_apply, e]
  exact congrFun (V_main_arg11 m c) (ix1 a)

/-- Bias of the second branch's second map. -/
theorem blk_b2_second (c : Dev nD) (t : Fin cfg0.N) (a : Fin 256) :
    (iblk m c 13 t : Vec Ideal S256 .f32) (ix1 a) = ((m ((c : Thread nD τ).loc main_arg13)) : S256.Idx → EReal) (ix1 a) := by
  have h0 := idx_w13 t
  have e : ((cfg0.win 13).blk t).view.emb (ix1 a) = (ix1 a : S256.Idx) := by
    funext x
    apply Fin.ext
    match x with
    | ⟨0, _⟩ => show win0_13.index t (0 : Fin 1) * 256 + 1 * a.val = a.val; omega
  unfold iblk
  rw [View.read_apply, e]
  exact congrFun (V_main_arg13 m c) (ix1 a)

/-- Scale of the second branch. -/
theorem blk_g_second (c : Dev nD) (t : Fin cfg0.N) (a : Fin 256) :
    (iblk m c 14 t : Vec Ideal S256 .f32) (ix1 a) = ((m ((c : Thread nD τ).loc main_arg14)) : S256.Idx → EReal) (ix1 a) := by
  have h0 := idx_w14 t
  have e : ((cfg0.win 14).blk t).view.emb (ix1 a) = (ix1 a : S256.Idx) := by
    funext x
    apply Fin.ext
    match x with
    | ⟨0, _⟩ => show win0_14.index t (0 : Fin 1) * 256 + 1 * a.val = a.val; omega
  unfold iblk
  rw [View.read_apply, e]
  exact congrFun (V_main_arg14 m c) (ix1 a)

/-- Shift of the second branch. -/
theorem blk_be_second (c : Dev nD) (t : Fin cfg0.N) (a : Fin 256) :
    (iblk m c 15 t : Vec Ideal S256 .f32) (ix1 a) = ((m ((c : Thread nD τ).loc main_arg15)) : S256.Idx → EReal) (ix1 a) := by
  have h0 := idx_w15 t
  have e : ((cfg0.win 15).blk t).view.emb (ix1 a) = (ix1 a : S256.Idx) := by
    funext x
    apply Fin.ext
    match x with
    | ⟨0, _⟩ => show win0_15.index t (0 : Fin 1) * 256 + 1 * a.val = a.val; omega
  unfold iblk
  rw [View.read_apply, e]
  exact congrFun (V_main_arg15 m c) (ix1 a)

/-- Bias of the gate's first map. -/
theorem blk_gate_b1 (c : Dev nD) (t : Fin cfg0.N) (a : Fin 256) :
    (iblk m c 18 t : Vec Ideal S256 .f32) (ix1 a) = ((m ((c : Thread nD τ).loc main_arg17)) : S256.Idx → EReal) (ix1 a) := by
  have h0 := idx_w18 t
  have e : ((cfg0.win 18).blk t).view.emb (ix1 a) = (ix1 a : S256.Idx) := by
    funext x
    apply Fin.ext
    match x with
    | ⟨0, _⟩ => show win0_18.index t (0 : Fin 1) * 256 + 1 * a.val = a.val; omega
  unfold iblk
  rw [View.read_apply, e]
  exact congrFun (V_main_arg17 m c) (ix1 a)

/-- Bias of the gate's second map. -/
theorem blk_gate_b2 (c : Dev nD) (t : Fin cfg0.N) (a : Fin 2) :
    (iblk m c 20 t : Vec Ideal S2 .f32) (ix1 a) = ((m ((c : Thread nD τ).loc main_arg19)) : S2.Idx → EReal) (ix1 a) := by
  have h0 := idx_w20 t
  have e : ((cfg0.win 20).blk t).view.emb (ix1 a) = (ix1 a : S2.Idx) := by
    funext x
    apply Fin.ext
    match x with
    | ⟨0, _⟩ => show win0_20.index t (0 : Fin 1) * 2 + 1 * a.val = a.val; omega
  unfold iblk
  rw [View.read_apply, e]
  exact congrFun (V_main_arg19 m c) (ix1 a)

end Cert.KernelIdeal.Whole

end
-- ==== Proof.KernelArray.lean ====
/-
  From the blocks to the whole result.

  Entry (p, q) of the block a grid point (b, h) writes is entry q of token (b, h·2048 + p): the block computation read
  at one entry, with the point's input blocks read as rows and parameters of the argument arrays. The block goes to
  rows h·2048 …, columns b·256 … b·256 + 255 of a [4096, 4096] array; the 32 blocks tile it, so the array ends holding,
  at (n, b·256 + q), entry q of token (b, n); read as [4096, 16, 256] row-major this is the result at (n, b, q). The
  arguments end as they began.
-/
import proofs.«425884_j67662914781840_4_alg».proof.Proof.BlockReads

noncomputable section

namespace Cert.KernelIdeal.Whole

open Cert.KernelIdeal Cert.KernelIdeal.Gen Cert.TokenMath Cert.KernelIdeal.Token Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The parameters a point's blocks spell -/

/-- The first branch's parameters, read off the point's blocks, are the arguments'. -/
theorem branch1_blocks (c : Dev nD) (t : Fin cfg0.N) :
    branchOfT (iblk m c 4 t) (iblk m c 5 t) (iblk m c 6 t) (iblk m c 7 t) (iblk m c 8 t) (iblk m c 9 t) = branch1 m c := by
  unfold branchOfT branch1 branchOf
  congr 1
  · funext d k; exact blk_w1t_first m c t k d
  · funext d; exact blk_b1_first m c t d
  · funext q d; exact blk_w2t_first m c t d q
  · funext q; exact blk_b2_first m c t q
  · funext q; exact blk_g_first m c t q
  · funext q; exact blk_be_first m c t q

/-- The second branch's. -/
theorem branch2_blocks (c : Dev nD) (t : Fin cfg0.N) :
    branchOfT (iblk m c 10 t) (iblk m c 11 t) (iblk m c 12 t) (iblk m c 13 t) (iblk m c 14 t) (iblk m c 15 t) = branch2 m c := by
  unfold branchOfT branch2 branchOf
  congr 1
  · funext d k; exact blk_w1t_second m c t k d
  · funext d; exact blk_b1_second m c t d
  · funext q d; exact blk_w2t_second m c t d q
  · funext q; exact blk_b2_second m c t q
  · funext q; exact blk_g_second m c t q
  · funext q; exact blk_be_second m c t q

/-- The token's first form reads the gate's first map only through its halves. -/
theorem tokenSplit_gate_congr (sf ef qf pf : Fin 256 → EReal) (Q1 Q2 : Branch) (G G' : Gate)
    (ha : G.wa = G'.wa) (hb : G.wb = G'.wb) (h1 : G.b1 = G'.b1) (h2 : G.w2 = G'.w2) (h3 : G.b2 = G'.b2) :
    tokenSplit sf ef qf pf Q1 Q2 G = tokenSplit sf ef qf pf Q1 Q2 G' := by
  unfold tokenSplit mixLogistic logits gateHiddenSplit gatePre
  rw [ha, hb, h1, h2, h3]

/-- The gate's parameters, read off the point's blocks, give the token the arguments' gate gives. -/
theorem gate_blocks (c : Dev nD) (t : Fin cfg0.N) (sf ef qf pf : Fin 256 → EReal) (Q1 Q2 : Branch) :
    tokenSplit sf ef qf pf Q1 Q2 (gateOfT (iblk m c 16 t) (iblk m c 17 t) (iblk m c 18 t) (iblk m c 19 t) (iblk m c 20 t))
      = tokenSplit sf ef qf pf Q1 Q2 (gate m c) := by
  refine tokenSplit_gate_congr sf ef qf pf Q1 Q2 _ _ ?_ ?_ ?_ ?_ ?_ <;> dsimp only [gateOfT, gate, gateOf]
  · funext d k; exact blk_gate_left m c t k d
  · funext d k; exact blk_gate_right m c t k d
  · funext d; exact blk_gate_b1 m c t d
  · funext o d; exact blk_gate_second m c t d o
  · funext o; exact blk_gate_b2 m c t o

/-! ## What a point writes back, the cover, the whole array -/

/-- WHAT POINT t WRITES BACK is block t of the flat result. -/
theorem flushed_eq (c : Dev nD) (t : Fin cfg0.N) :
    (dats m 0 c).flushed 21 t = ((cfg0.win 21).blk t).view.read (Elt Ideal) (flat m c) := by
  show (cfg0.win 21).cut (grid0.coords t) ((dats m 0 c).after 21 t) = _
  rw [after0_21]
  funext j
  obtain ⟨p, q, rfl⟩ : ∃ (p : Fin 2048) (q : Fin 256), j = ix2 p q := ⟨j 0, j 1, eq_ix2 j⟩
  show out0_21 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t) (ix2 p q)
    = flat m c (((cfg0.win 21).blk t).view.emb (ix2 p q))
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t) p q).trans ?_
  rw [rows_start m c t p, rows_end m c t p, rows_query m c t p, rows_pos m c t p, branch1_blocks m c t, branch2_blocks m c t,
    gate_blocks m c t]
  refine (flat_apply m c (nOf t p) (bOf t) q _ ?_ ?_).symm
  · show win0_21.index t (0 : Fin 2) * 2048 + 1 * p.val = win0_21.index t (0 : Fin 2) * 2048 + p.val; omega
  · show win0_21.index t (1 : Fin 2) * 256 + 1 * q.val = win0_21.index t (1 : Fin 2) * 256 + q.val; omega

/-- An index of the flat array is in point t's block iff each coordinate is in the block's range on its axis. -/
theorem mem_blk (t : Fin cfg0.N) (i : S4096x4096.Idx) :
    i ∈ ((cfg0.win 21).blk t).view.set ↔ ∀ a : Fin 2, win0_21.index t a * S2048x256.size a ≤ (i a).val ∧ (i a).val < win0_21.index t a * S2048x256.size a + S2048x256.size a := by
  show i ∈ ((View.whole main_v40).slice (win0_21.rect t)).set ↔ _
  rw [View.set_slice_whole, Rect.mem_set_unit]
  exact Iff.rfl

/-- The 32 blocks cover the flat array: (n, col) lies in the block of half n / 2048 and batch col / 256. -/
theorem covered (i : S4096x4096.Idx) : ∃ t : Fin cfg0.N, (cfg0.win 21).flush t = true ∧ i ∈ ((cfg0.win 21).blk t).view.set := by
  have hi0 : (i 0).val < 4096 := (i 0).isLt
  have hi1 : (i 1).val < 4096 := (i 1).isLt
  obtain ⟨t, ht⟩ := idx_onto ⟨(i 0).val / 2048, by omega⟩ ⟨(i 1).val / 256, by omega⟩
  have q0 : win0_21.index t (0 : Fin 2) = (i 0).val / 2048 := congrFun ht 0
  have q1 : win0_21.index t (1 : Fin 2) = (i 1).val / 256 := congrFun ht 1
  refine ⟨t, flush0_21 t, ?_⟩
  rw [mem_blk]
  intro a
  match a with
  | ⟨0, _⟩ => show win0_21.index t (0 : Fin 2) * 2048 ≤ (i 0).val ∧ (i 0).val < win0_21.index t (0 : Fin 2) * 2048 + 2048; omega
  | ⟨1, _⟩ => show win0_21.index t (1 : Fin 2) * 256 ≤ (i 1).val ∧ (i 1).val < win0_21.index t (1 : Fin 2) * 256 + 256; omega

/-- THE ARRAY after the region: the flat result. -/
theorem final (c : Dev nD) : (dats m 0 c).arrAt 21 cfg0.N = flat m c :=
  (dats m 0 c).arrAt_eq_of_cover 21 (flat m c) (fun t _ => flushed_eq m c t) (covered)

/-! ## After the region: the reshape, and the run -/

/-- THE RESULT: the flat array read row-major as [4096, 16, 256] is the result array. -/
theorem tail_eq (c : Dev nD) :
    (Pipeline.afterTail₀ cfgs (dats m) 0 (V0 m) [hostOps1] c main_v41 : S4096x16x256.Idx → EReal) = result m c := by
  have hA : (Pipeline.withArrays (cfgs 0).spec c (V0 m c) (fun w => (dats m 0 c).arrAt w (cfgs 0).N)
      (Proc.devRef .tc main_v40) : S4096x4096.Idx → EReal) = flat m c :=
    (Pipeline.withArrays_arr spec0 launch0.win.arr_inj c _ _ 21).trans (final m c)
  unfold Pipeline.afterTail₀
  show StableHlo.after hostOps1 _ (Proc.devRef .tc main_v41) = _
  after_results
  funext i
  show shapeCast S4096x16x256 (Pipeline.withArrays (cfgs 0).spec c (V0 m c) (fun w => (dats m 0 c).arrAt w (cfgs 0).N)
      (Proc.devRef .tc main_v40) : S4096x4096.Idx → EReal) shapeCasts_S4096x4096_S4096x16x256 i = _
  rw [hA]
  obtain ⟨n, b, q, rfl⟩ : ∃ (n : Fin 4096) (b : Fin 16) (q : Fin 256), i = ix3 n b q := ⟨i 0, i 1, i 2, eq_ix3 i⟩
  refine (shapeCast_apply (flat m c) shapeCasts_S4096x4096_S4096x16x256 (ix3 n b q)
    (ix2 n (⟨b.val * 256 + q.val, by have := b.isLt; have := q.isLt; omega⟩ : Fin 4096)) ?_).trans ?_
  · rw [Shape.rowMajor_val_two, Shape.rowMajor_val_three]
    show n.val * 4096 + (b.val * 256 + q.val) = (n.val * 16 + b.val) * 256 + q.val
    omega
  · exact flat_apply m c n b q _ rfl rfl

set_option maxHeartbeats 1320000 in
/-- The arguments end as they began: read off the frame run's post, array by array. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).1 5).trans (((dats m 0 c).arrAt_in 5 rfl _).trans ((A_eq m c 5).trans (V_main_arg5 m c))),
    ((h c).2 main_arg6 (Pipeline.mem_restRefs_of main_arg6 (by decide) (by decide))).trans (W_main_arg6 m (dats m) c),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).2 main_arg10 (Pipeline.mem_restRefs_of main_arg10 (by decide) (by decide))).trans (W_main_arg10 m (dats m) c),
    ((h c).1 11).trans (((dats m 0 c).arrAt_in 11 rfl _).trans ((A_eq m c 11).trans (V_main_arg11 m c))),
    ((h c).2 main_arg12 (Pipeline.mem_restRefs_of main_arg12 (by decide) (by decide))).trans (W_main_arg12 m (dats m) c),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).2 main_arg16 (Pipeline.mem_restRefs_of main_arg16 (by decide) (by decide))).trans (W_main_arg16 m (dats m) c),
    ((h c).1 18).trans (((dats m 0 c).arrAt_in 18 rfl _).trans ((A_eq m c 18).trans (V_main_arg17 m c))),
    ((h c).2 main_arg18 (Pipeline.mem_restRefs_of main_arg18 (by decide) (by decide))).trans (W_main_arg18 m (dats m) c),
    ((h c).1 20).trans (((dats m 0 c).arrAt_in 20 rfl _).trans ((A_eq m c 20).trans (V_main_arg19 m c)))⟩

/-- The kernel program's run: it terminates with the result array holding the token computation of the arguments,
    the arguments unchanged. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨((h c).2 main_v41 (Pipeline.mem_restRefs_of main_v41 (by decide) (by decide))).trans (tail_eq m c), kept m r h c⟩)
    (run_main m ρ)

end Cert.KernelIdeal.Whole

end
-- ==== Proof.lean ====
/-
  The two programs compute, for each of the 16 × 4096 tokens, the same 256 numbers.

  Both gather a start-boundary and an end-boundary feature row per token (the same host operations on the same
  arguments), contrast each with the positional row (two small linear maps, a normalisation of the row, the logistic
  function), average the two, and mix the average with the query row by a two-way gate. They differ in two places. One
  computes the gate's first linear map on the joined row of 512 entries, the other adds the products of the two halves:
  the same sum, split. One writes the two gate weights as the softmax of the two logits with the larger subtracted, the
  other as the logistic function of their difference and its complement to one: equal for real logits, and the logits
  are real because the inputs are finite — the gathered rows are entries of the finite feature array (the clipped,
  rounded row index is always in range), the logistic function of anything is a real number in [0, 1], and sums and
  products of reals are real. One program computes token (b, n) in the block of batch b and half n / 2048 and lays the
  blocks out as [4096, 16·256]; the other computes the whole [16, 4096, 256] array and swaps its first two axes: the
  same entry (n, b, q).

  The word-level program is the idealized one read at words (no rewrite was applied), and each program's frame is its
  run with the value dropped.
-/
import proofs.«425884_j67662914781840_4_alg».proof.Defs
import proofs.«425884_j67662914781840_4_alg».proof.Proof.Gen.Kernel
import proofs.«425884_j67662914781840_4_alg».proof.Proof.Gen.Kernel.Skeleton
import proofs.«425884_j67662914781840_4_alg».proof.Proof.Gen.Kernel.Launch
import proofs.«425884_j67662914781840_4_alg».proof.Proof.Gen.Kernel.Points
import proofs.«425884_j67662914781840_4_alg».proof.Proof.Gen.Kernel.Frame
import proofs.«425884_j67662914781840_4_alg».proof.Proof.Gen.KernelIdeal
import proofs.«425884_j67662914781840_4_alg».proof.Proof.Gen.KernelIdeal.Skeleton
import proofs.«425884_j67662914781840_4_alg».proof.Proof.Gen.KernelIdeal.Launch
import proofs.«425884_j67662914781840_4_alg».proof.Proof.Gen.KernelIdeal.Points
import proofs.«425884_j67662914781840_4_alg».proof.Proof.Gen.KernelIdeal.Frame
import proofs.«425884_j67662914781840_4_alg».proof.Proof.Gen.ReferenceIdeal
import proofs.«425884_j67662914781840_4_alg».proof.Proof.Gen.Pre_finite_inputs
import proofs.«425884_j67662914781840_4_alg».proof.Proof.RefRun
import proofs.«425884_j67662914781840_4_alg».proof.Proof.RefRows
import proofs.«425884_j67662914781840_4_alg».proof.Proof.BoundaryRows
import proofs.«425884_j67662914781840_4_alg».proof.Proof.GateLaw
import proofs.«425884_j67662914781840_4_alg».proof.Proof.InputsReal
import proofs.«425884_j67662914781840_4_alg».proof.Proof.KernelArray
import Idealize.ShloMosaic.Adequacy
import Idealize.ShloMosaic.Init

noncomputable section

namespace Cert.Proof

open Idealize.ShloMosaic Idealize.ShloMosaic.ValueIdx Idealize.SL.Sem Cert.TokenMath

/-- The reference's result, as a function of arguments that agree with the kernel's, is the kernel's result: the
    token computation in its joined / softmax form equals the split / logistic form, entry by entry, because the rows
    and the gate parameters that matter are real numbers under the precondition. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.RunP.res_main_v137 m' c = Cert.KernelIdeal.Whole.result m c := by
  obtain ⟨e0, e1, e2, e3, e4, e5, e6, e7, e8, e9, e10, e11, e12, e13, e14, e15, e16, e17, e18, e19⟩ := hag
  obtain ⟨h0, h2, h16, h17, h18, h19⟩ := Cert.InputsReal.inputs_real m hpre c
  unfold Cert.ReferenceIdeal.RunP.res_main_v137
  rw [e0, e1, e2, e3, e4, e5, e6, e7, e8, e9, e10, e11, e12, e13, e14, e15, e16, e17, e18, e19]
  rw [Cert.ReferenceIdeal.Rows.ref_value]
  funext j
  unfold Cert.KernelIdeal.Whole.result resultSplit resultJoined
  exact (congrFun (tokenSplit_eq_tokenJoined _ _ _ _ _ _ _ (gateOf_split _ _ _ _)
    ⟨fun d k => h16 (ix2 d k), fun d => h17 (ix1 d), fun o d => h18 (ix2 o d), fun o => h19 (ix1 o)⟩
    (fun k => Cert.ReferenceIdeal.Boundary.start_rows_real _ _ h0 _)
    (fun k => Cert.ReferenceIdeal.Boundary.end_rows_real _ _ h0 _)
    (fun k => h2 _)) (j 2)).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs run; the kernel's result array and the reference's hold the same extended reals. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  exact value_eq m m' hpre c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
